-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S50000 : Shape := ⟨1, ![50000]⟩
abbrev S128x384 : Shape := ⟨2, ![128, 384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg4 : IVec S50000 32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 0#32
  let main_v74 : IVec S50000 32 := broadcastInDim S50000 ![] bcast_S_S50000 main_c_28
  let main_v75 : IVec S50000 1 := cmpi .sge main_arg4 main_v74
  let main_c_29 : IVec S_ 32 := constantI S_ 32 128#32
  let main_v76 : IVec S50000 32 := broadcastInDim S50000 ![] bcast_S_S50000 main_c_29
  let main_v77 : IVec S50000 1 := cmpi .slt main_arg4 main_v76
  let main_v78 : IVec S50000 1 := andi main_v75 main_v77
  let main_c_30 : IVec S_ 1 := constantI S_ 1 1#1
  let main_v79 : IVec S_ 1 := (fun x v => Host.reduce IntOp.andi x v reducesTo_S50000_S_d0 h_S_) main_v78 main_c_30
  let main_v80 : IVec S_ 1 := andi main_v73 main_v79
  main_v80

def fn_part3 {F : FTy → Type} [FloatOps F] (main_arg4 : IVec S50000 32) (main_arg13 : FVec F S128 .f32) (main_arg14 : FVec F S128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_arg16 main_v63 main_v67

def fn_part2 {F : FTy → Type} [FloatOps F] (main_arg4 : IVec S50000 32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg4 main_arg13 main_arg14 main_arg15 main_arg16 main_v48 main_v49 main_v50

def fn_part1 {F : FTy → Type} [FloatOps F] (main_arg4 : IVec S50000 32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg4 main_arg9 main_arg10 main_arg11 main_arg12 main_arg13 main_arg14 main_arg15 main_arg16 main_v33

def fn {F : FTy → Type} [FloatOps F] (main_arg0 : FVec F S50000x128 .f32) (main_arg1 : IVec S2x600000 32) (main_arg2 : FVec F S600000x128 .f32) (main_arg3 : FVec F S128x128 .f32) (main_arg4 : IVec S50000 32) (main_arg5 : FVec F S128x384 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x384 .f32 := Host.absf main_arg5
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S50000 : Shape := ⟨1, ![50000]⟩
abbrev S128x384 : Shape := ⟨2, ![128, 384]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S1x128 : Shape := ⟨2, ![1, 128]⟩
abbrev S10x8x128 : Shape := ⟨3, ![10, 8, 128]⟩
abbrev S5000x128 : Shape := ⟨2, ![5000, 128]⟩
abbrev S5000x1 : Shape := ⟨2, ![5000, 1]⟩
abbrev S1x8x128 : Shape := ⟨3, ![1, 8, 128]⟩
abbrev S7x128 : Shape := ⟨2, ![7, 128]⟩
abbrev S8x128 : Shape := ⟨2, ![8, 128]⟩

abbrev nBuf : Space → Nat
  | .hbm => 110
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S128x128, .f32⟩
  | .hbm, ⟨4, _⟩ => ⟨S50000, .i32⟩
  | .hbm, ⟨5, _⟩ => ⟨S128x384, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x600000, .i32⟩
  | .hbm, ⟨18, _⟩ => ⟨S600000, .i32⟩
  | .hbm, ⟨19, _⟩ => ⟨S_, .f32⟩
  | .hbm, ⟨20, _⟩ => ⟨S50000x128, .f32⟩
  | .hbm, ⟨21, _⟩ => ⟨S600000x1, .i32⟩
  | .hbm, ⟨22, _⟩ => ⟨S50000x128, .f32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S50000, .f32⟩
  | .hbm, ⟨27, _⟩ => ⟨S600000x1, .i32⟩
  | .hbm, ⟨28, _⟩ => ⟨S50000, .f32⟩
  | .hbm, ⟨29, _⟩ => ⟨S50000x1, .f32⟩
  | .hbm, ⟨30, _⟩ => ⟨S50000x1, .i32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S50000x128, .f32⟩
  | .hbm, ⟨50, _⟩ => ⟨S10x8x128, .f32⟩
  | .hbm, ⟨51, _⟩ => ⟨S10x8x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S1x128, .f32⟩
  | .hbm, ⟨69, _⟩ => ⟨S50000x128, .f32⟩
  | .hbm, ⟨70, _⟩ => ⟨S10x8x128, .f32⟩
  | .hbm, ⟨71, _⟩ => ⟨S10x8x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S50000x128, .f32⟩
  | .hbm, ⟨90, _⟩ => ⟨S10x8x128, .f32⟩
  | .hbm, ⟨91, _⟩ => ⟨S10x8x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S1x128, .f32⟩
  | .hbm, ⟨109, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x1, .i32⟩
  | .local _ .vmem, ⟨7, _⟩ => ⟨S5000x1, .i32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x8x128, .f32⟩
  | .local _ .vmem, ⟨29, _⟩ => ⟨S1x8x128, .f32⟩
  | .local _ .vmem, ⟨30, _⟩ => ⟨S1x8x128, .f32⟩
  | .local _ .vmem, ⟨31, _⟩ => ⟨S1x8x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x8x128, .f32⟩
  | .local _ .vmem, ⟨43, _⟩ => ⟨S1x8x128, .f32⟩
  | .local _ .vmem, ⟨44, _⟩ => ⟨S1x8x128, .f32⟩
  | .local _ .vmem, ⟨45, _⟩ => ⟨S1x8x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29_0 : Ref sig .tc := ⟨.hbm, 49, rfl⟩
abbrev main_v29_1 : Ref sig .tc := ⟨.hbm, 50, rfl⟩
abbrev main_v29_2 : Ref sig .tc := ⟨.hbm, 51, rfl⟩
abbrev main_cst_2 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42_0 : Ref sig .tc := ⟨.hbm, 69, rfl⟩
abbrev main_v42_1 : Ref sig .tc := ⟨.hbm, 70, rfl⟩
abbrev main_v42_2 : Ref sig .tc := ⟨.hbm, 71, rfl⟩
abbrev main_cst_7 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55_0 : Ref sig .tc := ⟨.hbm, 89, rfl⟩
abbrev main_v55_1 : Ref sig .tc := ⟨.hbm, 90, rfl⟩
abbrev main_v55_2 : Ref sig .tc := ⟨.hbm, 91, rfl⟩
abbrev main_cst_12 : Ref sig .tc := ⟨.hbm, 92, rfl⟩
abbrev main_v56 : Ref sig .tc := ⟨.hbm, 93, rfl⟩
abbrev main_cst_13 : Ref sig .tc := ⟨.hbm, 94, rfl⟩
abbrev main_v57 : Ref sig .tc := ⟨.hbm, 95, rfl⟩
abbrev main_v58 : Ref sig .tc := ⟨.hbm, 96, rfl⟩
abbrev main_cst_14 : Ref sig .tc := ⟨.hbm, 97, rfl⟩
abbrev main_v59 : Ref sig .tc := ⟨.hbm, 98, rfl⟩
abbrev main_cst_15 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_16 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg7_1 : Ref sig .tc := ⟨.vmem, 41, rfl⟩
abbrev cc2_stg8_0 : Ref sig .tc := ⟨.vmem, 42, rfl⟩
abbrev cc2_stg8_1 : Ref sig .tc := ⟨.vmem, 43, rfl⟩
abbrev cc2_stg9_0 : Ref sig .tc := ⟨.vmem, 44, rfl⟩
abbrev cc2_stg9_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem7_1 : DmaSem sig := 41
abbrev cc2_sem8_0 : DmaSem sig := 42
abbrev cc2_sem8_1 : DmaSem sig := 43
abbrev cc2_sem9_0 : DmaSem sig := 44
abbrev cc2_sem9_1 : DmaSem sig := 45
abbrev cc3_sem0_0 : DmaSem sig := 46
abbrev cc3_sem0_1 : DmaSem sig := 47
abbrev cc3_sem1_0 : DmaSem sig := 48
abbrev cc3_sem2_0 : DmaSem sig := 49
abbrev cc3_sem3_0 : DmaSem sig := 50
abbrev cc3_sem4_0 : DmaSem sig := 51
abbrev cc3_sem5_0 : DmaSem sig := 52
abbrev cc3_sem5_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x8x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000 : S_.BroadcastsInDim S50000 (![] : Fin 0 → Fin S50000.rank)
  shapeCasts_S50000_S50000x1 : S50000.ShapeCasts S50000x1
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S5000x128_d1_w32 : S5000x128.Iotas .tc 32 [1]
  natLt_1_32 : 1 < 32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  concatenates_S1x128_S7x128_S8x128_d0 : Shape.Concatenates [S1x128, S7x128] S8x128 0
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S10x8x128_S128_d0_1 : S10x8x128.ReducesTo [0, 1] S128
  h_S_ : 0 < S_.numel
  bcast_S_S128 : S_.BroadcastsInDim S128 (![] : Fin 0 → Fin S128.rank)
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S128x128_S128x128_S128x128_1_0_0_1_n_n_wf : DotDims.WF S128x128 S128x128 S128x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .i32 = 32 ∨ (Rect.block (s := S50000x1) S5000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x128.size a ≤ S10x8x128.size a
  hwx0_9 : ∀ i : grid0.Coords, EltTy.bits .f32 = 32 ∨ (Rect.block (s := S10x8x128) S1x8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x8x128.size a ≤ S10x8x128.size a
  hwx0_10 : ∀ i : grid0.Coords, EltTy.bits .f32 = 32 ∨ (Rect.block (s := S10x8x128) S1x8x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x8x128.size a ≤ S10x8x128.size a
  hwx1_8 : ∀ i : grid1.Coords, EltTy.bits .f32 = 32 ∨ (Rect.block (s := S10x8x128) S1x8x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x8x128.size a ≤ S10x8x128.size a
  hwx1_9 : ∀ i : grid1.Coords, EltTy.bits .f32 = 32 ∨ (Rect.block (s := S10x8x128) S1x8x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x8x128.size a ≤ S10x8x128.size a
  hwx2_8 : ∀ i : grid2.Coords, EltTy.bits .f32 = 32 ∨ (Rect.block (s := S10x8x128) S1x8x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x8x128.size a ≤ S10x8x128.size a
  hwx2_9 : ∀ i : grid2.Coords, EltTy.bits .f32 = 32 ∨ (Rect.block (s := S10x8x128) S1x8x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29_1) S1x8x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_2) S1x8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v29_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v42_1) S1x8x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v42_2) S1x8x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v42_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v55_1) S1x8x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v55_2) S1x8x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v55_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S128x128 : Shape := ⟨2, ![128, 128]⟩
abbrev S50000 : Shape := ⟨1, ![50000]⟩
abbrev S128x384 : Shape := ⟨2, ![128, 384]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S50000x384 : Shape := ⟨2, ![50000, 384]⟩
abbrev S384x128 : Shape := ⟨2, ![384, 128]⟩
abbrev S1x128 : Shape := ⟨2, ![1, 128]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S2x600000, .i32⟩
  | 2 => ⟨S600000x128, .f32⟩
  | 3 => ⟨S128x128, .f32⟩
  | 4 => ⟨S50000, .i32⟩
  | 5 => ⟨S128x384, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S1x600000, .i32⟩
  | 18 => ⟨S600000, .i32⟩
  | 19 => ⟨S_, .f32⟩
  | 20 => ⟨S50000x128, .f32⟩
  | 21 => ⟨S600000x1, .i32⟩
  | 22 => ⟨S50000x128, .f32⟩
  | 23 => ⟨S_, .f32⟩
  | 24 => ⟨S600000, .f32⟩
  | 25 => ⟨S_, .f32⟩
  | 26 => ⟨S50000, .f32⟩
  | 27 => ⟨S600000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S_, .i32⟩
  | 36 => ⟨S50000, .i32⟩
  | 37 => ⟨S50000, .i1⟩
  | 38 => ⟨S_, .i32⟩
  | 39 => ⟨S50000, .i32⟩
  | 40 => ⟨S50000, .i32⟩
  | 41 => ⟨S50000, .i32⟩
  | 42 => ⟨S50000x1, .i32⟩
  | 43 => ⟨S50000x128, .f32⟩
  | 44 => ⟨S50000x384, .f32⟩
  | 45 => ⟨S384x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S128x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .f32⟩
  | 92 => ⟨S128, .f32⟩
  | 93 => ⟨S_, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S50000x128, .f32⟩
  | 100 => ⟨S_, .f32⟩
  | 101 => ⟨S128, .f32⟩
  | 102 => ⟨S_, .f32⟩
  | 103 => ⟨S128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S128x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S50000x128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_cst : Ref sig .tc := ⟨.hbm, 50, rfl⟩
abbrev main_call0_v0 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_cst : Ref sig .tc := ⟨.hbm, 88, rfl⟩
abbrev main_call1_v0 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_13 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call2_cst : Ref sig .tc := ⟨.hbm, 126, rfl⟩
abbrev main_call2_v0 : Ref sig .tc := ⟨.hbm, 127, rfl⟩
abbrev main_v89 : Ref sig .tc := ⟨.hbm, 128, rfl⟩
abbrev main_cst_14 : Ref sig .tc := ⟨.hbm, 129, rfl⟩
abbrev main_v90 : Ref sig .tc := ⟨.hbm, 130, rfl⟩
abbrev main_cst_15 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_16 : Ref sig .tc := ⟨.hbm, 138, rfl⟩
abbrev main_v97 : Ref sig .tc := ⟨.hbm, 139, rfl⟩
abbrev main_cst_17 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_18 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  transposes_S128x128_S128x128_1_0 : S128x128.Transposes [1, 0] S128x128
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  gather_S128x128_S50000x1_S50000x128_1_0_n_n_0_1_1128_wf : GatherDims.WF S128x128 S50000x1 S50000x128 [1] [0] [] [0] [] 1 ![1, 128]
  dot_S50000x384_S384x128_S50000x128_1_0_0_1_n_n_wf : DotDims.WF S50000x384 S384x128 S50000x128 [1] [0] [0] [1] [] []
  dot_S50000x128_S128x128_S50000x128_1_0_0_1_n_n_wf : DotDims.WF S50000x128 S128x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S128x128_S50000x1_S50000x128_1_0_n_n_0_1_1128 : GatherDims S128x128 S50000x1 S50000x128 where
  offsetDims := [1]
  collapsedSliceDims := [0]
  operandBatchingDims := []
  startIndicesBatchingDims := []
  startIndexMap := [0]
  indexVectorDim := 1
  sliceSizes := ![1, 128]
  wf := gather_S128x128_S50000x1_S50000x128_1_0_n_n_0_1_1128_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  What the two programs compute, as functions over the extended reals.

  A graph network's node update: every node r has a feature row x[r], the mean of its incident edges' features
  (a per-node sum S[r] divided by max(count[r], 1)) and the row u[batch[r]] of its graph; the three are joined into
  one row of 384 entries, sent through a linear layer with a rectifier, and then through batch normalisation over
  the 50000 nodes (column mean m, biased column variance v, g·(h − m)·(v + ε)^(-1/2) + β); two more linear layers with
  rectifier and normalisation follow.

  The kernel form (k_…) splits the first layer's 384-term contraction into three of 128, replaces the lookup u[batch[r]]
  by a product of a 0/1 row with the projected table u·W, accumulates column sums and sums of squares tile by tile
  (10 tiles of 5000 rows, each tile's partial in row 0 of an 8-row block whose other rows are zero), and takes the
  variance as max(E[h²] − m², 0). The reference form (r_…) contracts the joined row at once and takes the variance as
  E[(h − m)²]. Both are stated over the per-node sums S and counts Cn as given arrays.
-/
import Idealize.ShloMosaic.PureOps.Ideal
import Idealize.ShloMosaic.Lib.ValueIdx

noncomputable section

namespace Cert.Gnn

open Idealize.ShloMosaic Idealize.ShloMosaic.ValueIdx

/-- An array of extended reals of one, two or three axes, indexed as the programs index it. -/
abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal
/-- An array of 32-bit integers of one or two axes. -/
abbrev IArr1 (a : ℕ) := (⟨1, ![a]⟩ : Shape).Idx → BitVec 32
abbrev IArr2 (a b : ℕ) := (⟨2, ![a, b]⟩ : Shape).Idx → BitVec 32

/-- The array whose entry (r, c) is f r c. -/
def ofFn2 {α : Type} {a b : ℕ} (f : Fin a → Fin b → α) : (⟨2, ![a, b]⟩ : Shape).Idx → α :=
  fun i => f ⟨(i 0).val, (i 0).isLt⟩ ⟨(i 1).val, (i 1).isLt⟩
/-- The array whose entry (t, s, c) is f t s c. -/
def ofFn3 {α : Type} {a b c : ℕ} (f : Fin a → Fin b → Fin c → α) : (⟨3, ![a, b, c]⟩ : Shape).Idx → α :=
  fun i => f ⟨(i 0).val, (i 0).isLt⟩ ⟨(i 1).val, (i 1).isLt⟩ ⟨(i 2).val, (i 2).isLt⟩

theorem ofFn2_ix2 {α : Type} {a b : ℕ} (f : Fin a → Fin b → α) (r : Fin a) (c : Fin b) : ofFn2 f (ix2 r c) = f r c := rfl
theorem ofFn3_ix3 {α : Type} {a b c : ℕ} (f : Fin a → Fin b → Fin c → α) (t : Fin a) (s : Fin b) (q : Fin c) :
    ofFn3 f (ix3 t s q) = f t s q := rfl

/-- The three float constants of the programs: 1 (the floor of a node's edge count), 50000 (the number of nodes) and
    the normalisation's ε, each as the value its 32-bit word denotes. -/
def wOne : EReal := Ideal.ofBits .f32 0x3F800000#32
def wRows : EReal := Ideal.ofBits .f32 0x47435000#32
def wEps : EReal := Ideal.ofBits .f32 0x3727C5AC#32

/-! ## The kernel form -/

/-- The mean of node r's incident edge features, entry k: the sum over the floored count. The count is a column. -/
def k_ve (S : Arr2 50000 128) (C : Arr2 50000 1) (r : Fin 50000) (k : Fin 128) : EReal :=
  Ideal.div (S (ix2 r k)) (max (C (ix2 r 0)) wOne)

/-- Entry g of node r's 0/1 row: 1 exactly where g is the node's graph number. -/
def k_onehot (B : IArr2 50000 1) (r : Fin 50000) (g : Fin 128) : EReal :=
  if (B (ix2 r 0)).toInt = (g.val : ℤ) then 1 else 0

/-- The first layer, rectified: three contractions of 128 terms and the bias. -/
def k_h0 (x S : Arr2 50000 128) (C : Arr2 50000 1) (B : IArr2 50000 1) (Wx Wv P : Arr2 128 128) (b : Arr2 1 128)
    (r : Fin 50000) (c : Fin 128) : EReal :=
  max ((((∑ k : Fin 128, x (ix2 r k) * Wx (ix2 k c)) + (∑ k : Fin 128, k_ve S C r k * Wv (ix2 k c)))
        + (∑ g : Fin 128, k_onehot B r g * P (ix2 g c))) + b (ix2 0 c)) 0

/-- Row k of tile t. -/
def tileRow (t : Fin 10) (k : Fin 5000) : Fin 50000 := ⟨5000 * t.val + k.val, by omega⟩

/-- A tile's block of partial column sums: the tile's column sum in row 0, zero in rows 1 to 7. -/
def k_part (h : Fin 50000 → Fin 128 → EReal) (t : Fin 10) (s : Fin 8) (c : Fin 128) : EReal :=
  if s.val = 0 then ∑ k : Fin 5000, h (tileRow t k) c else 0

/-- The column mean from the blocks of partial sums. -/
def k_mean (p : Arr3 10 8 128) (c : Fin 128) : EReal :=
  Ideal.div (∑ t : Fin 10, ∑ s : Fin 8, p (ix3 t s c)) wRows

/-- The column variance from the blocks of partial sums and of partial sums of squares. -/
def k_var (p q : Arr3 10 8 128) (c : Fin 128) : EReal :=
  max (Ideal.div (∑ t : Fin 10, ∑ s : Fin 8, q (ix3 t s c)) wRows - k_mean p c * k_mean p c) 0

/-- Normalisation with given row vectors of mean, variance, scale and shift. -/
def k_norm (h : Arr2 50000 128) (mean var g beta : Arr2 1 128) (r : Fin 50000) (c : Fin 128) : EReal :=
  g (ix2 0 c) * (h (ix2 r c) - mean (ix2 0 c)) * Ideal.rsqrt (var (ix2 0 c) + wEps) + beta (ix2 0 c)

/-- A later layer: normalise, contract with the transposed weights, add the bias, rectify. -/
def k_h1 (h : Arr2 50000 128) (mean var g beta : Arr2 1 128) (Wt : Arr2 128 128) (b : Arr2 1 128)
    (r : Fin 50000) (c : Fin 128) : EReal :=
  max ((∑ k : Fin 128, k_norm h mean var g beta r k * Wt (ix2 k c)) + b (ix2 0 c)) 0

/-- The square of every entry. -/
def sq (h : Fin 50000 → Fin 128 → EReal) : Fin 50000 → Fin 128 → EReal := fun r c => h r c * h r c

/-- A vector as a one-row matrix. -/
def rowOf (v : Arr1 128) : Arr2 1 128 := ofFn2 fun _ c => v (ix1 c)

/-- The mean and variance rows the kernel's program computes from a layer's output h. -/
def k_meanRow (h : Fin 50000 → Fin 128 → EReal) : Arr2 1 128 := ofFn2 fun _ c => k_mean (ofFn3 (k_part h)) c
def k_varRow (h : Fin 50000 → Fin 128 → EReal) : Arr2 1 128 :=
  ofFn2 fun _ c => k_var (ofFn3 (k_part h)) (ofFn3 (k_part (sq h))) c

/-- The kernel's whole computation from the arguments, the per-node sums S and the counts Cn. -/
def k_total (x : Arr2 50000 128) (S : Arr2 50000 128) (Cn : Arr1 50000) (batch : IArr1 50000) (u : Arr2 128 128)
    (W0 : Arr2 128 384) (b0 : Arr1 128) (W1 : Arr2 128 128) (b1 : Arr1 128) (W2 : Arr2 128 128) (b2 : Arr1 128)
    (g0 beta0 g1 beta1 g2 beta2 : Arr1 128) : Fin 50000 → Fin 128 → EReal :=
  let h0 := k_h0 x S (ofFn2 fun r _ => Cn (ix1 r)) (ofFn2 fun r _ => batch (ix1 r))
    (ofFn2 fun k c => W0 (ix2 c ⟨k.val, by omega⟩)) (ofFn2 fun k c => W0 (ix2 c ⟨128 + k.val, by omega⟩))
    (ofFn2 fun g c => ∑ k : Fin 128, u (ix2 g k) * W0 (ix2 c ⟨256 + k.val, by omega⟩)) (rowOf b0)
  let h1 := k_h1 (ofFn2 h0) (k_meanRow h0) (k_varRow h0) (rowOf g0) (rowOf beta0) (ofFn2 fun k c => W1 (ix2 c k)) (rowOf b1)
  let h2 := k_h1 (ofFn2 h1) (k_meanRow h1) (k_varRow h1) (rowOf g1) (rowOf beta1) (ofFn2 fun k c => W2 (ix2 c k)) (rowOf b2)
  k_norm (ofFn2 h2) (k_meanRow h2) (k_varRow h2) (rowOf g2) (rowOf beta2)

/-! ## The reference form -/

/-- The row of u a graph number selects: a negative number counts from the end, and the result is clamped into the table. -/
def r_graph (b : BitVec 32) : Fin 128 :=
  ⟨min (if b.toInt < 0 then b + 128#32 else b).toInt.toNat 127, by omega⟩

/-- Node r's joined row of 384 entries: its features, its edge mean, its graph's row. The count is a vector. -/
def r_comb (x S : Arr2 50000 128) (Cn : Arr1 50000) (batch : IArr1 50000) (u : Arr2 128 128)
    (r : Fin 50000) (j : Fin 384) : EReal :=
  if h : j.val < 128 then x (ix2 r ⟨j.val, h⟩)
  else if h2 : j.val < 256 then Ideal.div (S (ix2 r ⟨j.val - 128, by omega⟩)) (max (Cn (ix1 r)) wOne)
  else u (ix2 (r_graph (batch (ix1 r))) ⟨j.val - 256, by omega⟩)

/-- The first layer, rectified: one contraction of 384 terms and the bias. -/
def r_h0 (x S : Arr2 50000 128) (Cn : Arr1 50000) (batch : IArr1 50000) (u : Arr2 128 128) (W0 : Arr2 128 384)
    (b0 : Arr1 128) (r : Fin 50000) (c : Fin 128) : EReal :=
  max ((∑ j : Fin 384, r_comb x S Cn batch u r j * W0 (ix2 c j)) + b0 (ix1 c)) 0

/-- Column mean and biased column variance over the 50000 rows. -/
def r_mean (h : Fin 50000 → Fin 128 → EReal) (c : Fin 128) : EReal := Ideal.div (∑ r : Fin 50000, h r c) wRows
def r_var (h : Fin 50000 → Fin 128 → EReal) (c : Fin 128) : EReal :=
  Ideal.div (∑ r : Fin 50000, (h r c - r_mean h c) * (h r c - r_mean h c)) wRows

/-- Batch normalisation. -/
def r_bn (h : Fin 50000 → Fin 128 → EReal) (g beta : Arr1 128) (r : Fin 50000) (c : Fin 128) : EReal :=
  g (ix1 c) * (h r c - r_mean h c) * Ideal.rsqrt (r_var h c + wEps) + beta (ix1 c)

/-- A later layer: contract with the weights' rows, add the bias, rectify. -/
def r_h1 (n : Fin 50000 → Fin 128 → EReal) (W : Arr2 128 128) (b : Arr1 128) (r : Fin 50000) (c : Fin 128) : EReal :=
  max ((∑ k : Fin 128, n r k * W (ix2 c k)) + b (ix1 c)) 0

/-- The reference's whole computation from the arguments, the per-node sums S and the counts Cn. -/
def r_total (x : Arr2 50000 128) (S : Arr2 50000 128) (Cn : Arr1 50000) (batch : IArr1 50000) (u : Arr2 128 128)
    (W0 : Arr2 128 384) (b0 : Arr1 128) (W1 : Arr2 128 128) (b1 : Arr1 128) (W2 : Arr2 128 128) (b2 : Arr1 128)
    (g0 beta0 g1 beta1 g2 beta2 : Arr1 128) : Fin 50000 → Fin 128 → EReal :=
  r_bn (r_h1 (r_bn (r_h1 (r_bn (r_h0 x S Cn batch u W0 b0) g0 beta0) W1 b1) g1 beta1) W2 b2) g2 beta2

/-- Every entry is a real number. -/
def AllReal {ι : Type} (f : ι → EReal) : Prop := ∀ i, ∃ y : ℝ, f i = (y : EReal)

end Cert.Gnn

end
-- ==== Proof.AlgLayer0.lean ====
import proofs.«412658_j74818330296971_3_alg».proof.Proof.Spec

noncomputable section

namespace Cert.Gnn

open Idealize.ShloMosaic Idealize.ShloMosaic.ValueIdx

/-- The arrays the kernel's program prepares for its first layer, from the arguments. -/
def cntCol (Cn : Arr1 50000) : Arr2 50000 1 := ofFn2 fun r _ => Cn (ix1 r)
def batchCol (batch : IArr1 50000) : IArr2 50000 1 := ofFn2 fun r _ => batch (ix1 r)
def w0x (W0 : Arr2 128 384) : Arr2 128 128 := ofFn2 fun k c => W0 (ix2 c ⟨k.val, by omega⟩)
def w0v (W0 : Arr2 128 384) : Arr2 128 128 := ofFn2 fun k c => W0 (ix2 c ⟨128 + k.val, by omega⟩)
def projU (u : Arr2 128 128) (W0 : Arr2 128 384) : Arr2 128 128 :=
  ofFn2 fun g c => ∑ k : Fin 128, u (ix2 g k) * W0 (ix2 c ⟨256 + k.val, by omega⟩)

/-! ## Closure of the reals inside the extended reals -/

theorem real_coe (y : ℝ) : ∃ z : ℝ, (y : EReal) = (z : EReal) := ⟨y, rfl⟩

theorem real_zero : ∃ z : ℝ, (0 : EReal) = (z : EReal) := ⟨0, rfl⟩

theorem real_add {a b : EReal} (ha : ∃ y : ℝ, a = (y : EReal)) (hb : ∃ y : ℝ, b = (y : EReal)) :
    ∃ y : ℝ, a + b = (y : EReal) := by
  obtain ⟨p, rfl⟩ := ha
  obtain ⟨q, rfl⟩ := hb
  exact ⟨p + q, (EReal.coe_add p q).symm⟩

theorem real_mul {a b : EReal} (ha : ∃ y : ℝ, a = (y : EReal)) (hb : ∃ y : ℝ, b = (y : EReal)) :
    ∃ y : ℝ, a * b = (y : EReal) := by
  obtain ⟨p, rfl⟩ := ha
  obtain ⟨q, rfl⟩ := hb
  exact ⟨p * q, (EReal.coe_mul p q).symm⟩

theorem real_sub {a b : EReal} (ha : ∃ y : ℝ, a = (y : EReal)) (hb : ∃ y : ℝ, b = (y : EReal)) :
    ∃ y : ℝ, a - b = (y : EReal) := by
  obtain ⟨p, rfl⟩ := ha
  obtain ⟨q, rfl⟩ := hb
  exact ⟨p - q, (EReal.coe_sub p q).symm⟩

/-- The larger of two reals, inside the extended reals, is the real maximum. -/
theorem coe_max_real (p q : ℝ) : max (p : EReal) (q : EReal) = ((max p q : ℝ) : EReal) := by
  rcases le_total p q with h | h
  · rw [max_eq_right h, max_eq_right (EReal.coe_le_coe_iff.mpr h)]
  · rw [max_eq_left h, max_eq_left (EReal.coe_le_coe_iff.mpr h)]

theorem real_max {a b : EReal} (ha : ∃ y : ℝ, a = (y : EReal)) (hb : ∃ y : ℝ, b = (y : EReal)) :
    ∃ y : ℝ, max a b = (y : EReal) := by
  obtain ⟨p, rfl⟩ := ha
  obtain ⟨q, rfl⟩ := hb
  exact ⟨max p q, coe_max_real p q⟩

/-- A finite sum of reals is real. -/
theorem real_sum {ι : Type} (s : Finset ι) (f : ι → EReal) (h : ∀ i ∈ s, ∃ y : ℝ, f i = (y : EReal)) :
    ∃ y : ℝ, ∑ i ∈ s, f i = (y : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A real over a nonzero real is real. -/
theorem real_div {a : EReal} {d : ℝ} (ha : ∃ y : ℝ, a = (y : EReal)) (hd : d ≠ 0) :
    ∃ y : ℝ, Ideal.div a (d : EReal) = (y : EReal) := by
  rw [Ideal.div_coe hd]
  exact real_mul ha ⟨1 / d, rfl⟩

/-- The word 0x3F800000 denotes the real 1. -/
theorem real_wOne : wOne = ((1 : ℝ) : EReal) := by
  simp [wOne, Ideal.ofBits, Ideal.ieee, -EReal.coe_mul]
  norm_num

/-- A real over the larger of a real and 1 is real: the divisor is at least 1. -/
theorem real_div_floor {a n : EReal} (ha : ∃ y : ℝ, a = (y : EReal)) (hn : ∃ y : ℝ, n = (y : EReal)) :
    ∃ y : ℝ, Ideal.div a (max n wOne) = (y : EReal) := by
  obtain ⟨q, rfl⟩ := hn
  rw [real_wOne, coe_max_real]
  exact real_div ha (ne_of_gt (lt_of_lt_of_le one_pos (le_max_right q 1)))

/-! ## The 384-term sum as three of 128 -/

theorem sum_fin384 (f : Fin 384 → EReal) :
    ∑ j : Fin 384, f j
      = ((∑ k : Fin 128, f ⟨k.val, by omega⟩) + (∑ k : Fin 128, f ⟨128 + k.val, by omega⟩))
        + (∑ k : Fin 128, f ⟨256 + k.val, by omega⟩) := by
  refine (Fin.sum_univ_add (a := 256) (b := 128) f).trans ?_
  refine congrArg₂ (· + ·) ?_ rfl
  exact Fin.sum_univ_add (a := 128) (b := 128) (fun i => f (Fin.castAdd 128 i))

/-- Under the range hypothesis the reference's table row is the graph number itself. -/
theorem r_graph_val (b : BitVec 32) (h0 : 0 ≤ b.toInt) (h1 : b.toInt < 128) : ((r_graph b).val : ℤ) = b.toInt := by
  unfold r_graph
  simp only [if_neg (not_lt.mpr h0)]
  omega

/-- With every graph number in range, the first layer's two forms agree: the 384-term contraction splits into three of
    128, and the 0/1 row picks the projected table's row of the node's graph. -/
theorem h0_eq (x S : Arr2 50000 128) (Cn : Arr1 50000) (batch : IArr1 50000) (u : Arr2 128 128) (W0 : Arr2 128 384) (b0 : Arr1 128)
    (hbatch : ∀ i, 0 ≤ (batch i).toInt ∧ (batch i).toInt < 128) :
    k_h0 x S (cntCol Cn) (batchCol batch) (w0x W0) (w0v W0) (projU u W0) (rowOf b0) = r_h0 x S Cn batch u W0 b0 := by
  funext r c
  unfold k_h0 r_h0
  rw [sum_fin384]
  -- the feature third
  have e1 : (∑ k : Fin 128, x (ix2 r k) * w0x W0 (ix2 k c))
      = ∑ k : Fin 128, r_comb x S Cn batch u r ⟨k.val, by omega⟩ * W0 (ix2 c ⟨k.val, by omega⟩) := by
    refine Finset.sum_congr rfl fun k _ => ?_
    have hk : (⟨k.val, by omega⟩ : Fin 384).val < 128 := k.isLt
    unfold r_comb
    rw [dif_pos hk]
    rfl
  -- the edge-mean third
  have e2 : (∑ k : Fin 128, k_ve S (cntCol Cn) r k * w0v W0 (ix2 k c))
      = ∑ k : Fin 128, r_comb x S Cn batch u r ⟨128 + k.val, by omega⟩ * W0 (ix2 c ⟨128 + k.val, by omega⟩) := by
    refine Finset.sum_congr rfl fun k _ => ?_
    have hk1 : ¬ (⟨128 + k.val, by omega⟩ : Fin 384).val < 128 := by simp
    have hk2 : (⟨128 + k.val, by omega⟩ : Fin 384).val < 256 := by have := k.isLt; simp; omega
    have hk3 : (⟨128 + k.val - 128, by omega⟩ : Fin 128) = k := Fin.ext (by simp)
    unfold r_comb
    rw [dif_neg hk1, dif_pos hk2]
    simp only [hk3]
    rfl
  -- the graph-row third
  have e3 : (∑ g : Fin 128, k_onehot (batchCol batch) r g * projU u W0 (ix2 g c))
      = ∑ k : Fin 128, r_comb x S Cn batch u r ⟨256 + k.val, by omega⟩ * W0 (ix2 c ⟨256 + k.val, by omega⟩) := by
    have hg : (batch (ix1 r)).toInt = (((r_graph (batch (ix1 r))).val : ℕ) : ℤ) :=
      (r_graph_val _ (hbatch _).1 (hbatch _).2).symm
    rw [Finset.sum_eq_single (r_graph (batch (ix1 r)))]
    · have h1 : k_onehot (batchCol batch) r (r_graph (batch (ix1 r))) = 1 := by
        unfold k_onehot
        exact if_pos hg
      rw [h1, one_mul]
      show (∑ k : Fin 128, u (ix2 (r_graph (batch (ix1 r))) k) * W0 (ix2 c ⟨256 + k.val, by omega⟩)) = _
      refine Finset.sum_congr rfl fun k _ => ?_
      have hk1 : ¬ (⟨256 + k.val, by omega⟩ : Fin 384).val < 128 := by simp; omega
      have hk2 : ¬ (⟨256 + k.val, by omega⟩ : Fin 384).val < 256 := by simp
      have hk3 : (⟨256 + k.val - 256, by omega⟩ : Fin 128) = k := Fin.ext (by simp)
      unfold r_comb
      rw [dif_neg hk1, dif_neg hk2]
      simp only [hk3]
    · intro g _ hne
      have h0 : k_onehot (batchCol batch) r g = 0 := by
        unfold k_onehot
        refine if_neg fun h => hne ?_
        have h' : (batch (ix1 r)).toInt = ((g.val : ℕ) : ℤ) := h
        exact Fin.ext (by omega)
      rw [h0, zero_mul]
    · intro h
      exact absurd (Finset.mem_univ _) h
  rw [e1, e2, e3]
  rfl

/-- With real inputs the first layer's output is real everywhere. -/
theorem h0_real (x S : Arr2 50000 128) (Cn : Arr1 50000) (batch : IArr1 50000) (u : Arr2 128 128) (W0 : Arr2 128 384) (b0 : Arr1 128)
    (hx : AllReal x) (hS : AllReal S) (hCn : AllReal Cn) (hu : AllReal u) (hW0 : AllReal W0) (hb0 : AllReal b0) :
    ∀ r c, ∃ y : ℝ, r_h0 x S Cn batch u W0 b0 r c = (y : EReal) := by
  intro r c
  unfold r_h0
  refine real_max (real_add (real_sum _ _ fun j _ => real_mul ?_ (hW0 _)) (hb0 _)) real_zero
  unfold r_comb
  split
  · exact hx _
  · split
    · exact real_div_floor (hS _) (hCn _)
    · exact hu _

end Cert.Gnn

end
-- ==== Proof.AlgStats.lean ====
import proofs.«412658_j74818330296971_3_alg».proof.Proof.Spec

noncomputable section

namespace Cert.Gnn

open Idealize.ShloMosaic Idealize.ShloMosaic.ValueIdx

/-- The node count's word is the number of rows, and ε's word is a positive real. -/
theorem wRows_eq : wRows = ((50000 : ℝ) : EReal) := by
  unfold wRows
  simp [Ideal.ofBits, Ideal.ieee, -EReal.coe_mul]
  norm_num
theorem wOne_eq : wOne = ((1 : ℝ) : EReal) := by
  unfold wOne
  simp [Ideal.ofBits, Ideal.ieee, -EReal.coe_mul]
  norm_num
theorem wEps_pos : ∃ e : ℝ, 0 < e ∧ wEps = (e : EReal) := by
  refine ⟨(10995116 : ℝ) * (2 : ℝ) ^ (-40 : ℤ), by positivity, ?_⟩
  unfold wEps
  simp [Ideal.ofBits, Ideal.ieee, -EReal.coe_mul]

/-- A real finite sum, as an extended real, is the sum of the terms as extended reals. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing tile by tile over a rows of b is summing over all a·b rows. -/
theorem sum_tiles {M : Type} [AddCommMonoid M] {a b n : ℕ} (hn : a * b = n) (f : Fin n → M)
    (row : Fin a → Fin b → Fin n) (hrow : ∀ t k, (row t k).val = b * t.val + k.val) :
    ∑ t : Fin a, ∑ k : Fin b, f (row t k) = ∑ r : Fin n, f r := by
  subst hn
  rw [← Fintype.sum_prod_type']
  refine Fintype.sum_equiv finProdFinEquiv _ _ ?_
  rintro ⟨t, k⟩
  congr 1
  apply Fin.ext
  simp [hrow, finProdFinEquiv, add_comm]

/-- The blocks of partial column sums of any array add up to the full column sum. -/
theorem block_sum (h : Fin 50000 → Fin 128 → EReal) (c : Fin 128) :
    ∑ t : Fin 10, ∑ s : Fin 8, ofFn3 (k_part h) (ix3 t s c) = ∑ r : Fin 50000, h r c := by
  have hrow : ∀ t : Fin 10, ∑ s : Fin 8, ofFn3 (k_part h) (ix3 t s c) = ∑ k : Fin 5000, h (tileRow t k) c := by
    intro t
    rw [Finset.sum_eq_single (0 : Fin 8)]
    · rw [ofFn3_ix3]; simp [k_part]
    · intro s _ hs
      rw [ofFn3_ix3]
      unfold k_part
      rw [if_neg]
      intro h0
      exact hs (Fin.ext h0)
    · intro h0
      exact absurd (Finset.mem_univ _) h0
  simp only [hrow]
  exact sum_tiles (a := 10) (b := 5000) (by norm_num) (fun r => h r c) tileRow (fun _ _ => rfl)

/-- The column mean taken from the tiles' blocks of partial sums is the column mean. -/
theorem k_mean_eq (h : Fin 50000 → Fin 128 → EReal) (c : Fin 128) :
    k_mean (ofFn3 (k_part h)) c = r_mean h c := by
  unfold k_mean r_mean
  rw [block_sum]

/-- Division by the number of rows, for a real numerator. -/
theorem div_rows_coe (x : ℝ) : Ideal.div (x : EReal) wRows = ((x / 50000 : ℝ) : EReal) := by
  rw [wRows_eq, Ideal.div_coe (by norm_num), ← EReal.coe_mul]
  congr 1
  ring

/-- The mean of a real column. -/
theorem r_mean_coe (h : Fin 50000 → Fin 128 → EReal) (c : Fin 128) (y : Fin 50000 → ℝ)
    (hy : ∀ r, h r c = (y r : EReal)) : r_mean h c = (((∑ r, y r) / 50000 : ℝ) : EReal) := by
  unfold r_mean
  simp only [hy]
  rw [← coe_sum_real, div_rows_coe]

/-- The biased variance of a real column. -/
theorem r_var_coe (h : Fin 50000 → Fin 128 → EReal) (c : Fin 128) (y : Fin 50000 → ℝ)
    (hy : ∀ r, h r c = (y r : EReal)) :
    r_var h c = (((∑ r, (y r - (∑ r, y r) / 50000) * (y r - (∑ r, y r) / 50000)) / 50000 : ℝ) : EReal) := by
  unfold r_var
  rw [r_mean_coe h c y hy]
  simp only [hy, ← EReal.coe_sub, ← EReal.coe_mul]
  rw [← coe_sum_real, div_rows_coe]

/-- In the reals: the mean of squares less the squared mean is the mean squared deviation. -/
theorem var_identity {ι : Type} (s : Finset ι) (y : ι → ℝ) (N : ℝ) (hN : (s.card : ℝ) = N) (h0 : N ≠ 0) :
    (∑ i ∈ s, y i * y i) / N - (∑ i ∈ s, y i) / N * ((∑ i ∈ s, y i) / N)
      = (∑ i ∈ s, (y i - (∑ i ∈ s, y i) / N) * (y i - (∑ i ∈ s, y i) / N)) / N := by
  set S := ∑ i ∈ s, y i with hS
  have hexp : ∀ i, (y i - S / N) * (y i - S / N) = y i * y i - 2 * (S / N) * y i + S / N * (S / N) := fun i => by ring
  simp only [hexp, Finset.sum_add_distrib, Finset.sum_sub_distrib, ← Finset.mul_sum, Finset.sum_const, nsmul_eq_mul]
  rw [← hS, hN]
  field_simp
  ring

/-- For a real array, max(E[h²] − m², 0) taken from the tiles' blocks is the biased variance E[(h − m)²]. -/
theorem k_var_eq (h : Fin 50000 → Fin 128 → EReal) (hh : ∀ r c, ∃ y : ℝ, h r c = (y : EReal)) (c : Fin 128) :
    k_var (ofFn3 (k_part h)) (ofFn3 (k_part (sq h))) c = r_var h c := by
  choose y hy using fun r => hh r c
  have hsq : ∀ r, sq h r c = ((y r * y r : ℝ) : EReal) := fun r => by
    unfold sq; rw [hy r, EReal.coe_mul]
  unfold k_var
  rw [k_mean_eq, block_sum, r_mean_coe h c y hy, r_var_coe h c y hy]
  simp only [hsq]
  rw [← coe_sum_real, div_rows_coe, ← EReal.coe_mul, ← EReal.coe_sub]
  have hcard : ((Finset.univ : Finset (Fin 50000)).card : ℝ) = 50000 := by
    rw [Finset.card_univ, Fintype.card_fin]; norm_num
  rw [var_identity Finset.univ y 50000 hcard (by norm_num)]
  apply max_eq_left
  rw [← EReal.coe_zero, EReal.coe_le_coe_iff]
  apply div_nonneg
  · exact Finset.sum_nonneg fun i _ => mul_self_nonneg _
  · norm_num

/-- For a real array the column mean is real and the biased variance is a nonnegative real. -/
theorem r_mean_real (h : Fin 50000 → Fin 128 → EReal) (hh : ∀ r c, ∃ y : ℝ, h r c = (y : EReal)) (c : Fin 128) :
    ∃ y : ℝ, r_mean h c = (y : EReal) := by
  choose y hy using fun r => hh r c
  exact ⟨_, r_mean_coe h c y hy⟩
theorem r_var_real (h : Fin 50000 → Fin 128 → EReal) (hh : ∀ r c, ∃ y : ℝ, h r c = (y : EReal)) (c : Fin 128) :
    ∃ y : ℝ, 0 ≤ y ∧ r_var h c = (y : EReal) := by
  choose y hy using fun r => hh r c
  refine ⟨_, ?_, r_var_coe h c y hy⟩
  apply div_nonneg
  · exact Finset.sum_nonneg fun i _ => mul_self_nonneg _
  · norm_num

end Cert.Gnn

end
-- ==== Proof.Bridge.lean ====
import proofs.«412658_j74818330296971_3_alg».proof.Proof.Spec
import proofs.«412658_j74818330296971_3_alg».proof.Proof.AlgLayer0
import proofs.«412658_j74818330296971_3_alg».proof.Proof.AlgStats
import Mathlib.Data.EReal.Operations
import Mathlib.Algebra.BigOperators.Group.Finset.Basic

noncomputable section

namespace Cert.Gnn

open Idealize.ShloMosaic Idealize.ShloMosaic.ValueIdx

/-! ## One layer's step: the kernel's normalisation and later layer against the reference's -/

/-- For a real array, normalising by the mean and variance rows taken from the tiles is batch normalisation. -/
theorem br_norm_eq (h : Fin 50000 → Fin 128 → EReal) (hh : ∀ r c, ∃ y : ℝ, h r c = (y : EReal)) (g beta : Arr1 128) :
    k_norm (ofFn2 h) (k_meanRow h) (k_varRow h) (rowOf g) (rowOf beta) = r_bn h g beta := by
  funext r c
  unfold k_norm r_bn k_meanRow k_varRow rowOf
  simp only [ofFn2_ix2]
  rw [k_mean_eq, k_var_eq h hh]

/-- For a real array, the kernel's later layer is the reference's later layer of the batch normalisation. -/
theorem br_h1_eq (h : Fin 50000 → Fin 128 → EReal) (hh : ∀ r c, ∃ y : ℝ, h r c = (y : EReal)) (g beta : Arr1 128)
    (W : Arr2 128 128) (b : Arr1 128) :
    k_h1 (ofFn2 h) (k_meanRow h) (k_varRow h) (rowOf g) (rowOf beta) (ofFn2 fun k c => W (ix2 c k)) (rowOf b)
      = r_h1 (r_bn h g beta) W b := by
  funext r c
  unfold k_h1 r_h1
  rw [br_norm_eq h hh g beta]
  unfold rowOf
  simp only [ofFn2_ix2]

/-! ## Realness passes through a layer -/

/-- The coercion of a finite sum of reals is the sum of the coercions. -/
theorem br_coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of a real and zero is a real. -/
theorem br_max_zero (a : ℝ) : max ((a : ℝ) : EReal) 0 = ((max a 0 : ℝ) : EReal) := by
  rw [← EReal.coe_zero]
  exact (EReal.coe_strictMono.monotone.map_max).symm

/-- Batch normalisation of a real array with real scale and shift is real. -/
theorem br_bn_real (h : Fin 50000 → Fin 128 → EReal) (hh : ∀ r c, ∃ y : ℝ, h r c = (y : EReal)) (g beta : Arr1 128)
    (hg : AllReal g) (hbeta : AllReal beta) : ∀ r c, ∃ y : ℝ, r_bn h g beta r c = (y : EReal) := by
  intro r c
  obtain ⟨m, hm⟩ := r_mean_real h hh c
  obtain ⟨v, hv0, hv⟩ := r_var_real h hh c
  obtain ⟨e, he0, he⟩ := wEps_pos
  obtain ⟨gr, hgr⟩ := hg (ix1 c)
  obtain ⟨br, hbr⟩ := hbeta (ix1 c)
  obtain ⟨y, hy⟩ := hh r c
  have hpos : 0 < v + e := by linarith
  have hrs : Ideal.rsqrt (((v + e : ℝ)) : EReal) = (((Real.sqrt (v + e))⁻¹ : ℝ) : EReal) := by
    rw [Ideal.rsqrt_coe, if_neg (not_lt.mpr hpos.le), if_neg hpos.ne']
  refine ⟨gr * (y - m) * (Real.sqrt (v + e))⁻¹ + br, ?_⟩
  unfold r_bn
  rw [hm, hv, he, hgr, hbr, hy, ← EReal.coe_add v e, hrs, ← EReal.coe_sub, ← EReal.coe_mul, ← EReal.coe_mul,
    ← EReal.coe_add]

/-- A later layer of a real array with real weights and bias is real. -/
theorem br_h1_real (n : Fin 50000 → Fin 128 → EReal) (hn : ∀ r c, ∃ y : ℝ, n r c = (y : EReal))
    (W : Arr2 128 128) (b : Arr1 128) (hW : AllReal W) (hb : AllReal b) :
    ∀ r c, ∃ y : ℝ, r_h1 n W b r c = (y : EReal) := by
  intro r c
  choose nr hnr using hn
  choose wr hwr using hW
  obtain ⟨br, hbr⟩ := hb (ix1 c)
  refine ⟨max ((∑ k : Fin 128, nr r k * wr (ix2 c k)) + br) 0, ?_⟩
  unfold r_h1
  rw [← br_max_zero, EReal.coe_add, br_coe_sum, hbr]
  congr 2
  refine Finset.sum_congr rfl fun k _ => ?_
  rw [hnr, hwr, EReal.coe_mul]

/-! ## The two later layers and the last normalisation, from a real first layer -/

/-- From a real first-layer output on, the kernel's chain of layers is the reference's. -/
theorem br_chain (h0 : Fin 50000 → Fin 128 → EReal) (hh0 : ∀ r c, ∃ y : ℝ, h0 r c = (y : EReal))
    (W1 : Arr2 128 128) (b1 : Arr1 128) (W2 : Arr2 128 128) (b2 : Arr1 128)
    (g0 beta0 g1 beta1 g2 beta2 : Arr1 128)
    (hW1 : AllReal W1) (hb1 : AllReal b1) (hW2 : AllReal W2) (hb2 : AllReal b2)
    (hg0 : AllReal g0) (hbeta0 : AllReal beta0) (hg1 : AllReal g1) (hbeta1 : AllReal beta1)
    (h1 h2 : Fin 50000 → Fin 128 → EReal)
    (e1 : h1 = k_h1 (ofFn2 h0) (k_meanRow h0) (k_varRow h0) (rowOf g0) (rowOf beta0) (ofFn2 fun k c => W1 (ix2 c k)) (rowOf b1))
    (e2 : h2 = k_h1 (ofFn2 h1) (k_meanRow h1) (k_varRow h1) (rowOf g1) (rowOf beta1) (ofFn2 fun k c => W2 (ix2 c k)) (rowOf b2)) :
    k_norm (ofFn2 h2) (k_meanRow h2) (k_varRow h2) (rowOf g2) (rowOf beta2)
      = r_bn (r_h1 (r_bn (r_h1 (r_bn h0 g0 beta0) W1 b1) g1 beta1) W2 b2) g2 beta2 := by
  rw [br_h1_eq h0 hh0] at e1
  have hh1 : ∀ r c, ∃ y : ℝ, h1 r c = (y : EReal) := by
    rw [e1]; exact br_h1_real _ (br_bn_real h0 hh0 g0 beta0 hg0 hbeta0) W1 b1 hW1 hb1
  rw [br_h1_eq h1 hh1] at e2
  have hh2 : ∀ r c, ∃ y : ℝ, h2 r c = (y : EReal) := by
    rw [e2]; exact br_h1_real _ (br_bn_real h1 hh1 g1 beta1 hg1 hbeta1) W2 b2 hW2 hb2
  rw [br_norm_eq h2 hh2, e2, e1]

/-- With real inputs, real per-node sums and counts, and every graph number in range, the kernel form and the
    reference form are one function. -/
theorem k_total_eq_r_total (x S : Arr2 50000 128) (Cn : Arr1 50000) (batch : IArr1 50000) (u : Arr2 128 128)
    (W0 : Arr2 128 384) (b0 : Arr1 128) (W1 : Arr2 128 128) (b1 : Arr1 128) (W2 : Arr2 128 128) (b2 : Arr1 128)
    (g0 beta0 g1 beta1 g2 beta2 : Arr1 128)
    (hx : AllReal x) (hS : AllReal S) (hCn : AllReal Cn) (hu : AllReal u) (hW0 : AllReal W0) (hb0 : AllReal b0)
    (hW1 : AllReal W1) (hb1 : AllReal b1) (hW2 : AllReal W2) (hb2 : AllReal b2)
    (hg0 : AllReal g0) (hbeta0 : AllReal beta0) (hg1 : AllReal g1) (hbeta1 : AllReal beta1) (hg2 : AllReal g2) (hbeta2 : AllReal beta2)
    (hbatch : ∀ i, 0 ≤ (batch i).toInt ∧ (batch i).toInt < 128) :
    k_total x S Cn batch u W0 b0 W1 b1 W2 b2 g0 beta0 g1 beta1 g2 beta2
      = r_total x S Cn batch u W0 b0 W1 b1 W2 b2 g0 beta0 g1 beta1 g2 beta2 := by
  have e0 := h0_eq x S Cn batch u W0 b0 hbatch
  have r0 := h0_real x S Cn batch u W0 b0 hx hS hCn hu hW0 hb0
  unfold cntCol batchCol w0x w0v projU at e0
  unfold k_total r_total
  rw [e0]
  exact br_chain (r_h0 x S Cn batch u W0 b0) r0 W1 b1 W2 b2 g0 beta0 g1 beta1 g2 beta2 hW1 hb1 hW2 hb2 hg0 hbeta0
    hg1 hbeta1 _ _ rfl rfl

end Cert.Gnn

end
-- ==== Proof.PreDecode.lean ====
import proofs.«412658_j74818330296971_3_alg».proof.Proof.Gen.Pre_finite_inputs
import proofs.«412658_j74818330296971_3_alg».proof.Proof.Spec
import Idealize.ShloMosaic.Lib.ReduceAll

noncomputable section

namespace Cert.Gnn.PreDecode

open Cert.Pre_finite_inputs Cert.Gnn Idealize.ShloMosaic Idealize.ShloMosaic.ValueIdx

variable [Cert.Pre_finite_inputs.Facts]

/-- The shape of no axes has one index. -/
instance : Subsingleton S_.Idx := ⟨fun a b => funext fun d => d.elim0⟩

/-- An extended real whose absolute value lies below +∞ is a real number. -/
theorem real_of_abs_lt_inf (x : EReal)
    (h : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- Every entry's absolute value below +∞, conjoined over all axes, gives 1 only where every entry is real. -/
theorem all_abs_lt_inf {s : Shape} {axes : List (Fin s.rank)} (x : FVec Ideal s .f32)
    (hb : S_.BroadcastsInDim s (![] : Fin 0 → Fin s.rank)) (hr : s.ReducesTo axes S_) (h0 : 0 < S_.numel)
    (init : IVec S_ 1) (j : S_.Idx)
    (h : Host.reduce IntOp.andi
      (cmpf .olt (Host.absf x) (broadcastInDim s ![] hb (constant (F := Ideal) S_ .f32 0x7F800000#32))) init hr h0 j = 1#1) :
    AllReal x := by
  intro i
  have e := Host.reduce_andi_all _ init hr h0 j h i
  exact real_of_abs_lt_inf (x i) e

/-- A word at least 0 and below 128, both read signed, conjoined over all entries. -/
theorem all_in_range {s : Shape} {axes : List (Fin s.rank)} (b : IVec s 32)
    (hb : S_.BroadcastsInDim s (![] : Fin 0 → Fin s.rank)) (hr : s.ReducesTo axes S_) (h0 : 0 < S_.numel)
    (init : IVec S_ 1) (j : S_.Idx)
    (h : Host.reduce IntOp.andi
      (andi (cmpi .sge b (broadcastInDim s ![] hb (constantI S_ 32 0#32)))
            (cmpi .slt b (broadcastInDim s ![] hb (constantI S_ 32 128#32)))) init hr h0 j = 1#1) :
    ∀ i, 0 ≤ (b i).toInt ∧ (b i).toInt < 128 := by
  intro i
  have e := Host.reduce_andi_all _ init hr h0 j h i
  obtain ⟨e1, e2⟩ := IntOp.andi_eq_one.1 e
  have e1' := IntOp.cmpi_sge.1 e1
  have e2' := IntOp.cmpi_slt.1 e2
  have z0 : (0#32 : BitVec 32).toInt = 0 := by decide
  have z1 : (128#32 : BitVec 32).toInt = 128 := by decide
  exact ⟨z0 ▸ e1', z1 ▸ e2'⟩

/-- Where the precondition holds, every float argument is real everywhere and every graph number lies in [0, 128). -/
theorem pre_facts (a0 : FVec Ideal S50000x128 .f32) (a1 : IVec S2x600000 32) (a2 : FVec Ideal S600000x128 .f32) (a3 : FVec Ideal S128x128 .f32)
    (a4 : IVec S50000 32) (a5 : FVec Ideal S128x384 .f32) (a6 : FVec Ideal S128 .f32) (a7 : FVec Ideal S128x128 .f32) (a8 : FVec Ideal S128 .f32)
    (a9 : FVec Ideal S128x128 .f32) (a10 a11 a12 a13 a14 a15 a16 : FVec Ideal S128 .f32)
    (h : Cert.Pre_finite_inputs.fn (F := Ideal) a0 a1 a2 a3 a4 a5 a6 a7 a8 a9 a10 a11 a12 a13 a14 a15 a16 = fun _ => 1#1) :
    AllReal (a0 : Arr2 50000 128) ∧ AllReal (a2 : Arr2 600000 128) ∧ AllReal (a3 : Arr2 128 128) ∧ AllReal (a5 : Arr2 128 384)
    ∧ AllReal (a6 : Arr1 128) ∧ AllReal (a7 : Arr2 128 128) ∧ AllReal (a8 : Arr1 128) ∧ AllReal (a9 : Arr2 128 128)
    ∧ AllReal (a10 : Arr1 128) ∧ AllReal (a11 : Arr1 128) ∧ AllReal (a12 : Arr1 128) ∧ AllReal (a13 : Arr1 128)
    ∧ AllReal (a14 : Arr1 128) ∧ AllReal (a15 : Arr1 128) ∧ AllReal (a16 : Arr1 128)
    ∧ (∀ i, 0 ≤ ((a4 : IArr1 50000) i).toInt ∧ ((a4 : IArr1 50000) i).toInt < 128) := by
  have h0 := congrFun h ValueIdx.ix0
  unfold fn at h0; dsimp only at h0
  unfold fn_part1 at h0; dsimp only at h0
  unfold fn_part2 at h0; dsimp only at h0
  unfold fn_part3 at h0; dsimp only at h0
  unfold fn_part4 at h0; dsimp only at h0
  -- the conjunction nests to the left: the last test is the outermost right conjunct
  obtain ⟨h0, r4⟩ := IntOp.andi_eq_one.1 h0
  obtain ⟨h0, r16⟩ := IntOp.andi_eq_one.1 h0
  obtain ⟨h0, r15⟩ := IntOp.andi_eq_one.1 h0
  obtain ⟨h0, r14⟩ := IntOp.andi_eq_one.1 h0
  obtain ⟨h0, r13⟩ := IntOp.andi_eq_one.1 h0
  obtain ⟨h0, r12⟩ := IntOp.andi_eq_one.1 h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r3⟩ := IntOp.andi_eq_one.1 h0
  obtain ⟨r0, r2⟩ := IntOp.andi_eq_one.1 h0
  exact ⟨all_abs_lt_inf a0 _ _ _ _ _ r0, all_abs_lt_inf a2 _ _ _ _ _ r2, all_abs_lt_inf a3 _ _ _ _ _ r3,
    all_abs_lt_inf a5 _ _ _ _ _ r5, all_abs_lt_inf a6 _ _ _ _ _ r6, all_abs_lt_inf a7 _ _ _ _ _ r7,
    all_abs_lt_inf a8 _ _ _ _ _ r8, all_abs_lt_inf a9 _ _ _ _ _ r9, all_abs_lt_inf a10 _ _ _ _ _ r10,
    all_abs_lt_inf a11 _ _ _ _ _ r11, all_abs_lt_inf a12 _ _ _ _ _ r12, all_abs_lt_inf a13 _ _ _ _ _ r13,
    all_abs_lt_inf a14 _ _ _ _ _ r14, all_abs_lt_inf a15 _ _ _ _ _ r15, all_abs_lt_inf a16 _ _ _ _ _ r16,
    all_in_range a4 _ _ _ _ _ r4⟩

end Cert.Gnn.PreDecode

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.Region0.lean ====
/-
  Region 0: the first layer on one tile of 5000 rows, and the arrays its ten tiles leave.

  On a tile the body forms the edge mean S / max(cnt, 1) (the count a column, broadcast along the row), the 0/1 row
  of each node's graph number (a 32-bit word compared with the column number g < 128), three products of 128 terms
  into zero accumulators added left to right, the bias row, and the maximum with 0; the tile's column sums of the
  result and of its squares go to row 0 of an 8-row block whose other rows are zero. Tile t writes rows
  5000·t … 5000·t + 4999 of the output (block t of the two [10, 8, 128] arrays), so the ten tiles fill the arrays.
-/
import proofs.«412658_j74818330296971_3_alg».proof.Proof.Gen.KernelIdeal.Frame
import proofs.«412658_j74818330296971_3_alg».proof.Proof.Spec
import proofs.«412658_j74818330296971_3_alg».proof.Proof.LibPlainDot
import proofs.«412658_j74818330296971_3_alg».proof.Proof.LibColumn
import Idealize.ShloMosaic.Lib.Pipeline.Value
import Idealize.ShloMosaic.Lib.Affine
import Idealize.ShloMosaic.Lib.KernelVsHost

set_option maxRecDepth 16384

noncomputable section

namespace Cert.Gnn.Region0

open Cert.KernelIdeal Cert.KernelIdeal.Gen Cert.Gnn Idealize.ShloMosaic Idealize.ShloMosaic.TcCoe Idealize.SL.Sem
open Idealize.ShloMosaic.ValueIdx

/-! ## The body's arithmetic at an entry -/

/-- A column number below 128, as a 32-bit word read signed, is itself. -/
theorem toInt_ofNat_small (g : Fin 128) : (BitVec.ofNat 32 g.val).toInt = (g.val : ℤ) := by
  have h : (BitVec.ofNat 32 g.val).toNat = g.val := by
    rw [BitVec.toNat_ofNat]; exact Nat.mod_eq_of_lt (by have := g.isLt; omega)
  rw [BitVec.toInt_eq_toNat_of_lt (by rw [h]; have := g.isLt; omega), h]

/-- The comparison of a word with a column number's word, widened and converted, is 1 exactly where the word read
    signed is the column number, else 0. -/
theorem onehot_word (b : BitVec 32) (g : Fin 128) :
    (Scalar.sitofp (F := Ideal) .f32 ((IntOp.cmpi .eq b (BitVec.ofNat 32 g.val)).setWidth 32) : EReal)
      = if b.toInt = (g.val : ℤ) then 1 else 0 := by
  show ((((IntOp.cmpi .eq b (BitVec.ofNat 32 g.val)).setWidth 32).toInt : ℝ) : EReal) = _
  rw [toInt_setWidth_bit]
  by_cases h : b = BitVec.ofNat 32 g.val
  · rw [IntOp.cmpi_eq.mpr h, if_pos (by rw [h]; exact toInt_ofNat_small g)]; simp
  · rw [eq_zero_of_ne_one (fun e => h (IntOp.cmpi_eq.mp e)),
      if_neg (fun e => h (BitVec.eq_of_toInt_eq (e.trans (toInt_ofNat_small g).symm)))]; simp

/-- The three products and the bias at entry (p, q). -/
theorem pay5_apply (v0 : Vec Ideal S5000x128 .f32) (v2 : Vec Ideal S5000x1 .f32) (v8 : Vec Ideal S5000x128 .f32)
    (v11 v14 v17 : Vec Ideal S128x128 .f32) (v21 : Vec Ideal S5000x1 .i32) (v33 : Vec Ideal S1x128 .f32)
    (p : Fin 5000) (q : Fin 128) :
    k0_pay5 v0 v2 v8 v11 v14 v17 v21 v33 (ix2 p q)
      = (((∑ k : Fin 128, v8 (ix2 p k) * v11 (ix2 k q))
          + (∑ k : Fin 128, Ideal.div (v0 (ix2 p k)) (max (v2 (ix2 p 0)) wOne) * v14 (ix2 k q)))
          + (∑ g : Fin 128, (if (v21 (ix2 p 0)).toInt = (g.val : ℤ) then (1 : EReal) else 0) * v17 (ix2 g q)))
        + v33 (ix2 0 q) := by
  unfold k0_pay5
  simp only [shapeCast_self]
  rw [addf_apply, addf_apply, addf_apply]
  simp only [matmul]
  rw [PlainDot.matmul_zero_apply (M := 5000) (K := 128) (N := 128) dot_S5000x128_S128x128_S5000x128_1_0_0_1_n_n rfl rfl rfl rfl rfl rfl rfl rfl,
    PlainDot.matmul_zero_apply (M := 5000) (K := 128) (N := 128) dot_S5000x128_S128x128_S5000x128_1_0_0_1_n_n rfl rfl rfl rfl rfl rfl rfl rfl,
    PlainDot.matmul_zero_apply (M := 5000) (K := 128) (N := 128) dot_S5000x128_S128x128_S5000x128_1_0_0_1_n_n rfl rfl rfl rfl rfl rfl rfl rfl]
  have eb : broadcastTo S5000x128 v33 broadcasts_S1x128_S5000x128 (ix2 p q) = v33 (ix2 0 q) := by
    refine broadcastTo_apply v33 _ (ix2 p q) (ix2 (0 : Fin 1) q) fun ax => ?_
    match ax with
    | ⟨0, _⟩ => rfl
    | ⟨1, _⟩ => rfl
  rw [eb]
  congr 1
  congr 1
  congr 1
  · refine Finset.sum_congr rfl fun k _ => ?_
    rw [truncf_apply, truncf_apply, divf_apply, Column.broadcastTo_a1_ab_apply, maximumf_apply]
    rfl
  · refine Finset.sum_congr rfl fun g _ => ?_
    rw [truncf_apply, truncf_apply, sitofp_apply, extui_apply]
    show Scalar.sitofp (F := Ideal) .f32 ((IntOp.cmpi .eq (broadcastTo S5000x128 v21 broadcasts_S5000x1_S5000x128 (ix2 p g)) (iota Kind.tc S5000x128 32 [1] iota_S5000x128_d1_w32 (ix2 p g))).setWidth 32) * v17 (ix2 g q) = _
    rw [Column.broadcastTo_a1_ab_apply, iota_single_apply]
    show Scalar.sitofp (F := Ideal) .f32 ((IntOp.cmpi .eq (v21 (ix2 p 0)) (BitVec.ofNat 32 g.val)).setWidth 32) * v17 (ix2 g q) = _
    rw [onehot_word]

/-- The rectifier at an entry. -/
theorem pay1_apply (v36 v37 : FVec Ideal S5000x128 .f32) (y : S5000x128.Idx) : k0_pay1 v36 v37 y = max (v36 y) (v37 y) := rfl

/-- The rectifier's floor is 0. -/
theorem pay6_apply (y : S5000x128.Idx) : k0_pay6 (F := Ideal) y = 0 := by
  show Ideal.ofBits .f32 0x00000000#32 = 0
  exact Ideal.ofBits_zero_f32

/-- The padding rows are 0. -/
theorem pay2_apply (y : S7x128.Idx) : k0_pay2 (F := Ideal) y = 0 := by
  show Ideal.ofBits .f32 0x00000000#32 = 0
  exact Ideal.ofBits_zero_f32

/-- One tile's rows of the first layer. -/
theorem body_apply (x0 x1 : Vec Ideal S5000x128 .f32) (x2 : Vec Ideal S5000x1 .f32) (x3 : Vec Ideal S5000x1 .i32)
    (x4 x5 x6 : Vec Ideal S128x128 .f32) (x7 : Vec Ideal S1x128 .f32)
    (X S : Arr2 50000 128) (C : Arr2 50000 1) (B : IArr2 50000 1) (Wx Wv P : Arr2 128 128) (b : Arr2 1 128) (t : Fin 10)
    (h0 : ∀ p k, x0 (ix2 p k) = X (ix2 (tileRow t p) k)) (h1 : ∀ p k, x1 (ix2 p k) = S (ix2 (tileRow t p) k))
    (h2 : ∀ p, x2 (ix2 p 0) = C (ix2 (tileRow t p) 0)) (h3 : ∀ p, x3 (ix2 p 0) = B (ix2 (tileRow t p) 0))
    (h4 : x4 = Wx) (h5 : x5 = Wv) (h6 : x6 = P) (h7 : x7 = b) (p : Fin 5000) (q : Fin 128) :
    k0_pay1 (k0_pay5 x1 x2 x0 x4 x5 x6 x3 x7) (k0_pay6 (F := Ideal)) (ix2 p q) = k_h0 X S C B Wx Wv P b (tileRow t p) q := by
  rw [pay1_apply, pay6_apply, pay5_apply, h4, h5, h6, h7]
  unfold k_h0 k_ve k_onehot
  simp only [h0, h1, h2, h3]

/-- Column q with row k put back is (k, q). -/
theorem lift_row (h : S5000x128.Reduces [0] S128) (q : Fin 128) (k : Fin (S5000x128.size 0)) :
    h.lift (ix1 q) k = ix2 (⟨k.val, k.isLt⟩ : Fin 5000) q := by
  funext c; apply Fin.ext
  fin_cases c <;> rfl

/-- A column sum laid in row 0 of an 8-row block of zeros. -/
theorem stat_apply (H : FVec Ideal S5000x128 .f32) (u : Fin 1) (s : Fin 8) (q : Fin 128) :
    shapeCast S1x8x128 (concatenate S8x128 0 [⟨S1x128, shapeCast S1x128 (multiReduction .add [0] S128 H 0x00000000#32 reduces_S5000x128_S128 (.inl rfl) rfl) shapeCasts_S128_S1x128⟩, ⟨S7x128, k0_pay2 (F := Ideal)⟩] concatenates_S1x128_S7x128_S8x128_d0) shapeCasts_S8x128_S1x8x128 (ix3 u s q)
      = if s.val = 0 then ∑ k : Fin 5000, H (ix2 k q) else 0 := by
  rw [shapeCast_apply _ shapeCasts_S8x128_S1x8x128 (ix3 u s q) (ix2 s q) (by
    rw [Shape.rowMajor_val_two, Shape.rowMajor_val_three]
    show s.val * 128 + q.val = (u.val * 8 + s.val) * 128 + q.val
    have := u.isLt; omega)]
  by_cases hs : s.val = 0
  · rw [if_pos hs, concatenate_pair_apply_left (t := S8x128) (s₁ := S1x128) (s₂ := S7x128) (0 : Fin 2) _ _ concatenates_S1x128_S7x128_S8x128_d0 (ix2 s q) rfl (ix2 (0 : Fin 1) q) (fun b => by
      match b with
      | ⟨0, _⟩ => exact hs.symm
      | ⟨1, _⟩ => rfl)]
    rw [shapeCast_apply _ shapeCasts_S128_S1x128 (ix2 (0 : Fin 1) q) (ix1 q) (by
      rw [Shape.rowMajor_val_two, Shape.rowMajor_val_one]
      show q.val = 0 * 128 + q.val
      omega)]
    refine (Ideal.multiReduction_add_single H _ reduces_S5000x128_S128 _ _ (ix1 q)).trans ?_
    show ∑ k : Fin 5000, H (reduces_S5000x128_S128.lift (ix1 q) k) = _
    refine Finset.sum_congr rfl fun k _ => ?_
    exact congrArg H (lift_row reduces_S5000x128_S128 q k)
  · rw [if_neg hs, concatenate_pair_apply_right (t := S8x128) (s₁ := S1x128) (s₂ := S7x128) (0 : Fin 2) _ _ concatenates_S1x128_S7x128_S8x128_d0 (ix2 s q) rfl rfl (ix2 (⟨s.val - 1, by have := s.isLt; omega⟩ : Fin 7) q) (fun b hb => by
      match b with
      | ⟨0, _⟩ => exact absurd rfl hb
      | ⟨1, _⟩ => rfl) (by show s.val - 1 + 1 = s.val; omega)]
    exact pay2_apply _

/-- The same at any index of the tile. -/
theorem body_at (x0 x1 : Vec Ideal S5000x128 .f32) (x2 : Vec Ideal S5000x1 .f32) (x3 : Vec Ideal S5000x1 .i32)
    (x4 x5 x6 : Vec Ideal S128x128 .f32) (x7 : Vec Ideal S1x128 .f32)
    (X S : Arr2 50000 128) (C : Arr2 50000 1) (B : IArr2 50000 1) (Wx Wv P : Arr2 128 128) (b : Arr2 1 128) (t : Fin 10)
    (h0 : ∀ p k, x0 (ix2 p k) = X (ix2 (tileRow t p) k)) (h1 : ∀ p k, x1 (ix2 p k) = S (ix2 (tileRow t p) k))
    (h2 : ∀ p k, x2 (ix2 p k) = C (ix2 (tileRow t p) k)) (h3 : ∀ p k, x3 (ix2 p k) = B (ix2 (tileRow t p) k))
    (h4 : x4 = Wx) (h5 : x5 = Wv) (h6 : x6 = P) (h7 : x7 = b) (y : S5000x128.Idx) :
    k0_pay1 (k0_pay5 x1 x2 x0 x4 x5 x6 x3 x7) (k0_pay6 (F := Ideal)) y
      = k_h0 X S C B Wx Wv P b (tileRow t ⟨(y 0).val, (y 0).isLt⟩) ⟨(y 1).val, (y 1).isLt⟩ := by
  obtain ⟨p, q, rfl⟩ : ∃ p q, y = ix2 p q := ⟨y 0, y 1, eq_ix2 y⟩
  exact body_apply x0 x1 x2 x3 x4 x5 x6 x7 X S C B Wx Wv P b t h0 h1 (fun p => h2 p 0) (fun p => h3 p 0) h4 h5 h6 h7 p q

/-- A tile's block of partial sums from the tile's rows. -/
theorem part_at (H : FVec Ideal S5000x128 .f32) (h : Fin 50000 → Fin 128 → EReal) (t : Fin 10)
    (hH : ∀ y : S5000x128.Idx, H y = h (tileRow t ⟨(y 0).val, (y 0).isLt⟩) ⟨(y 1).val, (y 1).isLt⟩) (y : S1x8x128.Idx) :
    shapeCast S1x8x128 (concatenate S8x128 0 [⟨S1x128, shapeCast S1x128 (multiReduction .add [0] S128 H 0x00000000#32 reduces_S5000x128_S128 (.inl rfl) rfl) shapeCasts_S128_S1x128⟩, ⟨S7x128, k0_pay2 (F := Ideal)⟩] concatenates_S1x128_S7x128_S8x128_d0) shapeCasts_S8x128_S1x8x128 y
      = k_part h t ⟨(y 1).val, (y 1).isLt⟩ ⟨(y 2).val, (y 2).isLt⟩ := by
  obtain ⟨u, s, q, rfl⟩ : ∃ u s q, y = ix3 u s q := ⟨y 0, y 1, y 2, eq_ix3 y⟩
  rw [stat_apply]
  unfold k_part
  simp only [hH]

/-- The block of partial sums is that layout of the rectified tile's column sums … -/
theorem pay3_eq (v36 v37 : FVec Ideal S5000x128 .f32) : k0_pay3 v36 v37 = shapeCast S1x8x128 (concatenate S8x128 0 [⟨S1x128, shapeCast S1x128 (multiReduction .add [0] S128 (k0_pay1 v36 v37) 0x00000000#32 reduces_S5000x128_S128 (.inl rfl) rfl) shapeCasts_S128_S1x128⟩, ⟨S7x128, k0_pay2 (F := Ideal)⟩] concatenates_S1x128_S7x128_S8x128_d0) shapeCasts_S8x128_S1x8x128 := rfl

/-- … and the block of partial sums of squares that of its squares' column sums. -/
theorem pay4_eq (v36 v37 : FVec Ideal S5000x128 .f32) : k0_pay4 v36 v37 = shapeCast S1x8x128 (concatenate S8x128 0 [⟨S1x128, shapeCast S1x128 (multiReduction .add [0] S128 (mulf (k0_pay1 v36 v37) (k0_pay1 v36 v37)) 0x00000000#32 reduces_S5000x128_S128 (.inl rfl) rfl) shapeCasts_S128_S1x128⟩, ⟨S7x128, k0_pay2 (F := Ideal)⟩] concatenates_S1x128_S7x128_S8x128_d0) shapeCasts_S8x128_S1x8x128 := rfl

variable (V : (c : Dev nD) → (b : Ref sig .tc) → Buf (Elt Ideal) ((c : Thread nD τ).loc b))

/-! ## Tile t's blocks of the arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block index of every window at grid point t: the row windows move with t, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 3) = t.val ∧ win0_9.index t (1 : Fin 3) = 0 ∧ win0_9.index t (2 : Fin 3) = 0
    ∧ win0_10.index t (0 : Fin 3) = t.val ∧ win0_10.index t (1 : Fin 3) = 0 ∧ win0_10.index t (2 : Fin 3) = 0 :=
  (by decide +kernel : ∀ t : Fin grid0.N, _)

/-- A grid point as a tile number. -/
def tile (t : Fin cfg0.N) : Fin 10 := Fin.cast N_0 t

/-- Each row window's block at point t is rows 5000·t … of its array; each weight window's block is its array. -/
theorem iblk0_0_apply (c : Dev nD) (t : Fin cfg0.N) (p : Fin 5000) (k : Fin 128) :
    (iblk0 V c 0 t : Vec Ideal S5000x128 .f32) (ix2 p k) = (V c main_arg0 : Arr2 50000 128) (ix2 (tileRow (tile t) p) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

theorem iblk0_1_apply (c : Dev nD) (t : Fin cfg0.N) (p : Fin 5000) (k : Fin 128) :
    (iblk0 V c 1 t : Vec Ideal S5000x128 .f32) (ix2 p k) = (V c main_v4 : Arr2 50000 128) (ix2 (tileRow (tile t) p) k) := by
  obtain ⟨-, -, e0, e1, -⟩ := idx_facts t
  unfold iblk0
  rw [View.read_apply]
  show V c main_v4 _ = V c main_v4 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

theorem iblk0_2_apply (c : Dev nD) (t : Fin cfg0.N) (p : Fin 5000) (k : Fin 1) :
    (iblk0 V c 2 t : Vec Ideal S5000x1 .f32) (ix2 p k) = (V c main_v9 : Arr2 50000 1) (ix2 (tileRow (tile t) p) k) := by
  obtain ⟨-, -, -, -, e0, e1, -⟩ := idx_facts t
  unfold iblk0
  rw [View.read_apply]
  show V c main_v9 _ = V c main_v9 _
  congr 1
  funext a
  apply Fin.ext
  match a with
  | ⟨0, _⟩ => show win0_2.index t (0 : Fin 2) * 5000 + 1 * p.val = 5000 * t.val + p.val; rw [e0]; omega
  | ⟨1, _⟩ => show win0_2.index t (1 : Fin 2) * 1 + 1 * k.val = k.val; rw [e1]; omega

theorem iblk0_3_apply (c : Dev nD) (t : Fin cfg0.N) (p : Fin 5000) (k : Fin 1) :
    (iblk0 V c 3 t : Vec Ideal S5000x1 .i32) (ix2 p k) = (V c main_v10 : IArr2 50000 1) (ix2 (tileRow (tile t) p) k) := by
  obtain ⟨-, -, -, -, -, -, e0, e1, -⟩ := idx_facts t
  unfold iblk0
  rw [View.read_apply]
  show V c main_v10 _ = V c main_v10 _
  congr 1
  funext a
  apply Fin.ext
  match a with
  | ⟨0, _⟩ => show win0_3.index t (0 : Fin 2) * 5000 + 1 * p.val = 5000 * t.val + p.val; rw [e0]; omega
  | ⟨1, _⟩ => show win0_3.index t (1 : Fin 2) * 1 + 1 * k.val = k.val; rw [e1]; omega

theorem iblk0_4_eq (c : Dev nD) (t : Fin cfg0.N) : (iblk0 V c 4 t : Vec Ideal S128x128 .f32) = (V c main_v12 : Arr2 128 128) := by
  obtain ⟨-, -, -, -, -, -, -, -, e0, e1, -⟩ := idx_facts t
  funext y
  unfold iblk0
  rw [View.read_apply]
  show V c main_v12 _ = V c main_v12 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem iblk0_5_eq (c : Dev nD) (t : Fin cfg0.N) : (iblk0 V c 5 t : Vec Ideal S128x128 .f32) = (V c main_v14 : Arr2 128 128) := by
  obtain ⟨-, -, -, -, -, -, -, -, -, -, e0, e1, -⟩ := idx_facts t
  funext y
  unfold iblk0
  rw [View.read_apply]
  show V c main_v14 _ = V c main_v14 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem iblk0_6_eq (c : Dev nD) (t : Fin cfg0.N) : (iblk0 V c 6 t : Vec Ideal S128x128 .f32) = (V c main_v19 : Arr2 128 128) := by
  obtain ⟨-, -, -, -, -, -, -, -, -, -, -, -, e0, e1, -⟩ := idx_facts t
  funext y
  unfold iblk0
  rw [View.read_apply]
  show V c main_v19 _ = V c main_v19 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

theorem iblk0_7_eq (c : Dev nD) (t : Fin cfg0.N) : (iblk0 V c 7 t : Vec Ideal S1x128 .f32) = (V c main_v20 : Arr2 1 128) := by
  obtain ⟨-, -, -, -, -, -, -, -, -, -, -, -, -, -, e0, e1, -⟩ := idx_facts t
  funext y
  unfold iblk0
  rw [View.read_apply]
  show V c main_v20 _ = V c main_v20 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## The output arrays -/

/-- Point t writes back block t of the first layer's rectified output. -/
theorem flushed8_eq (c : Dev nD) (t : Fin cfg0.N) :
    (dat0 (F := Ideal) V c).flushed 8 t = ((cfg0.win 8).blk t).view.read (Elt Ideal)
      (ofFn2 (k_h0 (V c main_arg0) (V c main_v4) (V c main_v9) (V c main_v10) (V c main_v12) (V c main_v14) (V c main_v19) (V c main_v20))) := by
  show (cfg0.win 8).cut (grid0.coords t) ((dat0 (F := Ideal) V c).after 8 t) = _
  rw [after0_8]
  unfold out0_8
  rw [View.canon_unit_zero hz2]
  simp only [View.ld_unit_zero (S := S5000x128) hz2, View.ld_unit_zero (S := S5000x1) hz2, View.ld_unit_zero (S := S128x128) hz2, View.ld_unit_zero (S := S1x128) hz2]
  funext j
  refine (body_at _ _ _ _ _ _ _ _ _ _ _ _ _ _ _ _ (tile t) (iblk0_0_apply V c t) (iblk0_1_apply V c t) (iblk0_2_apply V c t) (iblk0_3_apply V c t)
    (iblk0_4_eq V c t) (iblk0_5_eq V c t) (iblk0_6_eq V c t) (iblk0_7_eq V c t) ((cfg0.win 8).xinj (grid0.coords t) j)).trans ?_
  rw [View.read_apply]
  obtain ⟨-, -, -, -, -, -, -, -, -, -, -, -, -, -, -, -, e0, e1, -⟩ := idx_facts t
  have h0 : ((((cfg0.win 8).blk t).view.emb j) 0).val = 5000 * t.val + (j 0).val := by
    show win0_8.index t (0 : Fin 2) * 5000 + 1 * (j 0).val = _; rw [e0]; omega
  have h1 : ((((cfg0.win 8).blk t).view.emb j) 1).val = (j 1).val := by
    show win0_8.index t (1 : Fin 2) * 128 + 1 * (j 1).val = _; rw [e1]; omega
  unfold ofFn2
  congr 1
  · exact Fin.ext h0.symm
  · exact Fin.ext h1.symm

theorem mem_blk8 (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v29_0).slice (win0_8.rect t)).set ↔ _
  rw [View.set_slice_whole, Rect.mem_set_unit]
  exact Iff.rfl

/-- The first layer's output array after region 0. -/
theorem arr0_8 (c : Dev nD) :
    (dat0 (F := Ideal) V c).arrAt 8 cfg0.N
      = ofFn2 (k_h0 (V c main_arg0) (V c main_v4) (V c main_v9) (V c main_v10) (V c main_v12) (V c main_v14) (V c main_v19) (V c main_v20)) :=
  (dat0 (F := Ideal) V c).arrAt_eq_of_cover 8 _ (fun t _ => flushed8_eq V c t) fun i => by
    have hi0 : (i 0).val < 50000 := (i 0).isLt
    have hi1 : (i 1).val < 128 := (i 1).isLt
    have hN : cfg0.N = 10 := N_0
    refine ⟨⟨(i 0).val / 5000, by rw [hN]; omega⟩, flush0_8 _, ?_⟩
    rw [mem_blk8]
    obtain ⟨-, -, -, -, -, -, -, -, -, -, -, -, -, -, -, -, e0, e1, -⟩ := idx_facts ⟨(i 0).val / 5000, by rw [hN]; omega⟩
    intro a
    match a with
    | ⟨0, _⟩ =>
      show win0_8.index _ (0 : Fin 2) * 5000 ≤ (i 0).val ∧ (i 0).val < win0_8.index _ (0 : Fin 2) * 5000 + 5000
      rw [e0]; show (i 0).val / 5000 * 5000 ≤ (i 0).val ∧ (i 0).val < (i 0).val / 5000 * 5000 + 5000; omega
    | ⟨1, _⟩ =>
      show win0_8.index _ (1 : Fin 2) * 128 ≤ (i 1).val ∧ (i 1).val < win0_8.index _ (1 : Fin 2) * 128 + 128
      rw [e1]; omega

/-- Point t writes back block t of the partial column sums. -/
theorem flushed9_eq (c : Dev nD) (t : Fin cfg0.N) :
    (dat0 (F := Ideal) V c).flushed 9 t = ((cfg0.win 9).blk t).view.read (Elt Ideal)
      (ofFn3 (k_part (k_h0 (V c main_arg0) (V c main_v4) (V c main_v9) (V c main_v10) (V c main_v12) (V c main_v14) (V c main_v19) (V c main_v20)))) := by
  show (cfg0.win 9).cut (grid0.coords t) ((dat0 (F := Ideal) V c).after 9 t) = _
  rw [after0_9]
  unfold out0_9
  rw [View.canon_unit_zero hz3]
  simp only [View.ld_unit_zero (S := S5000x128) hz2, View.ld_unit_zero (S := S5000x1) hz2, View.ld_unit_zero (S := S128x128) hz2, View.ld_unit_zero (S := S1x128) hz2]
  rw [pay3_eq]
  have hb := body_at _ _ _ _ _ _ _ _ _ _ _ _ _ _ _ _ (tile t) (iblk0_0_apply V c t) (iblk0_1_apply V c t) (iblk0_2_apply V c t) (iblk0_3_apply V c t)
    (iblk0_4_eq V c t) (iblk0_5_eq V c t) (iblk0_6_eq V c t) (iblk0_7_eq V c t)
  funext j
  refine (part_at _ (k_h0 (V c main_arg0) (V c main_v4) (V c main_v9) (V c main_v10) (V c main_v12) (V c main_v14) (V c main_v19) (V c main_v20)) (tile t) hb ((cfg0.win 9).xinj (grid0.coords t) j)).trans ?_
  rw [View.read_apply]
  obtain ⟨-, -, -, -, -, -, -, -, -, -, -, -, -, -, -, -, -, -, e0, e1, e2, -⟩ := idx_facts t
  have hj : (j 0).val < 1 := (j 0).isLt
  have h0 : ((((cfg0.win 9).blk t).view.emb j) 0).val = t.val := by
    show win0_9.index t (0 : Fin 3) * 1 + 1 * (j 0).val = _; rw [e0]; omega
  have h1 : ((((cfg0.win 9).blk t).view.emb j) 1).val = (j 1).val := by
    show win0_9.index t (1 : Fin 3) * 8 + 1 * (j 1).val = _; rw [e1]; omega
  have h2 : ((((cfg0.win 9).blk t).view.emb j) 2).val = (j 2).val := by
    show win0_9.index t (2 : Fin 3) * 128 + 1 * (j 2).val = _; rw [e2]; omega
  unfold ofFn3
  congr 1
  · exact Fin.ext h0.symm
  · exact Fin.ext h1.symm
  · exact Fin.ext h2.symm

theorem mem_blk9 (t : Fin cfg0.N) (i : S10x8x128.Idx) :
    i ∈ ((cfg0.win 9).blk t).view.set ↔ ∀ a : Fin 3, win0_9.index t a * S1x8x128.size a ≤ (i a).val ∧ (i a).val < win0_9.index t a * S1x8x128.size a + S1x8x128.size a := by
  show i ∈ ((View.whole main_v29_1).slice (win0_9.rect t)).set ↔ _
  rw [View.set_slice_whole, Rect.mem_set_unit]
  exact Iff.rfl

/-- The array of per-tile partial column sums after region 0. -/
theorem arr0_9 (c : Dev nD) :
    (dat0 (F := Ideal) V c).arrAt 9 cfg0.N
      = ofFn3 (k_part (k_h0 (V c main_arg0) (V c main_v4) (V c main_v9) (V c main_v10) (V c main_v12) (V c main_v14) (V c main_v19) (V c main_v20))) :=
  (dat0 (F := Ideal) V c).arrAt_eq_of_cover 9 _ (fun t _ => flushed9_eq V c t) fun i => by
    have hi0 : (i 0).val < 10 := (i 0).isLt
    have hi1 : (i 1).val < 8 := (i 1).isLt
    have hi2 : (i 2).val < 128 := (i 2).isLt
    have hN : cfg0.N = 10 := N_0
    refine ⟨⟨(i 0).val, by rw [hN]; omega⟩, flush0_9 _, ?_⟩
    rw [mem_blk9]
    obtain ⟨-, -, -, -, -, -, -, -, -, -, -, -, -, -, -, -, -, -, e0, e1, e2, -⟩ := idx_facts ⟨(i 0).val, by rw [hN]; omega⟩
    intro a
    match a with
    | ⟨0, _⟩ =>
      show win0_9.index _ (0 : Fin 3) * 1 ≤ (i 0).val ∧ (i 0).val < win0_9.index _ (0 : Fin 3) * 1 + 1
      rw [e0]; show (i 0).val * 1 ≤ (i 0).val ∧ (i 0).val < (i 0).val * 1 + 1; omega
    | ⟨1, _⟩ =>
      show win0_9.index _ (1 : Fin 3) * 8 ≤ (i 1).val ∧ (i 1).val < win0_9.index _ (1 : Fin 3) * 8 + 8
      rw [e1]; omega
    | ⟨2, _⟩ =>
      show win0_9.index _ (2 : Fin 3) * 128 ≤ (i 2).val ∧ (i 2).val < win0_9.index _ (2 : Fin 3) * 128 + 128
      rw [e2]; omega

/-- Point t writes back block t of the partial column sums of squares. -/
theorem flushed10_eq (c : Dev nD) (t : Fin cfg0.N) :
    (dat0 (F := Ideal) V c).flushed 10 t = ((cfg0.win 10).blk t).view.read (Elt Ideal)
      (ofFn3 (k_part (sq (k_h0 (V c main_arg0) (V c main_v4) (V c main_v9) (V c main_v10) (V c main_v12) (V c main_v14) (V c main_v19) (V c main_v20))))) := by
  show (cfg0.win 10).cut (grid0.coords t) ((dat0 (F := Ideal) V c).after 10 t) = _
  rw [after0_10]
  unfold out0_10
  rw [View.canon_unit_zero hz3]
  simp only [View.ld_unit_zero (S := S5000x128) hz2, View.ld_unit_zero (S := S5000x1) hz2, View.ld_unit_zero (S := S128x128) hz2, View.ld_unit_zero (S := S1x128) hz2]
  rw [pay4_eq]
  have hb := body_at _ _ _ _ _ _ _ _ _ _ _ _ _ _ _ _ (tile t) (iblk0_0_apply V c t) (iblk0_1_apply V c t) (iblk0_2_apply V c t) (iblk0_3_apply V c t)
    (iblk0_4_eq V c t) (iblk0_5_eq V c t) (iblk0_6_eq V c t) (iblk0_7_eq V c t)
  funext j
  refine (part_at _ (sq (k_h0 (V c main_arg0) (V c main_v4) (V c main_v9) (V c main_v10) (V c main_v12) (V c main_v14) (V c main_v19) (V c main_v20))) (tile t) (fun y => by rw [mulf_apply, hb y]; rfl) ((cfg0.win 10).xinj (grid0.coords t) j)).trans ?_
  rw [View.read_apply]
  obtain ⟨-, -, -, -, -, -, -, -, -, -, -, -, -, -, -, -, -, -, -, -, -, e0, e1, e2⟩ := idx_facts t
  have hj : (j 0).val < 1 := (j 0).isLt
  have h0 : ((((cfg0.win 10).blk t).view.emb j) 0).val = t.val := by
    show win0_10.index t (0 : Fin 3) * 1 + 1 * (j 0).val = _; rw [e0]; omega
  have h1 : ((((cfg0.win 10).blk t).view.emb j) 1).val = (j 1).val := by
    show win0_10.index t (1 : Fin 3) * 8 + 1 * (j 1).val = _; rw [e1]; omega
  have h2 : ((((cfg0.win 10).blk t).view.emb j) 2).val = (j 2).val := by
    show win0_10.index t (2 : Fin 3) * 128 + 1 * (j 2).val = _; rw [e2]; omega
  unfold ofFn3
  congr 1
  · exact Fin.ext h0.symm
  · exact Fin.ext h1.symm
  · exact Fin.ext h2.symm

theorem mem_blk10 (t : Fin cfg0.N) (i : S10x8x128.Idx) :
    i ∈ ((cfg0.win 10).blk t).view.set ↔ ∀ a : Fin 3, win0_10.index t a * S1x8x128.size a ≤ (i a).val ∧ (i a).val < win0_10.index t a * S1x8x128.size a + S1x8x128.size a := by
  show i ∈ ((View.whole main_v29_2).slice (win0_10.rect t)).set ↔ _
  rw [View.set_slice_whole, Rect.mem_set_unit]
  exact Iff.rfl

/-- The array of per-tile partial column sums of squares after region 0. -/
theorem arr0_10 (c : Dev nD) :
    (dat0 (F := Ideal) V c).arrAt 10 cfg0.N
      = ofFn3 (k_part (sq (k_h0 (V c main_arg0) (V c main_v4) (V c main_v9) (V c main_v10) (V c main_v12) (V c main_v14) (V c main_v19) (V c main_v20)))) :=
  (dat0 (F := Ideal) V c).arrAt_eq_of_cover 10 _ (fun t _ => flushed10_eq V c t) fun i => by
    have hi0 : (i 0).val < 10 := (i 0).isLt
    have hi1 : (i 1).val < 8 := (i 1).isLt
    have hi2 : (i 2).val < 128 := (i 2).isLt
    have hN : cfg0.N = 10 := N_0
    refine ⟨⟨(i 0).val, by rw [hN]; omega⟩, flush0_10 _, ?_⟩
    rw [mem_blk10]
    obtain ⟨-, -, -, -, -, -, -, -, -, -, -, -, -, -, -, -, -, -, -, -, -, e0, e1, e2⟩ := idx_facts ⟨(i 0).val, by rw [hN]; omega⟩
    intro a
    match a with
    | ⟨0, _⟩ =>
      show win0_10.index _ (0 : Fin 3) * 1 ≤ (i 0).val ∧ (i 0).val < win0_10.index _ (0 : Fin 3) * 1 + 1
      rw [e0]; show (i 0).val * 1 ≤ (i 0).val ∧ (i 0).val < (i 0).val * 1 + 1; omega
    | ⟨1, _⟩ =>
      show win0_10.index _ (1 : Fin 3) * 8 ≤ (i 1).val ∧ (i 1).val < win0_10.index _ (1 : Fin 3) * 8 + 8
      rw [e1]; omega
    | ⟨2, _⟩ =>
      show win0_10.index _ (2 : Fin 3) * 128 ≤ (i 2).val ∧ (i 2).val < win0_10.index _ (2 : Fin 3) * 128 + 128
      rw [e2]; omega

end Cert.Gnn.Region0

end
-- ==== Proof.Region1.lean ====
/-
  The arrays a later layer's region leaves: the layer's output and the two arrays of per-tile partial sums.

  One grid point t of 10 takes rows 5000 t … 5000 t + 4999 of the input h and the whole rows of mean, variance, scale
  and shift, the whole transposed weights and the bias row. It normalises its block entry by entry,
  g · (h − m) · (v + ε)^(-1/2) + β, multiplies by the weights (a sum of 128 products per entry, into a zero
  accumulator), adds the bias row and takes the maximum with 0. That block goes back to the same rows of the output.
  Its column sums, and the column sums of its entries' squares, each go to row 0 of an 8-row block whose rows 1 to 7
  are zero: block t of a [10, 8, 128] array.

  The proof reads the stored values at an index (the layer at any number of rows, `layerAt`, so that a block of 5000
  rows and the array of 50000 rows are instances of one function), identifies each loaded block with the rows of its
  array that the point's block index names, and then collects the ten blocks: row r is written by point r / 5000,
  block t of a statistics array by point t.
-/
import proofs.«412658_j74818330296971_3_alg».proof.Proof.Gen.KernelIdeal.Frame
import proofs.«412658_j74818330296971_3_alg».proof.Proof.Spec
import proofs.«412658_j74818330296971_3_alg».proof.Proof.LibPlainDot
import Idealize.ShloMosaic.Lib.Pipeline.Value
import Idealize.ShloMosaic.PureOps.Ideal.Laws

set_option maxRecDepth 16384

noncomputable section

namespace Cert.Gnn.Region1

open Cert.KernelIdeal Cert.KernelIdeal.Gen Cert.Gnn Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## Layout steps read at an index -/

/-- A row [1, b] broadcast along a rows reads, at (p, q), the row's entry q. -/
theorem row_broadcast_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] cast to the row [1, b] reads, at (0, q), the vector's entry q. -/
theorem row_cast_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A matrix [a, b] cast to the one-block array [1, a, b] reads, at (0, s, q), the matrix's entry (s, q). -/
theorem block_cast_apply {α : Type} {a b : ℕ} (x : (⟨2, ![a, b]⟩ : Shape).Idx → α)
    (h : (⟨2, ![a, b]⟩ : Shape).ShapeCasts ⟨3, ![1, a, b]⟩) (u : Fin 1) (s : Fin a) (q : Fin b) :
    shapeCast ⟨3, ![1, a, b]⟩ x h (ix3 u s q) = x (ix2 s q) :=
  shapeCast_apply x h _ _ (by
    have hu : u.val = 0 := by omega
    rw [Shape.rowMajor_val_three, Shape.rowMajor_val_two]
    show s.val * b + q.val = (u.val * a + s.val) * b + q.val
    rw [hu, Nat.zero_mul, Nat.zero_add])

/-! ## The layer at any number of rows -/

/-- The layer's entry (r, c) for an input of n rows: normalise row r, contract with the weights' column c, add the bias, rectify. -/
def layerAt {n : ℕ} (h : (⟨2, ![n, 128]⟩ : Shape).Idx → EReal) (mean var g beta : Arr2 1 128) (Wt : Arr2 128 128)
    (b : Arr2 1 128) (r : Fin n) (c : Fin 128) : EReal :=
  max ((∑ k : Fin 128, (g (ix2 0 k) * (h (ix2 r k) - mean (ix2 0 k)) * Ideal.rsqrt (var (ix2 0 k) + wEps) + beta (ix2 0 k))
      * Wt (ix2 k c)) + b (ix2 0 c)) 0

theorem k_h1_eq_layerAt (h : Arr2 50000 128) (mean var g beta : Arr2 1 128) (Wt : Arr2 128 128) (b : Arr2 1 128) :
    k_h1 h mean var g beta Wt b = layerAt h mean var g beta Wt b := rfl

/-! ## The body's values at an index -/

/-- The stored block at (p, q): the layer of the loaded blocks. -/
theorem pay4_apply (h : Vec Ideal S5000x128 .f32) (g mean var beta : Vec Ideal S1x128 .f32) (W : Vec Ideal S128x128 .f32)
    (b : Vec Ideal S1x128 .f32) (p : Fin 5000) (q : Fin 128) :
    k1_pay4 (F := Ideal) h g mean var beta W b (ix2 p q) = layerAt h mean var g beta W b p q := by
  unfold k1_pay4 layerAt
  simp only [shapeCast_self]
  rw [maximumf_apply, addf_apply, broadcast_apply, row_broadcast_apply]
  refine congrArg₂ max (congrArg₂ (· + ·) ?_ rfl) Ideal.ofBits_zero_f32
  refine (PlainDot.matmul_zero_apply dot_S5000x128_S128x128_S5000x128_1_0_0_1_n_n rfl rfl rfl rfl rfl rfl rfl rfl none _ _ p q).trans ?_
  refine Finset.sum_congr rfl fun k _ => ?_
  rw [truncf_apply, truncf_apply, addf_apply, mulf_apply, mulf_apply, subf_apply, row_broadcast_apply, row_broadcast_apply,
    row_broadcast_apply, row_broadcast_apply]
  rfl

/-! ## The partial sums -/

/-- The padded block of a row of partial sums at (0, s, q): the row in row 0, zero in rows 1 to 7. -/
theorem pay2_apply (v : FVec Ideal S1x128 .f32) (u : Fin 1) (s : Fin 8) (q : Fin 128) :
    k1_pay2 (F := Ideal) v (ix3 u s q) = if s.val = 0 then v (ix2 0 q) else 0 := by
  unfold k1_pay2
  rw [block_cast_apply]
  split
  · next hs =>
    refine concatenate_pair_apply_left (0 : Fin 2) v (k1_pay1 (F := Ideal)) _ (ix2 s q) rfl (ix2 0 q) fun b => ?_
    match b with
    | ⟨0, _⟩ => show (0 : ℕ) = s.val; omega
    | ⟨1, _⟩ => rfl
  · next hs =>
    refine (concatenate_pair_apply_right (0 : Fin 2) v (k1_pay1 (F := Ideal)) _ (ix2 s q) rfl rfl
      (ix2 (⟨s.val - 1, by omega⟩ : Fin 7) q) (fun b hb => ?_) ?_).trans ?_
    · match b with
      | ⟨0, _⟩ => exact absurd rfl hb
      | ⟨1, _⟩ => rfl
    · show s.val - 1 + 1 = s.val; omega
    · unfold k1_pay1
      rw [broadcast_apply]
      exact Ideal.ofBits_zero_f32

/-- The same for a vector of partial sums. -/
theorem pay3_apply (v : FVec Ideal S128 .f32) (u : Fin 1) (s : Fin 8) (q : Fin 128) :
    k1_pay3 (F := Ideal) v (ix3 u s q) = if s.val = 0 then v (ix1 q) else 0 := by
  unfold k1_pay3
  rw [block_cast_apply]
  split
  · next hs =>
    refine (concatenate_pair_apply_left (0 : Fin 2) (shapeCast S1x128 v shapeCasts_S128_S1x128) (k1_pay1 (F := Ideal)) _ (ix2 s q) rfl (ix2 0 q) fun b => ?_).trans
      (row_cast_apply v _ 0 q)
    match b with
    | ⟨0, _⟩ => show (0 : ℕ) = s.val; omega
    | ⟨1, _⟩ => rfl
  · next hs =>
    refine (concatenate_pair_apply_right (0 : Fin 2) (shapeCast S1x128 v shapeCasts_S128_S1x128) (k1_pay1 (F := Ideal)) _ (ix2 s q) rfl rfl
      (ix2 (⟨s.val - 1, by omega⟩ : Fin 7) q) (fun b hb => ?_) ?_).trans ?_
    · match b with
      | ⟨0, _⟩ => exact absurd rfl hb
      | ⟨1, _⟩ => rfl
    · show s.val - 1 + 1 = s.val; omega
    · unfold k1_pay1
      rw [broadcast_apply]
      exact Ideal.ofBits_zero_f32

/-- The column index (q) of the reduced vector with row k put back is (k, q). -/
theorem lift_col (k : Fin 5000) (q : Fin 128) : reduces_S5000x128_S128.lift (ix1 q) k = ix2 k q := by
  funext a
  apply Fin.ext
  match a with
  | ⟨0, _⟩ => rfl
  | ⟨1, _⟩ => rfl

/-- A column sum of a block. -/
theorem colsum_apply (x : FVec Ideal S5000x128 .f32) (hacc : (0x00000000#32 : BitVec 32) = 0x00000000#32) (q : Fin 128) :
    multiReduction (F := Ideal) .add [0] S128 x 0x00000000#32 reduces_S5000x128_S128 (.inl rfl) hacc (ix1 q)
      = ∑ k : Fin 5000, x (ix2 k q) := by
  refine (Ideal.multiReduction_add_single x 0x00000000#32 reduces_S5000x128_S128 (.inl rfl) hacc (ix1 q)).trans ?_
  exact Finset.sum_congr rfl fun k _ => congrArg x (lift_col k q)

/-- The row of the block's column sums at (0, q). -/
theorem pay5_apply (h : Vec Ideal S5000x128 .f32) (g mean var beta : Vec Ideal S1x128 .f32) (W : Vec Ideal S128x128 .f32)
    (b : Vec Ideal S1x128 .f32) (u : Fin 1) (q : Fin 128) :
    k1_pay5 (F := Ideal) h g mean var beta W b (ix2 u q) = ∑ k : Fin 5000, layerAt h mean var g beta W b k q := by
  unfold k1_pay5
  rw [row_cast_apply]
  refine (colsum_apply _ rfl q).trans ?_
  exact Finset.sum_congr rfl fun k _ => pay4_apply h g mean var beta W b k q

/-- The vector of the block's column sums of squares at q. -/
theorem pay6_apply (h : Vec Ideal S5000x128 .f32) (g mean var beta : Vec Ideal S1x128 .f32) (W : Vec Ideal S128x128 .f32)
    (b : Vec Ideal S1x128 .f32) (q : Fin 128) :
    k1_pay6 (F := Ideal) h g mean var beta W b (ix1 q)
      = ∑ k : Fin 5000, layerAt h mean var g beta W b k q * layerAt h mean var g beta W b k q := by
  unfold k1_pay6
  refine (colsum_apply _ rfl q).trans ?_
  refine Finset.sum_congr rfl fun k _ => ?_
  rw [mulf_apply, pay4_apply]

/-! ## The blocks the body loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block index maps over the grid: the row windows and the weights stay at block 0, the input, the output and the
    two statistics windows are at block t. -/
theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 3) = t.val ∧ win1_8.index t (1 : Fin 3) = 0 ∧ win1_8.index t (2 : Fin 3) = 0)
    ∧ (win1_9.index t (0 : Fin 3) = t.val ∧ win1_9.index t (1 : Fin 3) = 0 ∧ win1_9.index t (2 : Fin 3) = 0) :=
  (by decide +kernel : ∀ t : Fin grid1.N, _)

theorem lt_ten1 (t : Fin cfg1.N) : t.val < 10 := lt_of_lt_of_eq t.isLt (by decide : grid1.N = 10)

/-- The input's block at point t is rows 5000 t … 5000 t + 4999 of the array. -/
theorem iblk1_0_apply (c : Dev nD) (t : Fin cfg1.N) (p : Fin 5000) (k : Fin 128) :
    (iblk1 V c 0 t : Vec Ideal S5000x128 .f32) (ix2 p k)
      = (V c main_v29_0 : S50000x128.Idx → EReal) (ix2 (tileRow ⟨t.val, lt_ten1 t⟩ p) k) := by
  obtain ⟨⟨e0, e1⟩, -⟩ := idx_facts1 t
  unfold iblk1
  rw [View.read_apply]
  show V c main_v29_0 _ = V c main_v29_0 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The row windows' and the weights' blocks are their whole arrays at every point. -/
theorem iblk1_1_eq (c : Dev nD) (t : Fin cfg1.N) : (iblk1 V c 1 t : Vec Ideal S1x128 .f32) = V c main_v40 := by
  obtain ⟨-, ⟨e0, e1⟩, -⟩ := idx_facts1 t
  unfold iblk1
  funext x
  rw [View.read_apply]
  show V c main_v40 _ = V c main_v40 x
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

theorem iblk1_2_eq (c : Dev nD) (t : Fin cfg1.N) : (iblk1 V c 2 t : Vec Ideal S1x128 .f32) = V c main_v41 := by
  obtain ⟨-, -, ⟨e0, e1⟩, -⟩ := idx_facts1 t
  unfold iblk1
  funext x
  rw [View.read_apply]
  show V c main_v41 _ = V c main_v41 x
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

theorem iblk1_3_eq (c : Dev nD) (t : Fin cfg1.N) : (iblk1 V c 3 t : Vec Ideal S1x128 .f32) = V c main_v23 := by
  obtain ⟨-, -, -, ⟨e0, e1⟩, -⟩ := idx_facts1 t
  unfold iblk1
  funext x
  rw [View.read_apply]
  show V c main_v23 _ = V c main_v23 x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

theorem iblk1_4_eq (c : Dev nD) (t : Fin cfg1.N) : (iblk1 V c 4 t : Vec Ideal S1x128 .f32) = V c main_v24 := by
  obtain ⟨-, -, -, -, ⟨e0, e1⟩, -⟩ := idx_facts1 t
  unfold iblk1
  funext x
  rw [View.read_apply]
  show V c main_v24 _ = V c main_v24 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

theorem iblk1_5_eq (c : Dev nD) (t : Fin cfg1.N) : (iblk1 V c 5 t : Vec Ideal S128x128 .f32) = V c main_v17 := by
  obtain ⟨-, -, -, -, -, ⟨e0, e1⟩, -⟩ := idx_facts1 t
  unfold iblk1
  funext x
  rw [View.read_apply]
  show V c main_v17 _ = V c main_v17 x
  congr 1
  funext a
  apply Fin.ext
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

theorem iblk1_6_eq (c : Dev nD) (t : Fin cfg1.N) : (iblk1 V c 6 t : Vec Ideal S1x128 .f32) = V c main_v21 := by
  obtain ⟨-, -, -, -, -, -, ⟨e0, e1⟩, -⟩ := idx_facts1 t
  unfold iblk1
  funext x
  rw [View.read_apply]
  show V c main_v21 _ = V c main_v21 x
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- The layer of point t's blocks at (p, q) is the layer of the arrays at row 5000 t + p. -/
theorem layer_blk1 (c : Dev nD) (t : Fin cfg1.N) (p : Fin 5000) (q : Fin 128) :
    layerAt (iblk1 V c 0 t : Vec Ideal S5000x128 .f32) (iblk1 V c 1 t : Vec Ideal S1x128 .f32) (iblk1 V c 2 t : Vec Ideal S1x128 .f32)
        (iblk1 V c 3 t : Vec Ideal S1x128 .f32) (iblk1 V c 4 t : Vec Ideal S1x128 .f32) (iblk1 V c 5 t : Vec Ideal S128x128 .f32)
        (iblk1 V c 6 t : Vec Ideal S1x128 .f32) p q
      = layerAt (V c main_v29_0) (V c main_v40) (V c main_v41) (V c main_v23) (V c main_v24) (V c main_v17) (V c main_v21)
          (tileRow ⟨t.val, lt_ten1 t⟩ p) q := by
  rw [iblk1_1_eq, iblk1_2_eq, iblk1_3_eq, iblk1_4_eq, iblk1_5_eq, iblk1_6_eq]
  unfold layerAt
  simp only [iblk1_0_apply V c t]

/-! ## The layer's output array -/

/-- What point t writes back to the output is block t of the layer of the arrays. -/
theorem flushed1_7_eq (c : Dev nD) (t : Fin cfg1.N) :
    (dat1 (F := Ideal) V c).flushed 7 t = ((cfg1.win 7).blk t).view.read (Elt Ideal)
      (ofFn2 (layerAt (V c main_v29_0) (V c main_v40) (V c main_v41) (V c main_v23) (V c main_v24) (V c main_v17) (V c main_v21))) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S1x128) hz2, View.ld_unit_zero (S := S128x128) hz2]
  obtain ⟨-, -, -, -, -, -, -, ⟨e0, e1⟩, -⟩ := idx_facts1 t
  funext j
  obtain ⟨p, q, rfl⟩ : ∃ (p : Fin 5000) (q : Fin 128), j = ix2 p q := ⟨j 0, j 1, eq_ix2 j⟩
  refine (pay4_apply (iblk1 V c 0 t) (iblk1 V c 3 t) (iblk1 V c 1 t) (iblk1 V c 2 t) (iblk1 V c 4 t) (iblk1 V c 5 t) (iblk1 V c 6 t) p q).trans ?_
  refine (layer_blk1 V c t p q).trans ?_
  rw [View.read_apply]
  have hemb : ((cfg1.win 7).blk t).view.emb (ix2 p q) = ix2 (tileRow ⟨t.val, lt_ten1 t⟩ p) q := by
    funext a
    apply Fin.ext
    match a with
    | ⟨0, _⟩ => show win1_7.index t (0 : Fin 2) * 5000 + 1 * p.val = 5000 * t.val + p.val; rw [e0]; omega
    | ⟨1, _⟩ => show win1_7.index t (1 : Fin 2) * 128 + 1 * q.val = q.val; rw [e1]; omega
  rw [hemb]
  rfl

/-- An index of the output array is in point t's block iff each coordinate is in the block's range on its axis. -/
theorem mem_blk1_7 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole (Pipeline.arrRef spec1 7)).slice (win1_7.rect t)).set ↔ _
  rw [View.set_slice_whole, Rect.mem_set_unit]
  exact Iff.rfl

/-- Row r is written back by point r / 5000. -/
theorem covered1_7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := (by decide : grid1.N = 10)
  let t : Fin cfg1.N := ⟨(i 0).val / 5000, by rw [hN]; omega⟩
  have htv : t.val = (i 0).val / 5000 := rfl
  obtain ⟨-, -, -, -, -, -, -, ⟨e0, e1⟩, -⟩ := idx_facts1 t
  refine ⟨t, (by decide +kernel : ∀ t : Fin grid1.N, win1_7.flush t = true) t, ?_⟩
  rw [mem_blk1_7]
  intro a
  match a with
  | ⟨0, _⟩ => show win1_7.index t (0 : Fin 2) * 5000 ≤ (i 0).val ∧ (i 0).val < win1_7.index t (0 : Fin 2) * 5000 + 5000; rw [e0, htv]; omega
  | ⟨1, _⟩ => show win1_7.index t (1 : Fin 2) * 128 ≤ (i 1).val ∧ (i 1).val < win1_7.index t (1 : Fin 2) * 128 + 128; rw [e1]; omega

/-- The layer's output array after region 1. -/
theorem arr1_7 (c : Dev nD) :
    (dat1 (F := Ideal) V c).arrAt 7 cfg1.N
      = ofFn2 (k_h1 (V c main_v29_0) (V c main_v40) (V c main_v41) (V c main_v23) (V c main_v24) (V c main_v17) (V c main_v21)) := by
  rw [k_h1_eq_layerAt]
  exact (dat1 (F := Ideal) V c).arrAt_eq_of_cover 7 _ (fun t _ => flushed1_7_eq V c t) covered1_7

/-! ## The arrays of partial sums -/

/-- What point t writes back to statistics window 8 is block t of the tiles' partial sums. -/
theorem flushed1_8_eq (c : Dev nD) (t : Fin cfg1.N) :
    (dat1 (F := Ideal) V c).flushed 8 t = ((cfg1.win 8).blk t).view.read (Elt Ideal)
      (ofFn3 (k_part (layerAt (V c main_v29_0) (V c main_v40) (V c main_v41) (V c main_v23) (V c main_v24) (V c main_v17) (V c main_v21)))) := by
  show (cfg1.win 8).cut (grid1.coords t) ((dat1 V c).after 8 t) = _
  rw [after1_8]
  unfold out1_8
  rw [View.canon_unit_zero hz3]
  simp only [View.ld_unit_zero (S := S5000x128) hz2, View.ld_unit_zero (S := S1x128) hz2, View.ld_unit_zero (S := S128x128) hz2]
  obtain ⟨-, -, -, -, -, -, -, -, ⟨e0, e1, e2⟩, -⟩ := idx_facts1 t
  funext j
  obtain ⟨u, s, q, rfl⟩ : ∃ (u : Fin 1) (s : Fin 8) (q : Fin 128), j = ix3 u s q := ⟨j 0, j 1, j 2, eq_ix3 j⟩
  refine (pay2_apply (k1_pay5 (F := Ideal) (iblk1 V c 0 t) (iblk1 V c 3 t) (iblk1 V c 1 t) (iblk1 V c 2 t) (iblk1 V c 4 t)
    (iblk1 V c 5 t) (iblk1 V c 6 t)) u s q).trans ?_
  rw [View.read_apply]
  have hemb : ((cfg1.win 8).blk t).view.emb (ix3 u s q) = ix3 (⟨t.val, lt_ten1 t⟩ : Fin 10) s q := by
    funext a
    apply Fin.ext
    match a with
    | ⟨0, _⟩ => show win1_8.index t (0 : Fin 3) * 1 + 1 * u.val = t.val; rw [e0]; omega
    | ⟨1, _⟩ => show win1_8.index t (1 : Fin 3) * 8 + 1 * s.val = s.val; rw [e1]; omega
    | ⟨2, _⟩ => show win1_8.index t (2 : Fin 3) * 128 + 1 * q.val = q.val; rw [e2]; omega
  rw [hemb, ofFn3_ix3]
  unfold k_part
  refine if_congr Iff.rfl ?_ rfl
  refine (pay5_apply (iblk1 V c 0 t) (iblk1 V c 3 t) (iblk1 V c 1 t) (iblk1 V c 2 t) (iblk1 V c 4 t) (iblk1 V c 5 t) (iblk1 V c 6 t) 0 q).trans ?_
  refine Finset.sum_congr rfl fun k _ => ?_
  exact layer_blk1 V c t k q

/-- An index of statistics array 8 is in point t's block iff each coordinate is in the block's range on its axis. -/
theorem mem_blk1_8 (t : Fin cfg1.N) (i : S10x8x128.Idx) :
    i ∈ ((cfg1.win 8).blk t).view.set ↔ ∀ a : Fin 3, win1_8.index t a * S1x8x128.size a ≤ (i a).val
      ∧ (i a).val < win1_8.index t a * S1x8x128.size a + S1x8x128.size a := by
  show i ∈ ((View.whole (Pipeline.arrRef spec1 8)).slice (win1_8.rect t)).set ↔ _
  rw [View.set_slice_whole, Rect.mem_set_unit]
  exact Iff.rfl

/-- Block t of statistics array 8 is written back by point t. -/
theorem covered1_8 (i : S10x8x128.Idx) :
    ∃ t : Fin cfg1.N, (cfg1.win 8).flush t = true ∧ i ∈ ((cfg1.win 8).blk t).view.set := by
  have hi0 : (i 0).val < 10 := (i 0).isLt
  have hi1 : (i 1).val < 8 := (i 1).isLt
  have hi2 : (i 2).val < 128 := (i 2).isLt
  have hN : cfg1.N = 10 := (by decide : grid1.N = 10)
  let t : Fin cfg1.N := ⟨(i 0).val, by rw [hN]; omega⟩
  have htv : t.val = (i 0).val := rfl
  obtain ⟨-, -, -, -, -, -, -, -, ⟨e0, e1, e2⟩, -⟩ := idx_facts1 t
  refine ⟨t, (by decide +kernel : ∀ t : Fin grid1.N, win1_8.flush t = true) t, ?_⟩
  rw [mem_blk1_8]
  intro a
  match a with
  | ⟨0, _⟩ => show win1_8.index t (0 : Fin 3) * 1 ≤ (i 0).val ∧ (i 0).val < win1_8.index t (0 : Fin 3) * 1 + 1; rw [e0, htv]; omega
  | ⟨1, _⟩ => show win1_8.index t (1 : Fin 3) * 8 ≤ (i 1).val ∧ (i 1).val < win1_8.index t (1 : Fin 3) * 8 + 8; rw [e1]; omega
  | ⟨2, _⟩ => show win1_8.index t (2 : Fin 3) * 128 ≤ (i 2).val ∧ (i 2).val < win1_8.index t (2 : Fin 3) * 128 + 128; rw [e2]; omega

/-- What point t writes back to statistics window 9 is block t of the tiles' partial sums. -/
theorem flushed1_9_eq (c : Dev nD) (t : Fin cfg1.N) :
    (dat1 (F := Ideal) V c).flushed 9 t = ((cfg1.win 9).blk t).view.read (Elt Ideal)
      (ofFn3 (k_part (sq (layerAt (V c main_v29_0) (V c main_v40) (V c main_v41) (V c main_v23) (V c main_v24) (V c main_v17) (V c main_v21))))) := by
  show (cfg1.win 9).cut (grid1.coords t) ((dat1 V c).after 9 t) = _
  rw [after1_9]
  unfold out1_9
  rw [View.canon_unit_zero hz3]
  simp only [View.ld_unit_zero (S := S5000x128) hz2, View.ld_unit_zero (S := S1x128) hz2, View.ld_unit_zero (S := S128x128) hz2]
  obtain ⟨-, -, -, -, -, -, -, -, -, ⟨e0, e1, e2⟩⟩ := idx_facts1 t
  funext j
  obtain ⟨u, s, q, rfl⟩ : ∃ (u : Fin 1) (s : Fin 8) (q : Fin 128), j = ix3 u s q := ⟨j 0, j 1, j 2, eq_ix3 j⟩
  refine (pay3_apply (k1_pay6 (F := Ideal) (iblk1 V c 0 t) (iblk1 V c 3 t) (iblk1 V c 1 t) (iblk1 V c 2 t) (iblk1 V c 4 t)
    (iblk1 V c 5 t) (iblk1 V c 6 t)) u s q).trans ?_
  rw [View.read_apply]
  have hemb : ((cfg1.win 9).blk t).view.emb (ix3 u s q) = ix3 (⟨t.val, lt_ten1 t⟩ : Fin 10) s q := by
    funext a
    apply Fin.ext
    match a with
    | ⟨0, _⟩ => show win1_9.index t (0 : Fin 3) * 1 + 1 * u.val = t.val; rw [e0]; omega
    | ⟨1, _⟩ => show win1_9.index t (1 : Fin 3) * 8 + 1 * s.val = s.val; rw [e1]; omega
    | ⟨2, _⟩ => show win1_9.index t (2 : Fin 3) * 128 + 1 * q.val = q.val; rw [e2]; omega
  rw [hemb, ofFn3_ix3]
  unfold k_part
  refine if_congr Iff.rfl ?_ rfl
  refine (pay6_apply (iblk1 V c 0 t) (iblk1 V c 3 t) (iblk1 V c 1 t) (iblk1 V c 2 t) (iblk1 V c 4 t) (iblk1 V c 5 t) (iblk1 V c 6 t) q).trans ?_
  refine Finset.sum_congr rfl fun k _ => ?_
  rw [layer_blk1 V c t k q]; rfl

/-- An index of statistics array 9 is in point t's block iff each coordinate is in the block's range on its axis. -/
theorem mem_blk1_9 (t : Fin cfg1.N) (i : S10x8x128.Idx) :
    i ∈ ((cfg1.win 9).blk t).view.set ↔ ∀ a : Fin 3, win1_9.index t a * S1x8x128.size a ≤ (i a).val
      ∧ (i a).val < win1_9.index t a * S1x8x128.size a + S1x8x128.size a := by
  show i ∈ ((View.whole (Pipeline.arrRef spec1 9)).slice (win1_9.rect t)).set ↔ _
  rw [View.set_slice_whole, Rect.mem_set_unit]
  exact Iff.rfl

/-- Block t of statistics array 9 is written back by point t. -/
theorem covered1_9 (i : S10x8x128.Idx) :
    ∃ t : Fin cfg1.N, (cfg1.win 9).flush t = true ∧ i ∈ ((cfg1.win 9).blk t).view.set := by
  have hi0 : (i 0).val < 10 := (i 0).isLt
  have hi1 : (i 1).val < 8 := (i 1).isLt
  have hi2 : (i 2).val < 128 := (i 2).isLt
  have hN : cfg1.N = 10 := (by decide : grid1.N = 10)
  let t : Fin cfg1.N := ⟨(i 0).val, by rw [hN]; omega⟩
  have htv : t.val = (i 0).val := rfl
  obtain ⟨-, -, -, -, -, -, -, -, -, ⟨e0, e1, e2⟩⟩ := idx_facts1 t
  refine ⟨t, (by decide +kernel : ∀ t : Fin grid1.N, win1_9.flush t = true) t, ?_⟩
  rw [mem_blk1_9]
  intro a
  match a with
  | ⟨0, _⟩ => show win1_9.index t (0 : Fin 3) * 1 ≤ (i 0).val ∧ (i 0).val < win1_9.index t (0 : Fin 3) * 1 + 1; rw [e0, htv]; omega
  | ⟨1, _⟩ => show win1_9.index t (1 : Fin 3) * 8 ≤ (i 1).val ∧ (i 1).val < win1_9.index t (1 : Fin 3) * 8 + 8; rw [e1]; omega
  | ⟨2, _⟩ => show win1_9.index t (2 : Fin 3) * 128 ≤ (i 2).val ∧ (i 2).val < win1_9.index t (2 : Fin 3) * 128 + 128; rw [e2]; omega

/-- The blocks of partial column sums after region 1. -/
theorem arr1_8 (c : Dev nD) :
    (dat1 (F := Ideal) V c).arrAt 8 cfg1.N
      = ofFn3 (k_part (k_h1 (V c main_v29_0) (V c main_v40) (V c main_v41) (V c main_v23) (V c main_v24) (V c main_v17) (V c main_v21))) := by
  rw [k_h1_eq_layerAt]
  exact (dat1 (F := Ideal) V c).arrAt_eq_of_cover 8 _ (fun t _ => flushed1_8_eq V c t) covered1_8

/-- The blocks of partial column sums of squares after region 1. -/
theorem arr1_9 (c : Dev nD) :
    (dat1 (F := Ideal) V c).arrAt 9 cfg1.N
      = ofFn3 (k_part (sq (k_h1 (V c main_v29_0) (V c main_v40) (V c main_v41) (V c main_v23) (V c main_v24) (V c main_v17) (V c main_v21)))) := by
  rw [k_h1_eq_layerAt]
  exact (dat1 (F := Ideal) V c).arrAt_eq_of_cover 9 _ (fun t _ => flushed1_9_eq V c t) covered1_9

end Cert.Gnn.Region1

end
-- ==== Proof.Region2.lean ====
/-
  The arrays a later layer's region leaves: the layer's output and the two arrays of per-tile partial sums.

  One grid point t of 10 takes rows 5000 t … 5000 t + 4999 of the input h and the whole rows of mean, variance, scale
  and shift, the whole transposed weights and the bias row. It normalises its block entry by entry,
  g · (h − m) · (v + ε)^(-1/2) + β, multiplies by the weights (a sum of 128 products per entry, into a zero
  accumulator), adds the bias row and takes the maximum with 0. That block goes back to the same rows of the output.
  Its column sums, and the column sums of its entries' squares, each go to row 0 of an 8-row block whose rows 1 to 7
  are zero: block t of a [10, 8, 128] array.

  The proof reads the stored values at an index (the layer at any number of rows, `layerAt`, so that a block of 5000
  rows and the array of 50000 rows are instances of one function), identifies each loaded block with the rows of its
  array that the point's block index names, and then collects the ten blocks: row r is written by point r / 5000,
  block t of a statistics array by point t.
-/
import proofs.«412658_j74818330296971_3_alg».proof.Proof.Gen.KernelIdeal.Frame
import proofs.«412658_j74818330296971_3_alg».proof.Proof.Spec
import proofs.«412658_j74818330296971_3_alg».proof.Proof.LibPlainDot
import Idealize.ShloMosaic.Lib.Pipeline.Value
import Idealize.ShloMosaic.PureOps.Ideal.Laws

set_option maxRecDepth 16384

noncomputable section

namespace Cert.Gnn.Region2

open Cert.KernelIdeal Cert.KernelIdeal.Gen Cert.Gnn Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## Layout steps read at an index -/

/-- A row [1, b] broadcast along a rows reads, at (p, q), the row's entry q. -/
theorem row_broadcast_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] cast to the row [1, b] reads, at (0, q), the vector's entry q. -/
theorem row_cast_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A matrix [a, b] cast to the one-block array [1, a, b] reads, at (0, s, q), the matrix's entry (s, q). -/
theorem block_cast_apply {α : Type} {a b : ℕ} (x : (⟨2, ![a, b]⟩ : Shape).Idx → α)
    (h : (⟨2, ![a, b]⟩ : Shape).ShapeCasts ⟨3, ![1, a, b]⟩) (u : Fin 1) (s : Fin a) (q : Fin b) :
    shapeCast ⟨3, ![1, a, b]⟩ x h (ix3 u s q) = x (ix2 s q) :=
  shapeCast_apply x h _ _ (by
    have hu : u.val = 0 := by omega
    rw [Shape.rowMajor_val_three, Shape.rowMajor_val_two]
    show s.val * b + q.val = (u.val * a + s.val) * b + q.val
    rw [hu, Nat.zero_mul, Nat.zero_add])

/-! ## The layer at any number of rows -/

/-- The layer's entry (r, c) for an input of n rows: normalise row r, contract with the weights' column c, add the bias, rectify. -/
def layerAt {n : ℕ} (h : (⟨2, ![n, 128]⟩ : Shape).Idx → EReal) (mean var g beta : Arr2 1 128) (Wt : Arr2 128 128)
    (b : Arr2 1 128) (r : Fin n) (c : Fin 128) : EReal :=
  max ((∑ k : Fin 128, (g (ix2 0 k) * (h (ix2 r k) - mean (ix2 0 k)) * Ideal.rsqrt (var (ix2 0 k) + wEps) + beta (ix2 0 k))
      * Wt (ix2 k c)) + b (ix2 0 c)) 0

theorem k_h1_eq_layerAt (h : Arr2 50000 128) (mean var g beta : Arr2 1 128) (Wt : Arr2 128 128) (b : Arr2 1 128) :
    k_h1 h mean var g beta Wt b = layerAt h mean var g beta Wt b := rfl

/-! ## The body's values at an index -/

/-- The stored block at (p, q): the layer of the loaded blocks. -/
theorem pay4_apply (h : Vec Ideal S5000x128 .f32) (g mean var beta : Vec Ideal S1x128 .f32) (W : Vec Ideal S128x128 .f32)
    (b : Vec Ideal S1x128 .f32) (p : Fin 5000) (q : Fin 128) :
    k2_pay4 (F := Ideal) h g mean var beta W b (ix2 p q) = layerAt h mean var g beta W b p q := by
  unfold k2_pay4 layerAt
  simp only [shapeCast_self]
  rw [maximumf_apply, addf_apply, broadcast_apply, row_broadcast_apply]
  refine congrArg₂ max (congrArg₂ (· + ·) ?_ rfl) Ideal.ofBits_zero_f32
  refine (PlainDot.matmul_zero_apply dot_S5000x128_S128x128_S5000x128_1_0_0_1_n_n rfl rfl rfl rfl rfl rfl rfl rfl none _ _ p q).trans ?_
  refine Finset.sum_congr rfl fun k _ => ?_
  rw [truncf_apply, truncf_apply, addf_apply, mulf_apply, mulf_apply, subf_apply, row_broadcast_apply, row_broadcast_apply,
    row_broadcast_apply, row_broadcast_apply]
  rfl

/-! ## The partial sums -/

/-- The padded block of a row of partial sums at (0, s, q): the row in row 0, zero in rows 1 to 7. -/
theorem pay2_apply (v : FVec Ideal S1x128 .f32) (u : Fin 1) (s : Fin 8) (q : Fin 128) :
    k2_pay2 (F := Ideal) v (ix3 u s q) = if s.val = 0 then v (ix2 0 q) else 0 := by
  unfold k2_pay2
  rw [block_cast_apply]
  split
  · next hs =>
    refine concatenate_pair_apply_left (0 : Fin 2) v (k2_pay1 (F := Ideal)) _ (ix2 s q) rfl (ix2 0 q) fun b => ?_
    match b with
    | ⟨0, _⟩ => show (0 : ℕ) = s.val; omega
    | ⟨1, _⟩ => rfl
  · next hs =>
    refine (concatenate_pair_apply_right (0 : Fin 2) v (k2_pay1 (F := Ideal)) _ (ix2 s q) rfl rfl
      (ix2 (⟨s.val - 1, by omega⟩ : Fin 7) q) (fun b hb => ?_) ?_).trans ?_
    · match b with
      | ⟨0, _⟩ => exact absurd rfl hb
      | ⟨1, _⟩ => rfl
    · show s.val - 1 + 1 = s.val; omega
    · unfold k2_pay1
      rw [broadcast_apply]
      exact Ideal.ofBits_zero_f32

/-- The same for a vector of partial sums. -/
theorem pay3_apply (v : FVec Ideal S128 .f32) (u : Fin 1) (s : Fin 8) (q : Fin 128) :
    k2_pay3 (F := Ideal) v (ix3 u s q) = if s.val = 0 then v (ix1 q) else 0 := by
  unfold k2_pay3
  rw [block_cast_apply]
  split
  · next hs =>
    refine (concatenate_pair_apply_left (0 : Fin 2) (shapeCast S1x128 v shapeCasts_S128_S1x128) (k2_pay1 (F := Ideal)) _ (ix2 s q) rfl (ix2 0 q) fun b => ?_).trans
      (row_cast_apply v _ 0 q)
    match b with
    | ⟨0, _⟩ => show (0 : ℕ) = s.val; omega
    | ⟨1, _⟩ => rfl
  · next hs =>
    refine (concatenate_pair_apply_right (0 : Fin 2) (shapeCast S1x128 v shapeCasts_S128_S1x128) (k2_pay1 (F := Ideal)) _ (ix2 s q) rfl rfl
      (ix2 (⟨s.val - 1, by omega⟩ : Fin 7) q) (fun b hb => ?_) ?_).trans ?_
    · match b with
      | ⟨0, _⟩ => exact absurd rfl hb
      | ⟨1, _⟩ => rfl
    · show s.val - 1 + 1 = s.val; omega
    · unfold k2_pay1
      rw [broadcast_apply]
      exact Ideal.ofBits_zero_f32

/-- The column index (q) of the reduced vector with row k put back is (k, q). -/
theorem lift_col (k : Fin 5000) (q : Fin 128) : reduces_S5000x128_S128.lift (ix1 q) k = ix2 k q := by
  funext a
  apply Fin.ext
  match a with
  | ⟨0, _⟩ => rfl
  | ⟨1, _⟩ => rfl

/-- A column sum of a block. -/
theorem colsum_apply (x : FVec Ideal S5000x128 .f32) (hacc : (0x00000000#32 : BitVec 32) = 0x00000000#32) (q : Fin 128) :
    multiReduction (F := Ideal) .add [0] S128 x 0x00000000#32 reduces_S5000x128_S128 (.inl rfl) hacc (ix1 q)
      = ∑ k : Fin 5000, x (ix2 k q) := by
  refine (Ideal.multiReduction_add_single x 0x00000000#32 reduces_S5000x128_S128 (.inl rfl) hacc (ix1 q)).trans ?_
  exact Finset.sum_congr rfl fun k _ => congrArg x (lift_col k q)

/-- The row of the block's column sums at (0, q). -/
theorem pay5_apply (h : Vec Ideal S5000x128 .f32) (g mean var beta : Vec Ideal S1x128 .f32) (W : Vec Ideal S128x128 .f32)
    (b : Vec Ideal S1x128 .f32) (u : Fin 1) (q : Fin 128) :
    k2_pay5 (F := Ideal) h g mean var beta W b (ix2 u q) = ∑ k : Fin 5000, layerAt h mean var g beta W b k q := by
  unfold k2_pay5
  rw [row_cast_apply]
  refine (colsum_apply _ rfl q).trans ?_
  exact Finset.sum_congr rfl fun k _ => pay4_apply h g mean var beta W b k q

/-- The vector of the block's column sums of squares at q. -/
theorem pay6_apply (h : Vec Ideal S5000x128 .f32) (g mean var beta : Vec Ideal S1x128 .f32) (W : Vec Ideal S128x128 .f32)
    (b : Vec Ideal S1x128 .f32) (q : Fin 128) :
    k2_pay6 (F := Ideal) h g mean var beta W b (ix1 q)
      = ∑ k : Fin 5000, layerAt h mean var g beta W b k q * layerAt h mean var g beta W b k q := by
  unfold k2_pay6
  refine (colsum_apply _ rfl q).trans ?_
  refine Finset.sum_congr rfl fun k _ => ?_
  rw [mulf_apply, pay4_apply]

/-! ## The blocks the body loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block index maps over the grid: the row windows and the weights stay at block 0, the input, the output and the
    two statistics windows are at block t. -/
theorem idx_facts1 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 3) = t.val ∧ win2_8.index t (1 : Fin 3) = 0 ∧ win2_8.index t (2 : Fin 3) = 0)
    ∧ (win2_9.index t (0 : Fin 3) = t.val ∧ win2_9.index t (1 : Fin 3) = 0 ∧ win2_9.index t (2 : Fin 3) = 0) :=
  (by decide +kernel : ∀ t : Fin grid2.N, _)

theorem lt_ten1 (t : Fin cfg2.N) : t.val < 10 := lt_of_lt_of_eq t.isLt (by decide : grid2.N = 10)

/-- The input's block at point t is rows 5000 t … 5000 t + 4999 of the array. -/
theorem iblk2_0_apply (c : Dev nD) (t : Fin cfg2.N) (p : Fin 5000) (k : Fin 128) :
    (iblk2 V c 0 t : Vec Ideal S5000x128 .f32) (ix2 p k)
      = (V c main_v42_0 : S50000x128.Idx → EReal) (ix2 (tileRow ⟨t.val, lt_ten1 t⟩ p) k) := by
  obtain ⟨⟨e0, e1⟩, -⟩ := idx_facts1 t
  unfold iblk2
  rw [View.read_apply]
  show V c main_v42_0 _ = V c main_v42_0 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The row windows' and the weights' blocks are their whole arrays at every point. -/
theorem iblk2_1_eq (c : Dev nD) (t : Fin cfg2.N) : (iblk2 V c 1 t : Vec Ideal S1x128 .f32) = V c main_v53 := by
  obtain ⟨-, ⟨e0, e1⟩, -⟩ := idx_facts1 t
  unfold iblk2
  funext x
  rw [View.read_apply]
  show V c main_v53 _ = V c main_v53 x
  congr 1
  funext a
  apply Fin.ext
  match a with
  | ⟨0, _⟩ => show win2_1.index t (0 : Fin 2) * 1 + 1 * (x 0).val = (x 0).val; rw [e0]; omega
  | ⟨1, _⟩ => show win2_1.index t (1 : Fin 2) * 128 + 1 * (x 1).val = (x 1).val; rw [e1]; omega

theorem iblk2_2_eq (c : Dev nD) (t : Fin cfg2.N) : (iblk2 V c 2 t : Vec Ideal S1x128 .f32) = V c main_v54 := by
  obtain ⟨-, -, ⟨e0, e1⟩, -⟩ := idx_facts1 t
  unfold iblk2
  funext x
  rw [View.read_apply]
  show V c main_v54 _ = V c main_v54 x
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

theorem iblk2_3_eq (c : Dev nD) (t : Fin cfg2.N) : (iblk2 V c 3 t : Vec Ideal S1x128 .f32) = V c main_v25 := by
  obtain ⟨-, -, -, ⟨e0, e1⟩, -⟩ := idx_facts1 t
  unfold iblk2
  funext x
  rw [View.read_apply]
  show V c main_v25 _ = V c main_v25 x
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

theorem iblk2_4_eq (c : Dev nD) (t : Fin cfg2.N) : (iblk2 V c 4 t : Vec Ideal S1x128 .f32) = V c main_v26 := by
  obtain ⟨-, -, -, -, ⟨e0, e1⟩, -⟩ := idx_facts1 t
  unfold iblk2
  funext x
  rw [View.read_apply]
  show V c main_v26 _ = V c main_v26 x
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

theorem iblk2_5_eq (c : Dev nD) (t : Fin cfg2.N) : (iblk2 V c 5 t : Vec Ideal S128x128 .f32) = V c main_v18 := by
  obtain ⟨-, -, -, -, -, ⟨e0, e1⟩, -⟩ := idx_facts1 t
  unfold iblk2
  funext x
  rw [View.read_apply]
  show V c main_v18 _ = V c main_v18 x
  congr 1
  funext a
  apply Fin.ext
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

theorem iblk2_6_eq (c : Dev nD) (t : Fin cfg2.N) : (iblk2 V c 6 t : Vec Ideal S1x128 .f32) = V c main_v22 := by
  obtain ⟨-, -, -, -, -, -, ⟨e0, e1⟩, -⟩ := idx_facts1 t
  unfold iblk2
  funext x
  rw [View.read_apply]
  show V c main_v22 _ = V c main_v22 x
  congr 1
  funext a
  apply Fin.ext
  match a with
  | ⟨0, _⟩ => show win2_6.index t (0 : Fin 2) * 1 + 1 * (x 0).val = (x 0).val; rw [e0]; omega
  | ⟨1, _⟩ => show win2_6.index t (1 : Fin 2) * 128 + 1 * (x 1).val = (x 1).val; rw [e1]; omega

/-- The layer of point t's blocks at (p, q) is the layer of the arrays at row 5000 t + p. -/
theorem layer_blk1 (c : Dev nD) (t : Fin cfg2.N) (p : Fin 5000) (q : Fin 128) :
    layerAt (iblk2 V c 0 t : Vec Ideal S5000x128 .f32) (iblk2 V c 1 t : Vec Ideal S1x128 .f32) (iblk2 V c 2 t : Vec Ideal S1x128 .f32)
        (iblk2 V c 3 t : Vec Ideal S1x128 .f32) (iblk2 V c 4 t : Vec Ideal S1x128 .f32) (iblk2 V c 5 t : Vec Ideal S128x128 .f32)
        (iblk2 V c 6 t : Vec Ideal S1x128 .f32) p q
      = layerAt (V c main_v42_0) (V c main_v53) (V c main_v54) (V c main_v25) (V c main_v26) (V c main_v18) (V c main_v22)
          (tileRow ⟨t.val, lt_ten1 t⟩ p) q := by
  rw [iblk2_1_eq, iblk2_2_eq, iblk2_3_eq, iblk2_4_eq, iblk2_5_eq, iblk2_6_eq]
  unfold layerAt
  simp only [iblk2_0_apply V c t]

/-! ## The layer's output array -/

/-- What point t writes back to the output is block t of the layer of the arrays. -/
theorem flushed1_7_eq (c : Dev nD) (t : Fin cfg2.N) :
    (dat2 (F := Ideal) V c).flushed 7 t = ((cfg2.win 7).blk t).view.read (Elt Ideal)
      (ofFn2 (layerAt (V c main_v42_0) (V c main_v53) (V c main_v54) (V c main_v25) (V c main_v26) (V c main_v18) (V c main_v22))) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S1x128) hz2, View.ld_unit_zero (S := S128x128) hz2]
  obtain ⟨-, -, -, -, -, -, -, ⟨e0, e1⟩, -⟩ := idx_facts1 t
  funext j
  obtain ⟨p, q, rfl⟩ : ∃ (p : Fin 5000) (q : Fin 128), j = ix2 p q := ⟨j 0, j 1, eq_ix2 j⟩
  refine (pay4_apply (iblk2 V c 0 t) (iblk2 V c 3 t) (iblk2 V c 1 t) (iblk2 V c 2 t) (iblk2 V c 4 t) (iblk2 V c 5 t) (iblk2 V c 6 t) p q).trans ?_
  refine (layer_blk1 V c t p q).trans ?_
  rw [View.read_apply]
  have hemb : ((cfg2.win 7).blk t).view.emb (ix2 p q) = ix2 (tileRow ⟨t.val, lt_ten1 t⟩ p) q := by
    funext a
    apply Fin.ext
    match a with
    | ⟨0, _⟩ => show win2_7.index t (0 : Fin 2) * 5000 + 1 * p.val = 5000 * t.val + p.val; rw [e0]; omega
    | ⟨1, _⟩ => show win2_7.index t (1 : Fin 2) * 128 + 1 * q.val = q.val; rw [e1]; omega
  rw [hemb]
  rfl

/-- An index of the output array is in point t's block iff each coordinate is in the block's range on its axis. -/
theorem mem_blk1_7 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole (Pipeline.arrRef spec2 7)).slice (win2_7.rect t)).set ↔ _
  rw [View.set_slice_whole, Rect.mem_set_unit]
  exact Iff.rfl

/-- Row r is written back by point r / 5000. -/
theorem covered1_7 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := (by decide : grid2.N = 10)
  let t : Fin cfg2.N := ⟨(i 0).val / 5000, by rw [hN]; omega⟩
  have htv : t.val = (i 0).val / 5000 := rfl
  obtain ⟨-, -, -, -, -, -, -, ⟨e0, e1⟩, -⟩ := idx_facts1 t
  refine ⟨t, (by decide +kernel : ∀ t : Fin grid2.N, win2_7.flush t = true) t, ?_⟩
  rw [mem_blk1_7]
  intro a
  match a with
  | ⟨0, _⟩ => show win2_7.index t (0 : Fin 2) * 5000 ≤ (i 0).val ∧ (i 0).val < win2_7.index t (0 : Fin 2) * 5000 + 5000; rw [e0, htv]; omega
  | ⟨1, _⟩ => show win2_7.index t (1 : Fin 2) * 128 ≤ (i 1).val ∧ (i 1).val < win2_7.index t (1 : Fin 2) * 128 + 128; rw [e1]; omega

/-- The layer's output array after region 2. -/
theorem arr2_7 (c : Dev nD) :
    (dat2 (F := Ideal) V c).arrAt 7 cfg2.N
      = ofFn2 (k_h1 (V c main_v42_0) (V c main_v53) (V c main_v54) (V c main_v25) (V c main_v26) (V c main_v18) (V c main_v22)) := by
  rw [k_h1_eq_layerAt]
  exact (dat2 (F := Ideal) V c).arrAt_eq_of_cover 7 _ (fun t _ => flushed1_7_eq V c t) covered1_7

/-! ## The arrays of partial sums -/

/-- What point t writes back to statistics window 8 is block t of the tiles' partial sums. -/
theorem flushed1_8_eq (c : Dev nD) (t : Fin cfg2.N) :
    (dat2 (F := Ideal) V c).flushed 8 t = ((cfg2.win 8).blk t).view.read (Elt Ideal)
      (ofFn3 (k_part (layerAt (V c main_v42_0) (V c main_v53) (V c main_v54) (V c main_v25) (V c main_v26) (V c main_v18) (V c main_v22)))) := by
  show (cfg2.win 8).cut (grid2.coords t) ((dat2 V c).after 8 t) = _
  rw [after2_8]
  unfold out2_8
  rw [View.canon_unit_zero hz3]
  simp only [View.ld_unit_zero (S := S5000x128) hz2, View.ld_unit_zero (S := S1x128) hz2, View.ld_unit_zero (S := S128x128) hz2]
  obtain ⟨-, -, -, -, -, -, -, -, ⟨e0, e1, e2⟩, -⟩ := idx_facts1 t
  funext j
  obtain ⟨u, s, q, rfl⟩ : ∃ (u : Fin 1) (s : Fin 8) (q : Fin 128), j = ix3 u s q := ⟨j 0, j 1, j 2, eq_ix3 j⟩
  refine (pay2_apply (k2_pay5 (F := Ideal) (iblk2 V c 0 t) (iblk2 V c 3 t) (iblk2 V c 1 t) (iblk2 V c 2 t) (iblk2 V c 4 t)
    (iblk2 V c 5 t) (iblk2 V c 6 t)) u s q).trans ?_
  rw [View.read_apply]
  have hemb : ((cfg2.win 8).blk t).view.emb (ix3 u s q) = ix3 (⟨t.val, lt_ten1 t⟩ : Fin 10) s q := by
    funext a
    apply Fin.ext
    match a with
    | ⟨0, _⟩ => show win2_8.index t (0 : Fin 3) * 1 + 1 * u.val = t.val; rw [e0]; omega
    | ⟨1, _⟩ => show win2_8.index t (1 : Fin 3) * 8 + 1 * s.val = s.val; rw [e1]; omega
    | ⟨2, _⟩ => show win2_8.index t (2 : Fin 3) * 128 + 1 * q.val = q.val; rw [e2]; omega
  rw [hemb, ofFn3_ix3]
  unfold k_part
  refine if_congr Iff.rfl ?_ rfl
  refine (pay5_apply (iblk2 V c 0 t) (iblk2 V c 3 t) (iblk2 V c 1 t) (iblk2 V c 2 t) (iblk2 V c 4 t) (iblk2 V c 5 t) (iblk2 V c 6 t) 0 q).trans ?_
  refine Finset.sum_congr rfl fun k _ => ?_
  exact layer_blk1 V c t k q

/-- An index of statistics array 8 is in point t's block iff each coordinate is in the block's range on its axis. -/
theorem mem_blk1_8 (t : Fin cfg2.N) (i : S10x8x128.Idx) :
    i ∈ ((cfg2.win 8).blk t).view.set ↔ ∀ a : Fin 3, win2_8.index t a * S1x8x128.size a ≤ (i a).val
      ∧ (i a).val < win2_8.index t a * S1x8x128.size a + S1x8x128.size a := by
  show i ∈ ((View.whole (Pipeline.arrRef spec2 8)).slice (win2_8.rect t)).set ↔ _
  rw [View.set_slice_whole, Rect.mem_set_unit]
  exact Iff.rfl

/-- Block t of statistics array 8 is written back by point t. -/
theorem covered1_8 (i : S10x8x128.Idx) :
    ∃ t : Fin cfg2.N, (cfg2.win 8).flush t = true ∧ i ∈ ((cfg2.win 8).blk t).view.set := by
  have hi0 : (i 0).val < 10 := (i 0).isLt
  have hi1 : (i 1).val < 8 := (i 1).isLt
  have hi2 : (i 2).val < 128 := (i 2).isLt
  have hN : cfg2.N = 10 := (by decide : grid2.N = 10)
  let t : Fin cfg2.N := ⟨(i 0).val, by rw [hN]; omega⟩
  have htv : t.val = (i 0).val := rfl
  obtain ⟨-, -, -, -, -, -, -, -, ⟨e0, e1, e2⟩, -⟩ := idx_facts1 t
  refine ⟨t, (by decide +kernel : ∀ t : Fin grid2.N, win2_8.flush t = true) t, ?_⟩
  rw [mem_blk1_8]
  intro a
  match a with
  | ⟨0, _⟩ => show win2_8.index t (0 : Fin 3) * 1 ≤ (i 0).val ∧ (i 0).val < win2_8.index t (0 : Fin 3) * 1 + 1; rw [e0, htv]; omega
  | ⟨1, _⟩ => show win2_8.index t (1 : Fin 3) * 8 ≤ (i 1).val ∧ (i 1).val < win2_8.index t (1 : Fin 3) * 8 + 8; rw [e1]; omega
  | ⟨2, _⟩ => show win2_8.index t (2 : Fin 3) * 128 ≤ (i 2).val ∧ (i 2).val < win2_8.index t (2 : Fin 3) * 128 + 128; rw [e2]; omega

/-- What point t writes back to statistics window 9 is block t of the tiles' partial sums. -/
theorem flushed1_9_eq (c : Dev nD) (t : Fin cfg2.N) :
    (dat2 (F := Ideal) V c).flushed 9 t = ((cfg2.win 9).blk t).view.read (Elt Ideal)
      (ofFn3 (k_part (sq (layerAt (V c main_v42_0) (V c main_v53) (V c main_v54) (V c main_v25) (V c main_v26) (V c main_v18) (V c main_v22))))) := by
  show (cfg2.win 9).cut (grid2.coords t) ((dat2 V c).after 9 t) = _
  rw [after2_9]
  unfold out2_9
  rw [View.canon_unit_zero hz3]
  simp only [View.ld_unit_zero (S := S5000x128) hz2, View.ld_unit_zero (S := S1x128) hz2, View.ld_unit_zero (S := S128x128) hz2]
  obtain ⟨-, -, -, -, -, -, -, -, -, ⟨e0, e1, e2⟩⟩ := idx_facts1 t
  funext j
  obtain ⟨u, s, q, rfl⟩ : ∃ (u : Fin 1) (s : Fin 8) (q : Fin 128), j = ix3 u s q := ⟨j 0, j 1, j 2, eq_ix3 j⟩
  refine (pay3_apply (k2_pay6 (F := Ideal) (iblk2 V c 0 t) (iblk2 V c 3 t) (iblk2 V c 1 t) (iblk2 V c 2 t) (iblk2 V c 4 t)
    (iblk2 V c 5 t) (iblk2 V c 6 t)) u s q).trans ?_
  rw [View.read_apply]
  have hemb : ((cfg2.win 9).blk t).view.emb (ix3 u s q) = ix3 (⟨t.val, lt_ten1 t⟩ : Fin 10) s q := by
    funext a
    apply Fin.ext
    match a with
    | ⟨0, _⟩ => show win2_9.index t (0 : Fin 3) * 1 + 1 * u.val = t.val; rw [e0]; omega
    | ⟨1, _⟩ => show win2_9.index t (1 : Fin 3) * 8 + 1 * s.val = s.val; rw [e1]; omega
    | ⟨2, _⟩ => show win2_9.index t (2 : Fin 3) * 128 + 1 * q.val = q.val; rw [e2]; omega
  rw [hemb, ofFn3_ix3]
  unfold k_part
  refine if_congr Iff.rfl ?_ rfl
  refine (pay6_apply (iblk2 V c 0 t) (iblk2 V c 3 t) (iblk2 V c 1 t) (iblk2 V c 2 t) (iblk2 V c 4 t) (iblk2 V c 5 t) (iblk2 V c 6 t) q).trans ?_
  refine Finset.sum_congr rfl fun k _ => ?_
  rw [layer_blk1 V c t k q]; rfl

/-- An index of statistics array 9 is in point t's block iff each coordinate is in the block's range on its axis. -/
theorem mem_blk1_9 (t : Fin cfg2.N) (i : S10x8x128.Idx) :
    i ∈ ((cfg2.win 9).blk t).view.set ↔ ∀ a : Fin 3, win2_9.index t a * S1x8x128.size a ≤ (i a).val
      ∧ (i a).val < win2_9.index t a * S1x8x128.size a + S1x8x128.size a := by
  show i ∈ ((View.whole (Pipeline.arrRef spec2 9)).slice (win2_9.rect t)).set ↔ _
  rw [View.set_slice_whole, Rect.mem_set_unit]
  exact Iff.rfl

/-- Block t of statistics array 9 is written back by point t. -/
theorem covered1_9 (i : S10x8x128.Idx) :
    ∃ t : Fin cfg2.N, (cfg2.win 9).flush t = true ∧ i ∈ ((cfg2.win 9).blk t).view.set := by
  have hi0 : (i 0).val < 10 := (i 0).isLt
  have hi1 : (i 1).val < 8 := (i 1).isLt
  have hi2 : (i 2).val < 128 := (i 2).isLt
  have hN : cfg2.N = 10 := (by decide : grid2.N = 10)
  let t : Fin cfg2.N := ⟨(i 0).val, by rw [hN]; omega⟩
  have htv : t.val = (i 0).val := rfl
  obtain ⟨-, -, -, -, -, -, -, -, -, ⟨e0, e1, e2⟩⟩ := idx_facts1 t
  refine ⟨t, (by decide +kernel : ∀ t : Fin grid2.N, win2_9.flush t = true) t, ?_⟩
  rw [mem_blk1_9]
  intro a
  match a with
  | ⟨0, _⟩ => show win2_9.index t (0 : Fin 3) * 1 ≤ (i 0).val ∧ (i 0).val < win2_9.index t (0 : Fin 3) * 1 + 1; rw [e0, htv]; omega
  | ⟨1, _⟩ => show win2_9.index t (1 : Fin 3) * 8 ≤ (i 1).val ∧ (i 1).val < win2_9.index t (1 : Fin 3) * 8 + 8; rw [e1]; omega
  | ⟨2, _⟩ => show win2_9.index t (2 : Fin 3) * 128 ≤ (i 2).val ∧ (i 2).val < win2_9.index t (2 : Fin 3) * 128 + 128; rw [e2]; omega

/-- The blocks of partial column sums after region 2. -/
theorem arr2_8 (c : Dev nD) :
    (dat2 (F := Ideal) V c).arrAt 8 cfg2.N
      = ofFn3 (k_part (k_h1 (V c main_v42_0) (V c main_v53) (V c main_v54) (V c main_v25) (V c main_v26) (V c main_v18) (V c main_v22))) := by
  rw [k_h1_eq_layerAt]
  exact (dat2 (F := Ideal) V c).arrAt_eq_of_cover 8 _ (fun t _ => flushed1_8_eq V c t) covered1_8

/-- The blocks of partial column sums of squares after region 2. -/
theorem arr2_9 (c : Dev nD) :
    (dat2 (F := Ideal) V c).arrAt 9 cfg2.N
      = ofFn3 (k_part (sq (k_h1 (V c main_v42_0) (V c main_v53) (V c main_v54) (V c main_v25) (V c main_v26) (V c main_v18) (V c main_v22)))) := by
  rw [k_h1_eq_layerAt]
  exact (dat2 (F := Ideal) V c).arrAt_eq_of_cover 9 _ (fun t _ => flushed1_9_eq V c t) covered1_9

end Cert.Gnn.Region2

end
-- ==== Proof.Region3.lean ====
import proofs.«412658_j74818330296971_3_alg».proof.Proof.Gen.KernelIdeal.Frame
import proofs.«412658_j74818330296971_3_alg».proof.Proof.Spec
import Idealize.ShloMosaic.Lib.Pipeline.Value
import Idealize.ShloMosaic.Lib.ValueIdx

set_option maxRecDepth 16384

noncomputable section

namespace Cert.Gnn.Region3

open Cert.KernelIdeal Cert.KernelIdeal.Gen Cert.Gnn Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- A one-row array broadcast along 5000 rows reads its row's entry. -/
theorem bcast_row (x : FVec Ideal S1x128 .f32) (p : Fin 5000) (q : Fin 128) :
    broadcastTo S5000x128 x broadcasts_S1x128_S5000x128 (ix2 p q) = x (ix2 0 q) := by
  refine broadcastTo_apply x _ (ix2 p q) (ix2 0 q) fun a => ?_
  match a with
  | ⟨0, _⟩ => rfl
  | ⟨1, _⟩ => rfl

/-- The body's arithmetic at an entry: scale times centred value times the reciprocal root, plus the shift. -/
theorem pay_apply (x0 : Vec Ideal S5000x128 .f32) (xg xm xv xb : Vec Ideal S1x128 .f32) (p : Fin 5000) (q : Fin 128) :
    k3_pay1 (F := Ideal) x0 xg xm xv xb (ix2 p q)
      = xg (ix2 0 q) * (x0 (ix2 p q) - xm (ix2 0 q)) * Ideal.rsqrt (xv (ix2 0 q) + wEps) + xb (ix2 0 q) := by
  unfold k3_pay1
  simp only [shapeCast_self]
  simp only [addf_apply, mulf_apply, subf_apply, bcast_row]
  rfl

/-- Where each window's block sits at point t: the value rows move with the point, the four parameter rows stay. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry (p, q) of the value window's block at point t is entry (5000·t + p, q) of the array. -/
theorem rows_block (c : Dev nD) (t : Fin cfg3.N) (p : Fin 5000) (q : Fin 128) (r : Fin 50000)
    (hr : r.val = 5000 * t.val + p.val) :
    (iblk3 V c 0 t : Vec Ideal S5000x128 .f32) (ix2 p q) = (V c main_v55_0 : Arr2 50000 128) (ix2 r q) := by
  obtain ⟨e0, e1, -⟩ := block_index t
  show V c main_v55_0 (((cfg3.win 0).blk t).view.emb (ix2 p q)) = V c main_v55_0 (ix2 r q)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * q.val = q.val; omega

/-- A parameter window's block at any point is the parameter's one row. -/
theorem mean_block (c : Dev nD) (t : Fin cfg3.N) (q : Fin 128) :
    (iblk3 V c 1 t : Vec Ideal S1x128 .f32) (ix2 0 q) = (V c main_v66 : Arr2 1 128) (ix2 0 q) := by
  obtain ⟨-, -, e0, e1, -⟩ := block_index t
  show V c main_v66 (((cfg3.win 1).blk t).view.emb (ix2 0 q)) = V c main_v66 (ix2 0 q)
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega
theorem var_block (c : Dev nD) (t : Fin cfg3.N) (q : Fin 128) :
    (iblk3 V c 2 t : Vec Ideal S1x128 .f32) (ix2 0 q) = (V c main_v67 : Arr2 1 128) (ix2 0 q) := by
  obtain ⟨-, -, -, -, e0, e1, -⟩ := block_index t
  show V c main_v67 (((cfg3.win 2).blk t).view.emb (ix2 0 q)) = V c main_v67 (ix2 0 q)
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega
theorem scale_block (c : Dev nD) (t : Fin cfg3.N) (q : Fin 128) :
    (iblk3 V c 3 t : Vec Ideal S1x128 .f32) (ix2 0 q) = (V c main_v27 : Arr2 1 128) (ix2 0 q) := by
  obtain ⟨-, -, -, -, -, -, e0, e1, -⟩ := block_index t
  show V c main_v27 (((cfg3.win 3).blk t).view.emb (ix2 0 q)) = V c main_v27 (ix2 0 q)
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega
theorem shift_block (c : Dev nD) (t : Fin cfg3.N) (q : Fin 128) :
    (iblk3 V c 4 t : Vec Ideal S1x128 .f32) (ix2 0 q) = (V c main_v28 : Arr2 1 128) (ix2 0 q) := by
  obtain ⟨-, -, -, -, -, -, -, -, e0, e1, -⟩ := block_index t
  show V c main_v28 (((cfg3.win 4).blk t).view.emb (ix2 0 q)) = V c main_v28 (ix2 0 q)
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- What point t writes back is block t of the normalised array. -/
theorem flushed_eq (c : Dev nD) (t : Fin cfg3.N) :
    (dat3 (F := Ideal) V c).flushed 5 t = ((cfg3.win 5).blk t).view.read (Elt Ideal)
      (ofFn2 (k_norm (V c main_v55_0) (V c main_v66) (V c main_v67) (V c main_v27) (V c main_v28))) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S1x128) zero_offsets]
  funext j
  obtain ⟨p, q, rfl⟩ : ∃ p q, j = ix2 p q := ⟨j 0, j 1, eq_ix2 j⟩
  refine (pay_apply (iblk3 V c 0 t) (iblk3 V c 3 t) (iblk3 V c 1 t) (iblk3 V c 2 t) (iblk3 V c 4 t) p q).trans ?_
  have ht : t.val < 10 := lt_of_lt_of_eq t.isLt N_3
  rw [rows_block V c t p q ⟨5000 * t.val + p.val, by omega⟩ rfl, mean_block V c t q, var_block V c t q,
    scale_block V c t q, shift_block V c t q]
  obtain ⟨-, -, -, -, -, -, -, -, -, -, e0, e1⟩ := block_index t
  show _ = ofFn2 (k_norm (V c main_v55_0) (V c main_v66) (V c main_v67) (V c main_v27) (V c main_v28))
      (((cfg3.win 5).blk t).view.emb (ix2 p q))
  have he : ((cfg3.win 5).blk t).view.emb (ix2 p q) = (ix2 (⟨5000 * t.val + p.val, by omega⟩ : Fin 50000) q : S50000x128.Idx) := by
    refine funext fun a => Fin.ext ?_
    match a with
    | ⟨0, _⟩ => show win3_5.index t (0 : Fin 2) * 5000 + 1 * p.val = 5000 * t.val + p.val; omega
    | ⟨1, _⟩ => show win3_5.index t (1 : Fin 2) * 128 + 1 * q.val = q.val; omega
  rw [he]
  rfl

/-- An index of the array is in point t's block iff each coordinate is in the block's range on its axis. -/
theorem mem_block (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v68).slice (win3_5.rect t)).set ↔ _
  rw [View.set_slice_whole, Rect.mem_set_unit]
  exact Iff.rfl

/-- Row r lies in the block of point r / 5000. -/
theorem covered (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨-, -, -, -, -, -, -, -, -, -, e0, e1⟩ := block_index t
  have e0' : win3_5.index t (0 : Fin 2) = (i 0).val / 5000 := e0
  refine ⟨t, flush3_5 t, ?_⟩
  rw [mem_block]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The normalised output array after region 3. -/
theorem arr3_5 (c : Dev nD) :
    (dat3 (F := Ideal) V c).arrAt 5 cfg3.N
      = ofFn2 (k_norm (V c main_v55_0) (V c main_v66) (V c main_v67) (V c main_v27) (V c main_v28)) :=
  (dat3 (F := Ideal) V c).arrAt_eq_of_cover 5
    (ofFn2 (k_norm (V c main_v55_0) (V c main_v66) (V c main_v67) (V c main_v27) (V c main_v28)))
    (fun t _ => flushed_eq V c t) covered

end Cert.Gnn.Region3

end
-- ==== Proof.Host0.lean ====
/-
  What the kernel program's first stretch of host operations leaves in the buffers the later regions read.

  The stretch prepares, from the arguments: the per-node sums of edge features and the per-node edge counts
  (two scatter-additions along the first row of the edge list), the count and the graph numbers as columns,
  the three blocks of 128 columns of the first layer's weights, transposed (the third one multiplied by the
  graph table u), the transposes of the two later layers' weights, and the nine vectors of biases, scales
  and shifts as one-row matrices. Each is read here at an index.
-/
import proofs.«412658_j74818330296971_3_alg».proof.Proof.Gen.KernelIdeal.Frame
import proofs.«412658_j74818330296971_3_alg».proof.Proof.Spec
import proofs.«412658_j74818330296971_3_alg».proof.Proof.AlgLayer0
import proofs.«412658_j74818330296971_3_alg».proof.Proof.LibColumn
import proofs.«412658_j74818330296971_3_alg».proof.Proof.LibPlainDot
import proofs.«412658_j74818330296971_3_alg».proof.Proof.RefRead
import Idealize.ShloMosaic.Lib.StableHlo.Run
import Idealize.ShloMosaic.Lib.Pipeline.Value
import Idealize.ShloMosaic.PureOps.Ideal.Laws

set_option maxRecDepth 16384

noncomputable section

namespace Cert.Gnn.Host0

open Cert.KernelIdeal Cert.KernelIdeal.Gen Cert.Gnn Idealize.ShloMosaic Idealize.ShloMosaic.TcCoe Idealize.SL.Sem
open Idealize.ShloMosaic.ValueIdx

/-! ## Layout operations read at an index -/

/-- A `[b]` array cast to the one-row matrix `[1, b]` reads, at `(u, c)`, the operand at `c`. -/
theorem shapeCast_b_1b_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu, Nat.zero_mul, Nat.zero_add])

/-- A vector of 128 entries reshaped to one row is the row of the vector. -/
theorem reshape_row (v : Arr1 128) (h : (⟨1, ![128]⟩ : Shape).ShapeCasts ⟨2, ![1, 128]⟩) :
    shapeCast ⟨2, ![1, 128]⟩ v h = rowOf v := by
  funext j
  obtain ⟨p, q, rfl⟩ : ∃ p q, j = ix2 p q := ⟨j 0, j 1, eq_ix2 j⟩
  exact shapeCast_b_1b_apply v h p q

/-- A vector reshaped to a column reads, at `(r, u)`, the vector at `r`. -/
theorem reshape_col {α : Type} {a : ℕ} (v : (⟨1, ![a]⟩ : Shape).Idx → α) (h : (⟨1, ![a]⟩ : Shape).ShapeCasts ⟨2, ![a, 1]⟩) :
    shapeCast ⟨2, ![a, 1]⟩ v h = ofFn2 fun r _ => v (ix1 r) := by
  funext j
  obtain ⟨p, q, rfl⟩ : ∃ p q, j = ix2 p q := ⟨j 0, j 1, eq_ix2 j⟩
  exact Idealize.ShloMosaic.Column.shapeCast_a_a1_apply v h p q

/-- The transpose of a matrix reads, at `(p, q)`, the matrix at `(q, p)`. -/
theorem transpose_2d_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

/-- A block of 128 columns of a `[128, 384]` matrix, from column `o` on, reads at `(p, q)` the matrix at `(p, o + q)`. -/
theorem slice_cols_apply {α : Type} (o : ℕ) (x : (⟨2, ![128, 384]⟩ : Shape).Idx → α)
    (h : (⟨2, ![128, 384]⟩ : Shape).Slices ![0, o] ⟨2, ![128, 128]⟩) (p q : Fin 128) (m : Fin 384) (hm : m.val = o + q.val) :
    extractStridedSlice ⟨2, ![128, 128]⟩ ![0, o] x h (ix2 p q) = x (ix2 p m) :=
  extractStridedSlice_apply ![0, o] x h (ix2 p q) (ix2 p m) (fun c => match c with
    | ⟨0, _⟩ => by show p.val = 0 + p.val; omega
    | ⟨1, _⟩ => hm)

/-- The transposed block: at `(k, c)` the matrix at `(c, o + k)`. -/
theorem transpose_slice_apply (o : ℕ) (x : Arr2 128 384)
    (h : (⟨2, ![128, 384]⟩ : Shape).Slices ![0, o] ⟨2, ![128, 128]⟩)
    (h' : (⟨2, ![128, 128]⟩ : Shape).Transposes [1, 0] ⟨2, ![128, 128]⟩) (k c : Fin 128) (m : Fin 384) (hm : m.val = o + k.val) :
    transpose ⟨2, ![128, 128]⟩ [1, 0] (extractStridedSlice ⟨2, ![128, 128]⟩ ![0, o] x h) h' (ix2 k c) = x (ix2 c m) :=
  (transpose_2d_apply _ h' k c).trans (slice_cols_apply o x h c k m hm)

/-- The host's plain product of two matrices at entry `(p, q)`: the sum over the contracted position. -/
theorem hostDot_apply {M K N : ℕ} (d : DotDims ⟨2, ![M, K]⟩ ⟨2, ![K, N]⟩ ⟨2, ![M, N]⟩) {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact Idealize.ShloMosaic.PlainDot.lhs_row d hln hlb _ _
    | ⟨1, _⟩ => exact (Idealize.ShloMosaic.PlainDot.lhs_col d hlc _ _).trans hk)
  have er : d.rhsIdx (ix2 p q) ((contrEquiv1 d K hr hs).symm k) = ix2 k q := funext fun a => Fin.ext (by
    match a with
    | ⟨0, _⟩ => exact (Idealize.ShloMosaic.PlainDot.rhs_row d hrc _ _).trans hk
    | ⟨1, _⟩ => exact Idealize.ShloMosaic.PlainDot.rhs_col d hln hrn hlb hrb _ _)
  rw [el, er]

/-- The host's product of `u` with the transposed third block of columns of `W0` is the projected table. -/
theorem dot_projU (u : Arr2 128 128) (W0 : Arr2 128 384)
    (h : (⟨2, ![128, 384]⟩ : Shape).Slices ![0, 256] ⟨2, ![128, 128]⟩)
    (h' : (⟨2, ![128, 128]⟩ : Shape).Transposes [1, 0] ⟨2, ![128, 128]⟩) :
    Host.dotGeneral (F := Ideal) (φ₁ := .f32) (φ₂ := .f32) dot_S128x128_S128x128_S128x128_1_0_0_1_n_n none u
      (transpose ⟨2, ![128, 128]⟩ [1, 0] (extractStridedSlice ⟨2, ![128, 128]⟩ ![0, 256] W0 h) h') = projU u W0 := by
  funext j
  obtain ⟨p, q, rfl⟩ : ∃ p q, j = ix2 p q := ⟨j 0, j 1, eq_ix2 j⟩
  refine (hostDot_apply dot_S128x128_S128x128_S128x128_1_0_0_1_n_n rfl rfl rfl rfl rfl rfl rfl rfl none .single _ _ p q).trans ?_
  show (∑ k : Fin 128, _) = ∑ k : Fin 128, u (ix2 p k) * W0 (ix2 q ⟨256 + k.val, by omega⟩)
  refine Finset.sum_congr rfl fun k _ => ?_
  rw [transpose_slice_apply 256 W0 h h' k q ⟨256 + k.val, by omega⟩ rfl]

/-! ## The per-node sums and counts -/

/-- The per-node sums of edge features and the per-node edge counts, as the program's first stretch computes them from
    the edge list and the edge features: row 0 of the edge list, as a column of node numbers, says to which node's row
    each edge's feature row (for the sums) or the number one (for the counts) is added, starting from zero. They are
    the reference program's own two scatter-additions, applied to the same operands. -/
def sumsTerm (ei : (⟨2, ![2, 600000]⟩ : Shape).Idx → BitVec 32) (ea : Arr2 600000 128) : Arr2 50000 128 :=
  Cert.ReferenceIdeal.Read.val_main_v4 (F := Ideal) ei ea
def cntTerm (ei : (⟨2, ![2, 600000]⟩ : Shape).Idx → BitVec 32) : Arr1 50000 :=
  Cert.ReferenceIdeal.Read.val_main_v8 (F := Ideal) ei

/-! ## The buffers after the stretch -/

variable (W : Valuation τ sig (Elt Ideal))

theorem v4_eq : StableHlo.after (hostOps0 (F := Ideal)) W (Proc.devRef .tc main_v4) = sumsTerm (W (Proc.devRef .tc main_arg1)) (W (Proc.devRef .tc main_arg2)) := by
  show StableHlo.after (hostOps0 (F := Ideal)) W (Proc.devRef .tc main_v4) = _
  after_results
  rfl
/-- The counts before the reshape to a column. -/
theorem v8_eq : StableHlo.after (hostOps0 (F := Ideal)) W (Proc.devRef .tc main_v8) = cntTerm (W (Proc.devRef .tc main_arg1)) := by
  show StableHlo.after (hostOps0 (F := Ideal)) W (Proc.devRef .tc main_v8) = _
  after_results
  rfl
theorem v9_eq : StableHlo.after (hostOps0 (F := Ideal)) W (Proc.devRef .tc main_v9) = cntCol (cntTerm (W (Proc.devRef .tc main_arg1))) := by
  show StableHlo.after hostOps0 W (Proc.devRef .tc main_v9) = _
  after_results
  exact reshape_col (cntTerm (W (Proc.devRef .tc main_arg1))) shapeCasts_S50000_S50000x1

theorem v10_eq : StableHlo.after (hostOps0 (F := Ideal)) W (Proc.devRef .tc main_v10) = batchCol (W (Proc.devRef .tc main_arg4)) := by
  show StableHlo.after hostOps0 W (Proc.devRef .tc main_v10) = _
  after_results
  exact reshape_col _ _
theorem v12_eq : StableHlo.after (hostOps0 (F := Ideal)) W (Proc.devRef .tc main_v12) = w0x (W (Proc.devRef .tc main_arg5)) := by
  show StableHlo.after hostOps0 W (Proc.devRef .tc main_v12) = _
  after_results
  funext j
  obtain ⟨p, q, rfl⟩ : ∃ p q, j = ix2 p q := ⟨j 0, j 1, eq_ix2 j⟩
  exact transpose_slice_apply 0 _ _ _ p q ⟨p.val, by omega⟩ (Nat.zero_add _).symm
theorem v14_eq : StableHlo.after (hostOps0 (F := Ideal)) W (Proc.devRef .tc main_v14) = w0v (W (Proc.devRef .tc main_arg5)) := by
  show StableHlo.after hostOps0 W (Proc.devRef .tc main_v14) = _
  after_results
  funext j
  obtain ⟨p, q, rfl⟩ : ∃ p q, j = ix2 p q := ⟨j 0, j 1, eq_ix2 j⟩
  exact transpose_slice_apply 128 _ _ _ p q ⟨128 + p.val, by omega⟩ rfl
theorem v19_eq : StableHlo.after (hostOps0 (F := Ideal)) W (Proc.devRef .tc main_v19) = projU (W (Proc.devRef .tc main_arg3)) (W (Proc.devRef .tc main_arg5)) := by
  show StableHlo.after hostOps0 W (Proc.devRef .tc main_v19) = _
  after_results
  exact dot_projU _ _ _ _
theorem v17_eq : StableHlo.after (hostOps0 (F := Ideal)) W (Proc.devRef .tc main_v17) = ofFn2 (fun (k c : Fin 128) => (W (Proc.devRef .tc main_arg7) : Arr2 128 128) (ix2 c k)) := by
  show StableHlo.after hostOps0 W (Proc.devRef .tc main_v17) = _
  after_results
  funext j
  obtain ⟨p, q, rfl⟩ : ∃ p q, j = ix2 p q := ⟨j 0, j 1, eq_ix2 j⟩
  exact transpose_2d_apply _ _ p q
theorem v18_eq : StableHlo.after (hostOps0 (F := Ideal)) W (Proc.devRef .tc main_v18) = ofFn2 (fun (k c : Fin 128) => (W (Proc.devRef .tc main_arg9) : Arr2 128 128) (ix2 c k)) := by
  show StableHlo.after hostOps0 W (Proc.devRef .tc main_v18) = _
  after_results
  funext j
  obtain ⟨p, q, rfl⟩ : ∃ p q, j = ix2 p q := ⟨j 0, j 1, eq_ix2 j⟩
  exact transpose_2d_apply _ _ p q
theorem v20_eq : StableHlo.after (hostOps0 (F := Ideal)) W (Proc.devRef .tc main_v20) = rowOf (W (Proc.devRef .tc main_arg6)) := by
  show StableHlo.after hostOps0 W (Proc.devRef .tc main_v20) = _
  after_results
  exact reshape_row _ _
theorem v21_eq : StableHlo.after (hostOps0 (F := Ideal)) W (Proc.devRef .tc main_v21) = rowOf (W (Proc.devRef .tc main_arg8)) := by
  show StableHlo.after hostOps0 W (Proc.devRef .tc main_v21) = _
  after_results
  exact reshape_row _ _
theorem v22_eq : StableHlo.after (hostOps0 (F := Ideal)) W (Proc.devRef .tc main_v22) = rowOf (W (Proc.devRef .tc main_arg10)) := by
  show StableHlo.after hostOps0 W (Proc.devRef .tc main_v22) = _
  after_results
  exact reshape_row _ _
theorem v23_eq : StableHlo.after (hostOps0 (F := Ideal)) W (Proc.devRef .tc main_v23) = rowOf (W (Proc.devRef .tc main_arg11)) := by
  show StableHlo.after hostOps0 W (Proc.devRef .tc main_v23) = _
  after_results
  exact reshape_row _ _
theorem v24_eq : StableHlo.after (hostOps0 (F := Ideal)) W (Proc.devRef .tc main_v24) = rowOf (W (Proc.devRef .tc main_arg12)) := by
  show StableHlo.after hostOps0 W (Proc.devRef .tc main_v24) = _
  after_results
  exact reshape_row _ _
theorem v25_eq : StableHlo.after (hostOps0 (F := Ideal)) W (Proc.devRef .tc main_v25) = rowOf (W (Proc.devRef .tc main_arg13)) := by
  show StableHlo.after hostOps0 W (Proc.devRef .tc main_v25) = _
  after_results
  exact reshape_row _ _
theorem v26_eq : StableHlo.after (hostOps0 (F := Ideal)) W (Proc.devRef .tc main_v26) = rowOf (W (Proc.devRef .tc main_arg14)) := by
  show StableHlo.after hostOps0 W (Proc.devRef .tc main_v26) = _
  after_results
  exact reshape_row _ _
theorem v27_eq : StableHlo.after (hostOps0 (F := Ideal)) W (Proc.devRef .tc main_v27) = rowOf (W (Proc.devRef .tc main_arg15)) := by
  show StableHlo.after hostOps0 W (Proc.devRef .tc main_v27) = _
  after_results
  exact reshape_row _ _
theorem v28_eq : StableHlo.after (hostOps0 (F := Ideal)) W (Proc.devRef .tc main_v28) = rowOf (W (Proc.devRef .tc main_arg16)) := by
  show StableHlo.after hostOps0 W (Proc.devRef .tc main_v28) = _
  after_results
  exact reshape_row _ _

end Cert.Gnn.Host0

end
-- ==== Proof.Host1.lean ====
import proofs.«412658_j74818330296971_3_alg».proof.Proof.Gen.KernelIdeal.Frame
import proofs.«412658_j74818330296971_3_alg».proof.Proof.Spec
import Idealize.ShloMosaic.Lib.StableHlo.Run
import Idealize.ShloMosaic.Lib.IdealHost
import Idealize.ShloMosaic.Lib.Pipeline.Value
set_option maxRecDepth 16384

noncomputable section

namespace Cert.Gnn.Host1

open Cert.KernelIdeal Cert.KernelIdeal.Gen Cert.Gnn Idealize.ShloMosaic Idealize.ShloMosaic.TcCoe Idealize.SL.Sem
open Idealize.ShloMosaic.ValueIdx

variable (W : Valuation τ sig (Elt Ideal))

/-! ## Reading the operations at an index -/

/-- A [10, 8, 128] index set is the product of its three coordinate ranges … -/
def idxEquiv3 : S10x8x128.Idx ≃ Fin 10 × Fin 8 × Fin 128 where
  toFun i := (i 0, i 1, i 2)
  invFun p := ix3 p.1 p.2.1 p.2.2
  left_inv i := (eq_ix3 i).symm
  right_inv _ := rfl

/-- … so a sum over it is the triple sum over the coordinates. -/
theorem sum_idx3 (f : S10x8x128.Idx → EReal) :
    ∑ i, f i = ∑ t : Fin 10, ∑ s : Fin 8, ∑ q : Fin 128, f (ix3 t s q) := by
  rw [← Equiv.sum_comp idxEquiv3.symm f, Fintype.sum_prod_type]
  refine Finset.sum_congr rfl fun t _ => ?_
  rw [Fintype.sum_prod_type]
  rfl

/-- Dropping the first two axes of an index leaves its last coordinate. -/
theorem drop_ix3 (t : Fin 10) (s : Fin 8) (q : Fin 128) :
    reducesTo_S10x8x128_S128_d0_1.drop (ix3 t s q : S10x8x128.Idx) = (ix1 q : S128.Idx) := by
  funext d
  match d with
  | ⟨0, _⟩ => exact Fin.ext rfl

/-- The sum over the first two axes from zero, at column c: the double sum over the coordinates. -/
theorem col_sum (x : FVec Ideal S10x8x128 .f32) (c : Fin 128) :
    Host.reduceAdd x (constant (F := Ideal) S_ .f32 0x00000000#32) reducesTo_S10x8x128_S128_d0_1 h_S_ (ix1 c)
      = ∑ t : Fin 10, ∑ s : Fin 8, x (ix3 t s c) := by
  rw [hostReduceAdd_apply]
  unfold Ideal.hostReduceAdd
  rw [constant_apply, Ideal.ofBits_zero_f32, zero_add, Finset.sum_filter, sum_idx3]
  refine Finset.sum_congr rfl fun t _ => Finset.sum_congr rfl fun s _ => ?_
  rw [Finset.sum_eq_single c]
  · rw [if_pos (drop_ix3 t s c)]
  · intro q _ hq
    rw [if_neg]
    intro h
    rw [drop_ix3] at h
    exact hq (congrFun h 0)
  · intro h
    exact absurd (Finset.mem_univ c) h

/-- The sum divided by the broadcast row count is the column mean. -/
theorem mean_apply (x : FVec Ideal S10x8x128 .f32) (c : Fin 128) :
    Host.divf (Host.reduceAdd x (constant (F := Ideal) S_ .f32 0x00000000#32) reducesTo_S10x8x128_S128_d0_1 h_S_)
        (broadcastInDim S128 ![] bcast_S_S128 (constant (F := Ideal) S_ .f32 0x47435000#32)) (ix1 c)
      = k_mean x c := by
  rw [hostDivf_apply, col_sum, broadcastInDim_scalar_apply, constant_apply]
  rfl

/-- A vector laid out as one row reads the vector's entry. -/
theorem row_cast {α : Type} (v : S128.Idx → α) (r : Fin 1) (c : Fin 128) :
    shapeCast S1x128 v shapeCasts_S128_S1x128 (ix2 r c) = v (ix1 c) := by
  refine shapeCast_apply v _ (ix2 r c) (ix1 c) ?_
  rw [Shape.rowMajor_val_one, Shape.rowMajor_val_two]
  show c.val = r.val * 128 + c.val
  omega

set_option maxHeartbeats 800000 in
/-- The mean row the host stretch after region 0 leaves. -/
theorem mean_row :
    StableHlo.after (hostOps1 (F := Ideal)) W (Proc.devRef .tc main_v40)
      = ofFn2 (fun (_ : Fin 1) (c : Fin 128) => k_mean (W (Proc.devRef .tc main_v29_1)) c) := by
  show StableHlo.after hostOps1 W (Proc.devRef .tc main_v40) = _
  after_results
  funext i
  obtain ⟨r, c, rfl⟩ : ∃ r c, i = ix2 r c := ⟨i 0, i 1, eq_ix2 i⟩
  refine (row_cast _ r c).trans ?_
  exact mean_apply (W (Proc.devRef .tc main_v29_1)) c

/-- The mean of the second array less the squared mean of the first, floored at zero, is the column variance. -/
theorem var_apply (x y : FVec Ideal S10x8x128 .f32) (c : Fin 128) :
    maximumf
        (subf
          (Host.divf (Host.reduceAdd y (constant (F := Ideal) S_ .f32 0x00000000#32) reducesTo_S10x8x128_S128_d0_1 h_S_)
            (broadcastInDim S128 ![] bcast_S_S128 (constant (F := Ideal) S_ .f32 0x47435000#32)))
          (mulf
            (Host.divf (Host.reduceAdd x (constant (F := Ideal) S_ .f32 0x00000000#32) reducesTo_S10x8x128_S128_d0_1 h_S_)
              (broadcastInDim S128 ![] bcast_S_S128 (constant (F := Ideal) S_ .f32 0x47435000#32)))
            (Host.divf (Host.reduceAdd x (constant (F := Ideal) S_ .f32 0x00000000#32) reducesTo_S10x8x128_S128_d0_1 h_S_)
              (broadcastInDim S128 ![] bcast_S_S128 (constant (F := Ideal) S_ .f32 0x47435000#32)))))
        (broadcastInDim S128 ![] bcast_S_S128 (constant (F := Ideal) S_ .f32 0x00000000#32)) (ix1 c)
      = k_var x y c := by
  rw [maximumf_apply, subf_apply, mulf_apply, mean_apply, hostDivf_apply, col_sum, broadcastInDim_scalar_apply,
    broadcastInDim_scalar_apply, constant_apply, constant_apply, Ideal.ofBits_zero_f32]
  rfl

set_option maxHeartbeats 800000 in
/-- The variance row the host stretch after region 0 leaves. -/
theorem var_row :
    StableHlo.after (hostOps1 (F := Ideal)) W (Proc.devRef .tc main_v41)
      = ofFn2 (fun (_ : Fin 1) (c : Fin 128) => k_var (W (Proc.devRef .tc main_v29_1)) (W (Proc.devRef .tc main_v29_2)) c) := by
  show StableHlo.after hostOps1 W (Proc.devRef .tc main_v41) = _
  after_results
  funext i
  obtain ⟨r, c, rfl⟩ : ∃ r c, i = ix2 r c := ⟨i 0, i 1, eq_ix2 i⟩
  refine (row_cast _ r c).trans ?_
  exact var_apply (W (Proc.devRef .tc main_v29_1)) (W (Proc.devRef .tc main_v29_2)) c

end Cert.Gnn.Host1

end
-- ==== Proof.Host2.lean ====
import proofs.«412658_j74818330296971_3_alg».proof.Proof.Gen.KernelIdeal.Frame
import proofs.«412658_j74818330296971_3_alg».proof.Proof.Spec
import Idealize.ShloMosaic.Lib.StableHlo.Run
import Idealize.ShloMosaic.Lib.IdealHost
import Idealize.ShloMosaic.Lib.Pipeline.Value
set_option maxRecDepth 16384

noncomputable section

namespace Cert.Gnn.Host2

open Cert.KernelIdeal Cert.KernelIdeal.Gen Cert.Gnn Idealize.ShloMosaic Idealize.ShloMosaic.TcCoe Idealize.SL.Sem
open Idealize.ShloMosaic.ValueIdx

variable (W : Valuation τ sig (Elt Ideal))

/-! ## Reading the operations at an index -/

/-- A [10, 8, 128] index set is the product of its three coordinate ranges … -/
def idxEquiv3 : S10x8x128.Idx ≃ Fin 10 × Fin 8 × Fin 128 where
  toFun i := (i 0, i 1, i 2)
  invFun p := ix3 p.1 p.2.1 p.2.2
  left_inv i := (eq_ix3 i).symm
  right_inv _ := rfl

/-- … so a sum over it is the triple sum over the coordinates. -/
theorem sum_idx3 (f : S10x8x128.Idx → EReal) :
    ∑ i, f i = ∑ t : Fin 10, ∑ s : Fin 8, ∑ q : Fin 128, f (ix3 t s q) := by
  rw [← Equiv.sum_comp idxEquiv3.symm f, Fintype.sum_prod_type]
  refine Finset.sum_congr rfl fun t _ => ?_
  rw [Fintype.sum_prod_type]
  rfl

/-- Dropping the first two axes of an index leaves its last coordinate. -/
theorem drop_ix3 (t : Fin 10) (s : Fin 8) (q : Fin 128) :
    reducesTo_S10x8x128_S128_d0_1.drop (ix3 t s q : S10x8x128.Idx) = (ix1 q : S128.Idx) := by
  funext d
  match d with
  | ⟨0, _⟩ => exact Fin.ext rfl

/-- The sum over the first two axes from zero, at column c: the double sum over the coordinates. -/
theorem col_sum (x : FVec Ideal S10x8x128 .f32) (c : Fin 128) :
    Host.reduceAdd x (constant (F := Ideal) S_ .f32 0x00000000#32) reducesTo_S10x8x128_S128_d0_1 h_S_ (ix1 c)
      = ∑ t : Fin 10, ∑ s : Fin 8, x (ix3 t s c) := by
  rw [hostReduceAdd_apply]
  unfold Ideal.hostReduceAdd
  rw [constant_apply, Ideal.ofBits_zero_f32, zero_add, Finset.sum_filter, sum_idx3]
  refine Finset.sum_congr rfl fun t _ => Finset.sum_congr rfl fun s _ => ?_
  rw [Finset.sum_eq_single c]
  · rw [if_pos (drop_ix3 t s c)]
  · intro q _ hq
    rw [if_neg]
    intro h
    rw [drop_ix3] at h
    exact hq (congrFun h 0)
  · intro h
    exact absurd (Finset.mem_univ c) h

/-- The sum divided by the broadcast row count is the column mean. -/
theorem mean_apply (x : FVec Ideal S10x8x128 .f32) (c : Fin 128) :
    Host.divf (Host.reduceAdd x (constant (F := Ideal) S_ .f32 0x00000000#32) reducesTo_S10x8x128_S128_d0_1 h_S_)
        (broadcastInDim S128 ![] bcast_S_S128 (constant (F := Ideal) S_ .f32 0x47435000#32)) (ix1 c)
      = k_mean x c := by
  rw [hostDivf_apply, col_sum, broadcastInDim_scalar_apply, constant_apply]
  rfl

/-- A vector laid out as one row reads the vector's entry. -/
theorem row_cast {α : Type} (v : S128.Idx → α) (r : Fin 1) (c : Fin 128) :
    shapeCast S1x128 v shapeCasts_S128_S1x128 (ix2 r c) = v (ix1 c) := by
  refine shapeCast_apply v _ (ix2 r c) (ix1 c) ?_
  rw [Shape.rowMajor_val_one, Shape.rowMajor_val_two]
  show c.val = r.val * 128 + c.val
  omega

set_option maxHeartbeats 800000 in
/-- The mean row the host stretch after region 1 leaves. -/
theorem mean_row :
    StableHlo.after (hostOps2 (F := Ideal)) W (Proc.devRef .tc main_v53)
      = ofFn2 (fun (_ : Fin 1) (c : Fin 128) => k_mean (W (Proc.devRef .tc main_v42_1)) c) := by
  show StableHlo.after hostOps2 W (Proc.devRef .tc main_v53) = _
  after_results
  funext i
  obtain ⟨r, c, rfl⟩ : ∃ r c, i = ix2 r c := ⟨i 0, i 1, eq_ix2 i⟩
  refine (row_cast _ r c).trans ?_
  exact mean_apply (W (Proc.devRef .tc main_v42_1)) c

/-- The mean of the second array less the squared mean of the first, floored at zero, is the column variance. -/
theorem var_apply (x y : FVec Ideal S10x8x128 .f32) (c : Fin 128) :
    maximumf
        (subf
          (Host.divf (Host.reduceAdd y (constant (F := Ideal) S_ .f32 0x00000000#32) reducesTo_S10x8x128_S128_d0_1 h_S_)
            (broadcastInDim S128 ![] bcast_S_S128 (constant (F := Ideal) S_ .f32 0x47435000#32)))
          (mulf
            (Host.divf (Host.reduceAdd x (constant (F := Ideal) S_ .f32 0x00000000#32) reducesTo_S10x8x128_S128_d0_1 h_S_)
              (broadcastInDim S128 ![] bcast_S_S128 (constant (F := Ideal) S_ .f32 0x47435000#32)))
            (Host.divf (Host.reduceAdd x (constant (F := Ideal) S_ .f32 0x00000000#32) reducesTo_S10x8x128_S128_d0_1 h_S_)
              (broadcastInDim S128 ![] bcast_S_S128 (constant (F := Ideal) S_ .f32 0x47435000#32)))))
        (broadcastInDim S128 ![] bcast_S_S128 (constant (F := Ideal) S_ .f32 0x00000000#32)) (ix1 c)
      = k_var x y c := by
  rw [maximumf_apply, subf_apply, mulf_apply, mean_apply, hostDivf_apply, col_sum, broadcastInDim_scalar_apply,
    broadcastInDim_scalar_apply, constant_apply, constant_apply, Ideal.ofBits_zero_f32]
  rfl

set_option maxHeartbeats 800000 in
/-- The variance row the host stretch after region 1 leaves. -/
theorem var_row :
    StableHlo.after (hostOps2 (F := Ideal)) W (Proc.devRef .tc main_v54)
      = ofFn2 (fun (_ : Fin 1) (c : Fin 128) => k_var (W (Proc.devRef .tc main_v42_1)) (W (Proc.devRef .tc main_v42_2)) c) := by
  show StableHlo.after hostOps2 W (Proc.devRef .tc main_v54) = _
  after_results
  funext i
  obtain ⟨r, c, rfl⟩ : ∃ r c, i = ix2 r c := ⟨i 0, i 1, eq_ix2 i⟩
  refine (row_cast _ r c).trans ?_
  exact var_apply (W (Proc.devRef .tc main_v42_1)) (W (Proc.devRef .tc main_v42_2)) c

end Cert.Gnn.Host2

end
-- ==== Proof.Host3.lean ====
import proofs.«412658_j74818330296971_3_alg».proof.Proof.Gen.KernelIdeal.Frame
import proofs.«412658_j74818330296971_3_alg».proof.Proof.Spec
import Idealize.ShloMosaic.Lib.StableHlo.Run
import Idealize.ShloMosaic.Lib.IdealHost
import Idealize.ShloMosaic.Lib.Pipeline.Value
set_option maxRecDepth 16384

noncomputable section

namespace Cert.Gnn.Host3

open Cert.KernelIdeal Cert.KernelIdeal.Gen Cert.Gnn Idealize.ShloMosaic Idealize.ShloMosaic.TcCoe Idealize.SL.Sem
open Idealize.ShloMosaic.ValueIdx

variable (W : Valuation τ sig (Elt Ideal))

/-! ## Reading the operations at an index -/

/-- A [10, 8, 128] index set is the product of its three coordinate ranges … -/
def idxEquiv3 : S10x8x128.Idx ≃ Fin 10 × Fin 8 × Fin 128 where
  toFun i := (i 0, i 1, i 2)
  invFun p := ix3 p.1 p.2.1 p.2.2
  left_inv i := (eq_ix3 i).symm
  right_inv _ := rfl

/-- … so a sum over it is the triple sum over the coordinates. -/
theorem sum_idx3 (f : S10x8x128.Idx → EReal) :
    ∑ i, f i = ∑ t : Fin 10, ∑ s : Fin 8, ∑ q : Fin 128, f (ix3 t s q) := by
  rw [← Equiv.sum_comp idxEquiv3.symm f, Fintype.sum_prod_type]
  refine Finset.sum_congr rfl fun t _ => ?_
  rw [Fintype.sum_prod_type]
  rfl

/-- Dropping the first two axes of an index leaves its last coordinate. -/
theorem drop_ix3 (t : Fin 10) (s : Fin 8) (q : Fin 128) :
    reducesTo_S10x8x128_S128_d0_1.drop (ix3 t s q : S10x8x128.Idx) = (ix1 q : S128.Idx) := by
  funext d
  match d with
  | ⟨0, _⟩ => exact Fin.ext rfl

/-- The sum over the first two axes from zero, at column c: the double sum over the coordinates. -/
theorem col_sum (x : FVec Ideal S10x8x128 .f32) (c : Fin 128) :
    Host.reduceAdd x (constant (F := Ideal) S_ .f32 0x00000000#32) reducesTo_S10x8x128_S128_d0_1 h_S_ (ix1 c)
      = ∑ t : Fin 10, ∑ s : Fin 8, x (ix3 t s c) := by
  rw [hostReduceAdd_apply]
  unfold Ideal.hostReduceAdd
  rw [constant_apply, Ideal.ofBits_zero_f32, zero_add, Finset.sum_filter, sum_idx3]
  refine Finset.sum_congr rfl fun t _ => Finset.sum_congr rfl fun s _ => ?_
  rw [Finset.sum_eq_single c]
  · rw [if_pos (drop_ix3 t s c)]
  · intro q _ hq
    rw [if_neg]
    intro h
    rw [drop_ix3] at h
    exact hq (congrFun h 0)
  · intro h
    exact absurd (Finset.mem_univ c) h

/-- The sum divided by the broadcast row count is the column mean. -/
theorem mean_apply (x : FVec Ideal S10x8x128 .f32) (c : Fin 128) :
    Host.divf (Host.reduceAdd x (constant (F := Ideal) S_ .f32 0x00000000#32) reducesTo_S10x8x128_S128_d0_1 h_S_)
        (broadcastInDim S128 ![] bcast_S_S128 (constant (F := Ideal) S_ .f32 0x47435000#32)) (ix1 c)
      = k_mean x c := by
  rw [hostDivf_apply, col_sum, broadcastInDim_scalar_apply, constant_apply]
  rfl

/-- A vector laid out as one row reads the vector's entry. -/
theorem row_cast {α : Type} (v : S128.Idx → α) (r : Fin 1) (c : Fin 128) :
    shapeCast S1x128 v shapeCasts_S128_S1x128 (ix2 r c) = v (ix1 c) := by
  refine shapeCast_apply v _ (ix2 r c) (ix1 c) ?_
  rw [Shape.rowMajor_val_one, Shape.rowMajor_val_two]
  show c.val = r.val * 128 + c.val
  omega

set_option maxHeartbeats 800000 in
/-- The mean row the host stretch after region 2 leaves. -/
theorem mean_row :
    StableHlo.after (hostOps3 (F := Ideal)) W (Proc.devRef .tc main_v66)
      = ofFn2 (fun (_ : Fin 1) (c : Fin 128) => k_mean (W (Proc.devRef .tc main_v55_1)) c) := by
  show StableHlo.after hostOps3 W (Proc.devRef .tc main_v66) = _
  after_results
  funext i
  obtain ⟨r, c, rfl⟩ : ∃ r c, i = ix2 r c := ⟨i 0, i 1, eq_ix2 i⟩
  refine (row_cast _ r c).trans ?_
  exact mean_apply (W (Proc.devRef .tc main_v55_1)) c

/-- The mean of the second array less the squared mean of the first, floored at zero, is the column variance. -/
theorem var_apply (x y : FVec Ideal S10x8x128 .f32) (c : Fin 128) :
    maximumf
        (subf
          (Host.divf (Host.reduceAdd y (constant (F := Ideal) S_ .f32 0x00000000#32) reducesTo_S10x8x128_S128_d0_1 h_S_)
            (broadcastInDim S128 ![] bcast_S_S128 (constant (F := Ideal) S_ .f32 0x47435000#32)))
          (mulf
            (Host.divf (Host.reduceAdd x (constant (F := Ideal) S_ .f32 0x00000000#32) reducesTo_S10x8x128_S128_d0_1 h_S_)
              (broadcastInDim S128 ![] bcast_S_S128 (constant (F := Ideal) S_ .f32 0x47435000#32)))
            (Host.divf (Host.reduceAdd x (constant (F := Ideal) S_ .f32 0x00000000#32) reducesTo_S10x8x128_S128_d0_1 h_S_)
              (broadcastInDim S128 ![] bcast_S_S128 (constant (F := Ideal) S_ .f32 0x47435000#32)))))
        (broadcastInDim S128 ![] bcast_S_S128 (constant (F := Ideal) S_ .f32 0x00000000#32)) (ix1 c)
      = k_var x y c := by
  rw [maximumf_apply, subf_apply, mulf_apply, mean_apply, hostDivf_apply, col_sum, broadcastInDim_scalar_apply,
    broadcastInDim_scalar_apply, constant_apply, constant_apply, Ideal.ofBits_zero_f32]
  rfl

set_option maxHeartbeats 800000 in
/-- The variance row the host stretch after region 2 leaves. -/
theorem var_row :
    StableHlo.after (hostOps3 (F := Ideal)) W (Proc.devRef .tc main_v67)
      = ofFn2 (fun (_ : Fin 1) (c : Fin 128) => k_var (W (Proc.devRef .tc main_v55_1)) (W (Proc.devRef .tc main_v55_2)) c) := by
  show StableHlo.after hostOps3 W (Proc.devRef .tc main_v67) = _
  after_results
  funext i
  obtain ⟨r, c, rfl⟩ : ∃ r c, i = ix2 r c := ⟨i 0, i 1, eq_ix2 i⟩
  refine (row_cast _ r c).trans ?_
  exact var_apply (W (Proc.devRef .tc main_v55_1)) (W (Proc.devRef .tc main_v55_2)) c

end Cert.Gnn.Host3

end
-- ==== Proof.KValue.lean ====
/-
  The kernel program's result as a function of its arguments.

  The program is four kernel regions among four stretches of host operations. Going back from the result: region 3
  normalises region 2's output with the mean and variance rows stretch 3 computes from region 2's blocks of partial
  sums; region 2 does the same with region 1's output and then applies the third linear layer; region 1 likewise with
  region 0's output and the second layer; region 0 applies the first layer to the arrays stretch 0 prepares from the
  arguments. Every other buffer a region or a stretch reads is one that nothing in between writes.
-/
import proofs.«412658_j74818330296971_3_alg».proof.Proof.Gen.KernelIdeal.Frame
import proofs.«412658_j74818330296971_3_alg».proof.Proof.Spec
import proofs.«412658_j74818330296971_3_alg».proof.Proof.AlgLayer0
import proofs.«412658_j74818330296971_3_alg».proof.Proof.Region0
import proofs.«412658_j74818330296971_3_alg».proof.Proof.Region1
import proofs.«412658_j74818330296971_3_alg».proof.Proof.Region2
import proofs.«412658_j74818330296971_3_alg».proof.Proof.Region3
import proofs.«412658_j74818330296971_3_alg».proof.Proof.Host0
import proofs.«412658_j74818330296971_3_alg».proof.Proof.Host1
import proofs.«412658_j74818330296971_3_alg».proof.Proof.Host2
import proofs.«412658_j74818330296971_3_alg».proof.Proof.Host3
import Idealize.ShloMosaic.Lib.StableHlo.Run

set_option maxRecDepth 16384

noncomputable section

namespace Cert.Gnn.KValue

open Cert.KernelIdeal Cert.KernelIdeal.Gen Cert.Gnn Idealize.ShloMosaic Idealize.ShloMosaic.TcCoe Idealize.SL.Sem
open Idealize.ShloMosaic.ValueIdx

/-- A buffer that none of stretch 0's operations writes holds after the stretch what it held before. -/
theorem kept0 (W : Valuation τ sig (Elt Ideal)) (b : Ref sig .tc)
    (hb : ∀ y ∈ ([main_v0, main_v1, main_cst, main_v2, main_v3, main_v4, main_cst_0, main_v5, main_cst_1, main_v6, main_v7, main_v8, main_v9, main_v10, main_v11, main_v12, main_v13, main_v14, main_v15, main_v16, main_v17, main_v18, main_v19, main_v20, main_v21, main_v22, main_v23, main_v24, main_v25, main_v26, main_v27, main_v28] : List (Ref sig .tc)), b ≠ y) :
    StableHlo.after (hostOps0 (F := Ideal)) W (Proc.devRef .tc b) = W (Proc.devRef .tc b) := by
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (hb _ (by simp))

/-- A buffer that none of stretch 1's operations writes holds after the stretch what it held before. -/
theorem kept1 (W : Valuation τ sig (Elt Ideal)) (b : Ref sig .tc)
    (hb : ∀ y ∈ ([main_cst_2, main_v30, main_cst_3, main_v31, main_v32, main_cst_4, main_v33, main_cst_5, main_v34, main_v35, main_v36, main_v37, main_cst_6, main_v38, main_v39, main_v40, main_v41] : List (Ref sig .tc)), b ≠ y) :
    StableHlo.after (hostOps1 (F := Ideal)) W (Proc.devRef .tc b) = W (Proc.devRef .tc b) := by
  refine StableHlo.after_of_forall_not_mem (b := Proc.devRef .tc b) _ _ (List.forall_iff_forall_mem.mp ?_)
  simp only [hostOps1, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (hb _ (by simp))

/-- A buffer that none of stretch 2's operations writes holds after the stretch what it held before. -/
theorem kept2 (W : Valuation τ sig (Elt Ideal)) (b : Ref sig .tc)
    (hb : ∀ y ∈ ([main_cst_7, main_v43, main_cst_8, main_v44, main_v45, main_cst_9, main_v46, main_cst_10, main_v47, main_v48, main_v49, main_v50, main_cst_11, main_v51, main_v52, main_v53, main_v54] : List (Ref sig .tc)), b ≠ y) :
    StableHlo.after (hostOps2 (F := Ideal)) W (Proc.devRef .tc b) = W (Proc.devRef .tc b) := by
  refine StableHlo.after_of_forall_not_mem (b := Proc.devRef .tc b) _ _ (List.forall_iff_forall_mem.mp ?_)
  simp only [hostOps2, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (hb _ (by simp))

/-- A buffer that none of stretch 3's operations writes holds after the stretch what it held before. -/
theorem kept3 (W : Valuation τ sig (Elt Ideal)) (b : Ref sig .tc)
    (hb : ∀ y ∈ ([main_cst_12, main_v56, main_cst_13, main_v57, main_v58, main_cst_14, main_v59, main_cst_15, main_v60, main_v61, main_v62, main_v63, main_cst_16, main_v64, main_v65, main_v66, main_v67] : List (Ref sig .tc)), b ≠ y) :
    StableHlo.after (hostOps3 (F := Ideal)) W (Proc.devRef .tc b) = W (Proc.devRef .tc b) := by
  refine StableHlo.after_of_forall_not_mem (b := Proc.devRef .tc b) _ _ (List.forall_iff_forall_mem.mp ?_)
  simp only [hostOps3, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (hb _ (by simp))

variable (m : (ℓ : Loc nD τ sig) → Buf (Elt Ideal) ℓ) (ρ : Dev nD → PrngReg) (c : Dev nD)

/-- An argument array as launched. -/
abbrev arg (b : Ref sig .tc) : Buf (Elt Ideal) ((c.tc : Thread nD τ).loc b) := m ((c.tc : Thread nD τ).loc b)

/-- The per-node sums and counts of the launch's edge list and edge features. -/
abbrev sums : Arr2 50000 128 := Host0.sumsTerm (arg m c main_arg1) (arg m c main_arg2)
abbrev cnts : Arr1 50000 := Host0.cntTerm (arg m c main_arg1)

/-- The four layers' outputs, from the arguments. -/
def L0 : Fin 50000 → Fin 128 → EReal :=
  k_h0 (arg m c main_arg0) (sums m c) (cntCol (cnts m c)) (batchCol (arg m c main_arg4)) (w0x (arg m c main_arg5)) (w0v (arg m c main_arg5)) (projU (arg m c main_arg3) (arg m c main_arg5)) (rowOf (arg m c main_arg6))
def L1 : Fin 50000 → Fin 128 → EReal :=
  k_h1 (ofFn2 (L0 m c)) (k_meanRow (L0 m c)) (k_varRow (L0 m c)) (rowOf (arg m c main_arg11)) (rowOf (arg m c main_arg12))
    (ofFn2 fun (k q : Fin 128) => ((arg m c main_arg7) : Arr2 128 128) (ix2 q k)) (rowOf (arg m c main_arg8))
def L2 : Fin 50000 → Fin 128 → EReal :=
  k_h1 (ofFn2 (L1 m c)) (k_meanRow (L1 m c)) (k_varRow (L1 m c)) (rowOf (arg m c main_arg13)) (rowOf (arg m c main_arg14))
    (ofFn2 fun (k q : Fin 128) => ((arg m c main_arg9) : Arr2 128 128) (ix2 q k)) (rowOf (arg m c main_arg10))
def L3 : Fin 50000 → Fin 128 → EReal :=
  k_norm (ofFn2 (L2 m c)) (k_meanRow (L2 m c)) (k_varRow (L2 m c)) (rowOf (arg m c main_arg15)) (rowOf (arg m c main_arg16))

/-! ## Region 0, entered on what stretch 0 leaves -/

theorem e1_arg0 : V1 m ρ c main_arg0 = (arg m c main_arg0) := kept0 (W0 m ρ c) main_arg0 (by decide)
theorem e1_v4 : V1 m ρ c main_v4 = sums m c := Host0.v4_eq (W0 m ρ c)
theorem e1_v9 : V1 m ρ c main_v9 = cntCol (cnts m c) := Host0.v9_eq (W0 m ρ c)
theorem e1_v10 : V1 m ρ c main_v10 = batchCol (arg m c main_arg4) := Host0.v10_eq (W0 m ρ c)
theorem e1_v12 : V1 m ρ c main_v12 = w0x (arg m c main_arg5) := Host0.v12_eq (W0 m ρ c)
theorem e1_v14 : V1 m ρ c main_v14 = w0v (arg m c main_arg5) := Host0.v14_eq (W0 m ρ c)
theorem e1_v19 : V1 m ρ c main_v19 = projU (arg m c main_arg3) (arg m c main_arg5) := Host0.v19_eq (W0 m ρ c)
theorem e1_v20 : V1 m ρ c main_v20 = rowOf (arg m c main_arg6) := Host0.v20_eq (W0 m ρ c)

theorem out0_h : (dat0 (F := Ideal) (V1 m ρ) c).arrAt 8 cfg0.N = ofFn2 (L0 m c) := by
  rw [Region0.arr0_8, e1_arg0, e1_v4, e1_v9, e1_v10, e1_v12, e1_v14, e1_v19, e1_v20]; rfl
theorem out0_p : (dat0 (F := Ideal) (V1 m ρ) c).arrAt 9 cfg0.N = ofFn3 (k_part (L0 m c)) := by
  rw [Region0.arr0_9, e1_arg0, e1_v4, e1_v9, e1_v10, e1_v12, e1_v14, e1_v19, e1_v20]; rfl
theorem out0_q : (dat0 (F := Ideal) (V1 m ρ) c).arrAt 10 cfg0.N = ofFn3 (k_part (sq (L0 m c))) := by
  rw [Region0.arr0_10, e1_arg0, e1_v4, e1_v9, e1_v10, e1_v12, e1_v14, e1_v19, e1_v20]; rfl

/-! ## Region 1, entered on what stretch 1 leaves of region 0's exit -/

theorem e3_h : V3 m ρ c main_v29_0 = ofFn2 (L0 m c) :=
  (kept1 (W2 m ρ c) main_v29_0 (by decide)).trans ((W2_arr m ρ c 8).trans (out0_h m ρ c))
theorem e3_mean : V3 m ρ c main_v40 = k_meanRow (L0 m c) := by
  refine (Host1.mean_row (W2 m ρ c)).trans ?_
  rw [show W2 m ρ c (Proc.devRef .tc main_v29_1) = ofFn3 (k_part (L0 m c)) from (W2_arr m ρ c 9).trans (out0_p m ρ c)]; rfl
theorem e3_var : V3 m ρ c main_v41 = k_varRow (L0 m c) := by
  refine (Host1.var_row (W2 m ρ c)).trans ?_
  rw [show W2 m ρ c (Proc.devRef .tc main_v29_1) = ofFn3 (k_part (L0 m c)) from (W2_arr m ρ c 9).trans (out0_p m ρ c),
    show W2 m ρ c (Proc.devRef .tc main_v29_2) = ofFn3 (k_part (sq (L0 m c))) from (W2_arr m ρ c 10).trans (out0_q m ρ c)]; rfl
/-- A buffer of stretch 0 that neither region 0 nor stretch 1 writes, at region 1's entry. -/
theorem e3_of0 (b : Ref sig .tc) (h1 : ∀ y ∈ ([main_cst_2, main_v30, main_cst_3, main_v31, main_v32, main_cst_4, main_v33, main_cst_5, main_v34, main_v35, main_v36, main_v37, main_cst_6, main_v38, main_v39, main_v40, main_v41] : List (Ref sig .tc)), b ≠ y) (h0 : ∀ w, Pipeline.arrRef spec0 w ≠ b) :
    V3 m ρ c b = V1 m ρ c b := (kept1 (W2 m ρ c) b h1).trans (W2_of_ne m ρ c b h0)
theorem e3_v23 : V3 m ρ c main_v23 = rowOf (arg m c main_arg11) := (e3_of0 m ρ c main_v23 (by decide) (by decide)).trans (Host0.v23_eq (W0 m ρ c))
theorem e3_v24 : V3 m ρ c main_v24 = rowOf (arg m c main_arg12) := (e3_of0 m ρ c main_v24 (by decide) (by decide)).trans (Host0.v24_eq (W0 m ρ c))
theorem e3_v17 : V3 m ρ c main_v17 = ofFn2 (fun (k q : Fin 128) => ((arg m c main_arg7) : Arr2 128 128) (ix2 q k)) :=
  (e3_of0 m ρ c main_v17 (by decide) (by decide)).trans (Host0.v17_eq (W0 m ρ c))
theorem e3_v21 : V3 m ρ c main_v21 = rowOf (arg m c main_arg8) := (e3_of0 m ρ c main_v21 (by decide) (by decide)).trans (Host0.v21_eq (W0 m ρ c))

theorem out1_h : (dat1 (F := Ideal) (V3 m ρ) c).arrAt 7 cfg1.N = ofFn2 (L1 m c) := by
  rw [Region1.arr1_7, e3_h, e3_mean, e3_var, e3_v23, e3_v24, e3_v17, e3_v21]; rfl
theorem out1_p : (dat1 (F := Ideal) (V3 m ρ) c).arrAt 8 cfg1.N = ofFn3 (k_part (L1 m c)) := by
  rw [Region1.arr1_8, e3_h, e3_mean, e3_var, e3_v23, e3_v24, e3_v17, e3_v21]; rfl
theorem out1_q : (dat1 (F := Ideal) (V3 m ρ) c).arrAt 9 cfg1.N = ofFn3 (k_part (sq (L1 m c))) := by
  rw [Region1.arr1_9, e3_h, e3_mean, e3_var, e3_v23, e3_v24, e3_v17, e3_v21]; rfl

/-! ## Region 2, entered on what stretch 2 leaves of region 1's exit -/

theorem e5_h : V5 m ρ c main_v42_0 = ofFn2 (L1 m c) :=
  (kept2 (W4 m ρ c) main_v42_0 (by decide)).trans ((W4_arr m ρ c 7).trans (out1_h m ρ c))
theorem e5_mean : V5 m ρ c main_v53 = k_meanRow (L1 m c) := by
  refine (Host2.mean_row (W4 m ρ c)).trans ?_
  rw [show W4 m ρ c (Proc.devRef .tc main_v42_1) = ofFn3 (k_part (L1 m c)) from (W4_arr m ρ c 8).trans (out1_p m ρ c)]; rfl
theorem e5_var : V5 m ρ c main_v54 = k_varRow (L1 m c) := by
  refine (Host2.var_row (W4 m ρ c)).trans ?_
  rw [show W4 m ρ c (Proc.devRef .tc main_v42_1) = ofFn3 (k_part (L1 m c)) from (W4_arr m ρ c 8).trans (out1_p m ρ c),
    show W4 m ρ c (Proc.devRef .tc main_v42_2) = ofFn3 (k_part (sq (L1 m c))) from (W4_arr m ρ c 9).trans (out1_q m ρ c)]; rfl
/-- A buffer of stretch 0 that nothing up to region 2's entry writes. -/
theorem e5_of0 (b : Ref sig .tc) (h2 : ∀ y ∈ ([main_cst_7, main_v43, main_cst_8, main_v44, main_v45, main_cst_9, main_v46, main_cst_10, main_v47, main_v48, main_v49, main_v50, main_cst_11, main_v51, main_v52, main_v53, main_v54] : List (Ref sig .tc)), b ≠ y) (hr1 : ∀ w, Pipeline.arrRef spec1 w ≠ b)
    (h1 : ∀ y ∈ ([main_cst_2, main_v30, main_cst_3, main_v31, main_v32, main_cst_4, main_v33, main_cst_5, main_v34, main_v35, main_v36, main_v37, main_cst_6, main_v38, main_v39, main_v40, main_v41] : List (Ref sig .tc)), b ≠ y) (h0 : ∀ w, Pipeline.arrRef spec0 w ≠ b) :
    V5 m ρ c b = V1 m ρ c b :=
  (kept2 (W4 m ρ c) b h2).trans ((W4_of_ne m ρ c b hr1).trans (e3_of0 m ρ c b h1 h0))
theorem e5_v25 : V5 m ρ c main_v25 = rowOf (arg m c main_arg13) := (e5_of0 m ρ c main_v25 (by decide) (by decide) (by decide) (by decide)).trans (Host0.v25_eq (W0 m ρ c))
theorem e5_v26 : V5 m ρ c main_v26 = rowOf (arg m c main_arg14) := (e5_of0 m ρ c main_v26 (by decide) (by decide) (by decide) (by decide)).trans (Host0.v26_eq (W0 m ρ c))
theorem e5_v18 : V5 m ρ c main_v18 = ofFn2 (fun (k q : Fin 128) => ((arg m c main_arg9) : Arr2 128 128) (ix2 q k)) :=
  (e5_of0 m ρ c main_v18 (by decide) (by decide) (by decide) (by decide)).trans (Host0.v18_eq (W0 m ρ c))
theorem e5_v22 : V5 m ρ c main_v22 = rowOf (arg m c main_arg10) := (e5_of0 m ρ c main_v22 (by decide) (by decide) (by decide) (by decide)).trans (Host0.v22_eq (W0 m ρ c))

theorem out2_h : (dat2 (F := Ideal) (V5 m ρ) c).arrAt 7 cfg2.N = ofFn2 (L2 m c) := by
  rw [Region2.arr2_7, e5_h, e5_mean, e5_var, e5_v25, e5_v26, e5_v18, e5_v22]; rfl
theorem out2_p : (dat2 (F := Ideal) (V5 m ρ) c).arrAt 8 cfg2.N = ofFn3 (k_part (L2 m c)) := by
  rw [Region2.arr2_8, e5_h, e5_mean, e5_var, e5_v25, e5_v26, e5_v18, e5_v22]; rfl
theorem out2_q : (dat2 (F := Ideal) (V5 m ρ) c).arrAt 9 cfg2.N = ofFn3 (k_part (sq (L2 m c))) := by
  rw [Region2.arr2_9, e5_h, e5_mean, e5_var, e5_v25, e5_v26, e5_v18, e5_v22]; rfl

/-! ## Region 3, entered on what stretch 3 leaves of region 2's exit -/

theorem e7_h : V7 m ρ c main_v55_0 = ofFn2 (L2 m c) :=
  (kept3 (W6 m ρ c) main_v55_0 (by decide)).trans ((W6_arr m ρ c 7).trans (out2_h m ρ c))
theorem e7_mean : V7 m ρ c main_v66 = k_meanRow (L2 m c) := by
  refine (Host3.mean_row (W6 m ρ c)).trans ?_
  rw [show W6 m ρ c (Proc.devRef .tc main_v55_1) = ofFn3 (k_part (L2 m c)) from (W6_arr m ρ c 8).trans (out2_p m ρ c)]; rfl
theorem e7_var : V7 m ρ c main_v67 = k_varRow (L2 m c) := by
  refine (Host3.var_row (W6 m ρ c)).trans ?_
  rw [show W6 m ρ c (Proc.devRef .tc main_v55_1) = ofFn3 (k_part (L2 m c)) from (W6_arr m ρ c 8).trans (out2_p m ρ c),
    show W6 m ρ c (Proc.devRef .tc main_v55_2) = ofFn3 (k_part (sq (L2 m c))) from (W6_arr m ρ c 9).trans (out2_q m ρ c)]; rfl
theorem e7_of0 (b : Ref sig .tc) (h3 : ∀ y ∈ ([main_cst_12, main_v56, main_cst_13, main_v57, main_v58, main_cst_14, main_v59, main_cst_15, main_v60, main_v61, main_v62, main_v63, main_cst_16, main_v64, main_v65, main_v66, main_v67] : List (Ref sig .tc)), b ≠ y) (hr2 : ∀ w, Pipeline.arrRef spec2 w ≠ b)
    (h2 : ∀ y ∈ ([main_cst_7, main_v43, main_cst_8, main_v44, main_v45, main_cst_9, main_v46, main_cst_10, main_v47, main_v48, main_v49, main_v50, main_cst_11, main_v51, main_v52, main_v53, main_v54] : List (Ref sig .tc)), b ≠ y) (hr1 : ∀ w, Pipeline.arrRef spec1 w ≠ b)
    (h1 : ∀ y ∈ ([main_cst_2, main_v30, main_cst_3, main_v31, main_v32, main_cst_4, main_v33, main_cst_5, main_v34, main_v35, main_v36, main_v37, main_cst_6, main_v38, main_v39, main_v40, main_v41] : List (Ref sig .tc)), b ≠ y) (h0 : ∀ w, Pipeline.arrRef spec0 w ≠ b) :
    V7 m ρ c b = V1 m ρ c b :=
  (kept3 (W6 m ρ c) b h3).trans ((W6_of_ne m ρ c b hr2).trans (e5_of0 m ρ c b h2 hr1 h1 h0))
theorem e7_v27 : V7 m ρ c main_v27 = rowOf (arg m c main_arg15) :=
  (e7_of0 m ρ c main_v27 (by decide) (by decide) (by decide) (by decide) (by decide) (by decide)).trans (Host0.v27_eq (W0 m ρ c))
theorem e7_v28 : V7 m ρ c main_v28 = rowOf (arg m c main_arg16) :=
  (e7_of0 m ρ c main_v28 (by decide) (by decide) (by decide) (by decide) (by decide) (by decide)).trans (Host0.v28_eq (W0 m ρ c))

/-- The result buffer at the program's last boundary is the fourth layer's output. -/
theorem result_L3 : W8 m ρ c (Proc.devRef .tc main_v68) = ofFn2 (L3 m c) := by
  refine (W8_arr m ρ c 5).trans ?_
  rw [Region3.arr3_5, e7_h, e7_mean, e7_var, e7_v27, e7_v28]; rfl

/-- The same in the specification's kernel form. -/
theorem result_eq : W8 m ρ c (Proc.devRef .tc main_v68)
    = ofFn2 (k_total (arg m c main_arg0) (sums m c) (cnts m c) (arg m c main_arg4) (arg m c main_arg3) (arg m c main_arg5) (arg m c main_arg6) (arg m c main_arg7) (arg m c main_arg8) (arg m c main_arg9) (arg m c main_arg10)
        (arg m c main_arg11) (arg m c main_arg12) (arg m c main_arg13) (arg m c main_arg14) (arg m c main_arg15) (arg m c main_arg16)) :=
  result_L3 m ρ c

end Cert.Gnn.KValue

end
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.RefValue.lean ====
import proofs.«412658_j74818330296971_3_alg».proof.Proof.RefRead
import proofs.«412658_j74818330296971_3_alg».proof.Proof.Spec
import proofs.«412658_j74818330296971_3_alg».proof.Proof.LibRowGather

set_option maxRecDepth 16384

noncomputable section

namespace Cert.Gnn.RefValue

open Cert.ReferenceIdeal Cert.ReferenceIdeal.Read Cert.Gnn Idealize.ShloMosaic Idealize.ShloMosaic.ValueIdx
/-- A finite sum of real numbers is a real number. -/
theorem sum_real {ι : Type} (s : Finset ι) (f : ι → EReal) (h : ∀ j, ∃ y : ℝ, f j = (y : EReal)) :
    ∃ y : ℝ, ∑ j ∈ s, f j = (y : EReal) := by
  classical
  induction s using Finset.induction_on with
  | empty => exact ⟨0, by simp⟩
  | insert a s ha ih =>
    obtain ⟨y, hy⟩ := ih
    obtain ⟨z, hz⟩ := h a
    exact ⟨z + y, by rw [Finset.sum_insert ha, hy, hz, EReal.coe_add]⟩

/-- The word of the float 1 denotes a real number. -/
theorem one_word_real : ∃ y : ℝ, Ideal.ofBits .f32 0x3F800000#32 = (y : EReal) := by
  unfold Ideal.ofBits Ideal.ieee
  simp only []
  rw [if_neg (by decide), if_neg (by decide)]
  exact ⟨_, rfl⟩

/-- A scatter-add of real updates into a real operand is real. -/
theorem scatter_real {s si su : Shape} (d : ScatterDims s si su) {w : Nat} (x : s.Idx → EReal) (idx : IVec si w)
    (upd : su.Idx → EReal) (hx : AllReal x) (hu : AllReal upd) : AllReal (Ideal.hostScatterAdd d x idx upd) := by
  intro i
  obtain ⟨a, ha⟩ := hx i
  obtain ⟨b, hb⟩ := sum_real (Finset.univ.filter (fun j => d.resultIdx? j idx = some i)) upd hu
  exact ⟨a + b, by unfold Ideal.hostScatterAdd; rw [ha, hb, EReal.coe_add]⟩

/-- The reference's per-node sums and counts are real where the edge features are. -/
theorem sums_real (x1 : (⟨S2x600000, .i32⟩ : BufTy).Contents (Elt Ideal)) (x2 : (⟨S600000x128, .f32⟩ : BufTy).Contents (Elt Ideal))
    (h2 : AllReal (x2 : Arr2 600000 128)) : AllReal (val_main_v4 (F := Ideal) x1 x2 : Arr2 50000 128) := by
  unfold val_main_v4 Host.scatterAdd
  rw [Ideal.hostScatterAdd_def]
  refine scatter_real _ _ _ _ (fun i => ⟨0, ?_⟩) h2
  rw [val_main_v2_apply, val_main_cst_apply]
  exact Ideal.ofBits_zero_f32
theorem cnt_real (x1 : (⟨S2x600000, .i32⟩ : BufTy).Contents (Elt Ideal)) :
    AllReal (val_main_v8 (F := Ideal) x1 : Arr1 50000) := by
  unfold val_main_v8 Host.scatterAdd
  rw [Ideal.hostScatterAdd_def]
  refine scatter_real _ _ _ _ (fun i => ⟨0, ?_⟩) (fun j => ?_)
  · rw [val_main_v6_apply, val_main_cst_1_apply]
    exact Ideal.ofBits_zero_f32
  · rw [val_main_v5_apply, val_main_cst_0_apply]
    exact one_word_real

/-- An index of a one-axis array is the index built from its coordinate. -/
theorem ix1_of {n : Nat} (j : (⟨1, ![n]⟩ : Shape).Idx) (a : Fin n) (h : (j 0).val = a.val) : j = ix1 a := by
  funext d
  match d with
  | ⟨0, _⟩ => exact Fin.ext h
/-- An index of a two-axis array is the index built from its two coordinates. -/
theorem ix2_of {n0 n1 : Nat} (j : (⟨2, ![n0, n1]⟩ : Shape).Idx) (a : Fin n0) (b : Fin n1) (h0 : (j 0).val = a.val)
    (h1 : (j 1).val = b.val) : j = ix2 a b := by
  funext d
  match d with
  | ⟨0, _⟩ => exact Fin.ext h0
  | ⟨1, _⟩ => exact Fin.ext h1

/-- Batch normalisation as the program writes it, stage by stage, is the specification's. -/
theorem bn_core (y : Arr2 50000 128) (g beta : Arr1 128) (r : Fin 50000) (c : Fin 128) :
    g (ix1 c) * (y (ix2 r c) - Ideal.div (Ideal.ofBits .f32 0x00000000#32 + ∑ k : Fin 50000, y (ix2 k c)) (Ideal.ofBits .f32 0x47435000#32))
        * Ideal.rsqrt (Ideal.div (Ideal.ofBits .f32 0x00000000#32 + ∑ k : Fin 50000,
            (y (ix2 k c) - Ideal.div (Ideal.ofBits .f32 0x00000000#32 + ∑ k1 : Fin 50000, y (ix2 k1 c)) (Ideal.ofBits .f32 0x47435000#32))
              * (y (ix2 k c) - Ideal.div (Ideal.ofBits .f32 0x00000000#32 + ∑ k1 : Fin 50000, y (ix2 k1 c)) (Ideal.ofBits .f32 0x47435000#32)))
            (Ideal.ofBits .f32 0x47435000#32) + Ideal.ofBits .f32 0x3727C5AC#32)
        + beta (ix1 c)
      = r_bn (fun r k => y (ix2 r k)) g beta r c := by
  unfold r_bn r_var r_mean wRows wEps
  rw [Ideal.ofBits_zero_f32]
  simp only [zero_add]

/-- The rectifier's zero word is the number zero. -/
theorem relu_zero (a : EReal) : max a (Ideal.ofBits .f32 0x00000000#32) = max a 0 := by rw [Ideal.ofBits_zero_f32]

/-- The wrap of a negative graph number: select(b < 0, b + 128, b). -/
theorem wrap_select (b : BitVec 32) :
    Scalar.select (IntOp.cmpi .slt b 0#32) (IntOp.addi b 128#32) b = if b.toInt < 0 then b + 128#32 else b := by
  unfold Scalar.select IntOp.addi IntOp.cmpi
  show (if BitVec.ofBool (decide (b.toInt < (0#32 : BitVec 32).toInt)) = 1#1 then b + 128#32 else b) = _
  rw [show (0#32 : BitVec 32).toInt = 0 from by decide]
  by_cases h : b.toInt < 0
  · rw [if_pos h, decide_eq_true h]; rfl
  · rw [if_neg h, decide_eq_false h]; rfl

section stages

variable (x0 : (⟨S50000x128, .f32⟩ : BufTy).Contents (Elt Ideal)) (x1 : (⟨S2x600000, .i32⟩ : BufTy).Contents (Elt Ideal))
    (x2 : (⟨S600000x128, .f32⟩ : BufTy).Contents (Elt Ideal)) (x3 : (⟨S128x128, .f32⟩ : BufTy).Contents (Elt Ideal))
    (x4 : (⟨S50000, .i32⟩ : BufTy).Contents (Elt Ideal)) (x5 : (⟨S128x384, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x128, .f32⟩ : BufTy).Contents (Elt Ideal))
    (x10 x11 x12 x13 x14 x15 x16 : (⟨S128, .f32⟩ : BufTy).Contents (Elt Ideal))

/-- The gathered rows: node r reads the row of u its wrapped and clamped graph number selects. -/
theorem v20_at (r : Fin 50000) (k : Fin 128) :
    val_main_v20 (F := Ideal) x3 x4 (ix2 r k) = x3 (ix2 (r_graph (x4 (ix1 r))) k) := by
  unfold val_main_v20
  have hd : gather_S128x128_S50000x1_S50000x128_1_0_n_n_0_1_1128
      = Cert.LibRowGather.rowDims 128 128 50000 (by decide) := rfl
  rw [hd, Cert.LibRowGather.gather_rows_apply (by decide)]
  refine congrArg x3 (ix2_of _ _ _ ?_ rfl)
  have e : idx_main_v19 (ix2 (⟨((ix2 r k : S50000x128.Idx) 0).val, idx2_lt0 (ix2 r k)⟩ : Fin 50000) (0 : Fin 1)) = ix1 r :=
    ix1_of _ _ rfl
  have hv : val_main_v19 (F := Ideal) x4 (ix2 (⟨((ix2 r k : S50000x128.Idx) 0).val, idx2_lt0 (ix2 r k)⟩ : Fin 50000) (0 : Fin 1))
      = (if (x4 (ix1 r)).toInt < 0 then x4 (ix1 r) + 128#32 else x4 (ix1 r)) := by
    rw [val_main_v19_apply, val_main_v18_apply, val_main_v15_apply, val_main_v17_apply, val_main_v14_apply,
      val_main_v16_apply, val_main_c_apply, val_main_c_3_apply, wrap_select, e]
  show min (BitVec.toInt (val_main_v19 (F := Ideal) x4 _)).toNat (128 - 1) = _
  rw [hv]
  rfl

/-- The edge mean: the per-node sum over the floored count. -/
theorem v13_at (r : Fin 50000) (k : Fin 128) :
    val_main_v13 (F := Ideal) x1 x2 (ix2 r k)
      = Ideal.div (val_main_v4 (F := Ideal) x1 x2 (ix2 r k)) (max (val_main_v8 (F := Ideal) x1 (ix1 r)) wOne) := by
  rw [val_main_v13_apply, val_main_v12_apply, val_main_v11_apply, val_main_v10_apply, val_main_v9_apply, val_main_cst_2_apply]
  have e : idx_main_v11 (idx_main_v12 (ix2 r k)) = ix1 r := ix1_of _ _ rfl
  rw [e]
  rfl

/-- The joined row of 384 entries, piece by piece. -/
theorem v21_at (r : Fin 50000) (j : Fin 384) :
    val_main_v21 (F := Ideal) x0 x1 x2 x3 x4 (ix2 r j)
      = r_comb x0 (val_main_v4 (F := Ideal) x1 x2) (val_main_v8 (F := Ideal) x1) x4 x3 r j := by
  unfold val_main_v21 r_comb
  have key := concatenate_apply_piece (t := S50000x384) 1
    [⟨S50000x128, x0⟩, ⟨S50000x128, val_main_v13 (F := Ideal) x1 x2⟩, ⟨S50000x128, val_main_v20 (F := Ideal) x3 x4⟩]
    Cert.ReferenceIdeal.Gen.concatenates_S50000x128_S50000x128_S50000x128_S50000x384_d1 (ix2 r j)
  have hoff : ∀ (q : Fin 128) (b : Fin 2), b.cast rfl ≠ (1 : Fin 2) →
      ((ix2 r q : S50000x128.Idx) b).val = ((ix2 r j : S50000x384.Idx) (b.cast rfl)).val := fun q b hb => by
    match b with
    | ⟨0, _⟩ => rfl
    | ⟨1, _⟩ => exact absurd (Fin.ext rfl) hb
  by_cases h : j.val < 128
  · rw [dif_pos h]
    exact key 0 (by show (0 : Nat) < 3; omega) S50000x128 x0 rfl rfl 0 rfl (ix2 r ⟨j.val, h⟩) (hoff _)
      (by show 0 + j.val = j.val; omega)
  · rw [dif_neg h]
    by_cases h2 : j.val < 256
    · rw [dif_pos h2]
      exact (key 1 (by show (1 : Nat) < 3; omega) S50000x128 (val_main_v13 (F := Ideal) x1 x2) rfl rfl 128 rfl
        (ix2 r ⟨j.val - 128, by omega⟩) (hoff _) (by show 128 + (j.val - 128) = j.val; omega)).trans (v13_at x1 x2 r _)
    · rw [dif_neg h2]
      exact (key 2 (by show (2 : Nat) < 3; omega) S50000x128 (val_main_v20 (F := Ideal) x3 x4) rfl rfl 256 rfl
        (ix2 r ⟨j.val - 256, by omega⟩) (hoff _) (by show 256 + (j.val - 256) = j.val; omega)).trans (v20_at x3 x4 r _)

/-- The first layer's rectified output is the specification's. -/
theorem h0_at (r : Fin 50000) (c : Fin 128) :
    val_main_v27 (F := Ideal) x0 x1 x2 x3 x4 x5 x6 (ix2 r c)
      = r_h0 x0 (val_main_v4 (F := Ideal) x1 x2) (val_main_v8 (F := Ideal) x1) x4 x3 x5 x6 r c := by
  simp only [val_main_v27_apply, val_main_v26_apply, val_main_v23_apply, val_main_v22_apply, val_main_v25_apply,
    val_main_v24_apply, val_main_call0_v0_apply, val_main_call0_cst_apply]
  have e1 : ∀ k, lidx_main_v23 (ix2 r c) k = ix2 r k := fun k => ix2_of _ _ _ rfl rfl
  have e2 : ∀ k, idx_main_v22 (ridx_main_v23 (ix2 r c) k) = ix2 c k := fun k => ix2_of _ _ _ rfl rfl
  have e3 : idx_main_v24 (idx_main_v25 (ix2 r c)) = ix1 c := ix1_of _ _ rfl
  simp only [e1, e2, e3, v21_at]
  exact relu_zero _

/-- Layer 1's normalised stage at (r, c) is the batch normalisation of its rectified stage. -/
theorem bn1 (r : Fin 50000) (c : Fin 128) :
    val_main_v52 (F := Ideal) x0 x1 x2 x3 x4 x5 x6 x11 x12 (ix2 r c)
      = r_bn (fun r k => val_main_v27 (F := Ideal) x0 x1 x2 x3 x4 x5 x6 (ix2 r k)) x11 x12 r c := by
  simp only [val_main_v52_apply, val_main_v49_apply, val_main_v43_apply, val_main_v42_apply, val_main_v41_apply,
    val_main_v40_apply, val_main_v39_apply, val_main_v38_apply, val_main_v30_apply, val_main_v28_apply, val_main_v29_apply,
    val_main_cst_5_apply, val_main_cst_4_apply, val_main_v48_apply, val_main_v47_apply, val_main_v46_apply, val_main_v45_apply,
    val_main_v37_apply, val_main_v35_apply, val_main_v36_apply, val_main_cst_7_apply, val_main_cst_6_apply,
    val_main_v34_apply, val_main_v33_apply, val_main_v32_apply, val_main_v31_apply, val_main_v44_apply, val_main_cst_8_apply,
    val_main_v51_apply, val_main_v50_apply]
  generalize val_main_v27 (F := Ideal) x0 x1 x2 x3 x4 x5 x6 = y
  have e1 : idx_main_v41 (idx_main_v42 (ix2 r c)) = ix1 c := ix1_of _ _ rfl
  have e2 : ∀ k, idx_main_v28 (idx_main_v38 (idx_main_v39 (ix2 r c))) k = ix2 k c := fun k => ix2_of _ _ _ rfl rfl
  have e3 : ∀ k, idx_main_v35 (idx_main_v47 (idx_main_v48 (ix2 r c))) k = ix2 k c := fun k => ix2_of _ _ _ rfl rfl
  have e4 : ∀ k k1, idx_main_v28 (idx_main_v31 (idx_main_v32 (ix2 k c))) k1 = ix2 k1 c := fun k k1 => ix2_of _ _ _ rfl rfl
  have e5 : idx_main_v50 (idx_main_v51 (ix2 r c)) = ix1 c := ix1_of _ _ rfl
  simp only [e1, e2, e3, e4, e5]
  exact bn_core y x11 x12 r c

/-- Layer 2's rectified stage at (r, c): the normalised rows against the weights' rows, the bias, the rectifier. -/
theorem h1_at (r : Fin 50000) (c : Fin 128) :
    val_main_v58 (F := Ideal) x0 x1 x2 x3 x4 x5 x6 x7 x8 x11 x12 (ix2 r c)
      = r_h1 (fun r k => val_main_v52 (F := Ideal) x0 x1 x2 x3 x4 x5 x6 x11 x12 (ix2 r k)) x7 x8 r c := by
  simp only [val_main_v58_apply, val_main_v57_apply, val_main_v54_apply, val_main_v53_apply, val_main_v56_apply,
    val_main_v55_apply, val_main_call1_v0_apply, val_main_call1_cst_apply]
  generalize val_main_v52 (F := Ideal) x0 x1 x2 x3 x4 x5 x6 x11 x12 = y
  have e1 : ∀ k, lidx_main_v54 (ix2 r c) k = ix2 r k := fun k => ix2_of _ _ _ rfl rfl
  have e2 : ∀ k, idx_main_v53 (ridx_main_v54 (ix2 r c) k) = ix2 c k := fun k => ix2_of _ _ _ rfl rfl
  have e3 : idx_main_v55 (idx_main_v56 (ix2 r c)) = ix1 c := ix1_of _ _ rfl
  simp only [e1, e2, e3]
  exact relu_zero _

/-- Layer 2's normalised stage at (r, c) is the batch normalisation of its rectified stage. -/
theorem bn2 (r : Fin 50000) (c : Fin 128) :
    val_main_v83 (F := Ideal) x0 x1 x2 x3 x4 x5 x6 x7 x8 x11 x12 x13 x14 (ix2 r c)
      = r_bn (fun r k => val_main_v58 (F := Ideal) x0 x1 x2 x3 x4 x5 x6 x7 x8 x11 x12 (ix2 r k)) x13 x14 r c := by
  simp only [val_main_v83_apply, val_main_v80_apply, val_main_v74_apply, val_main_v73_apply, val_main_v72_apply,
    val_main_v71_apply, val_main_v70_apply, val_main_v69_apply, val_main_v61_apply, val_main_v59_apply, val_main_v60_apply,
    val_main_cst_10_apply, val_main_cst_9_apply, val_main_v79_apply, val_main_v78_apply, val_main_v77_apply, val_main_v76_apply,
    val_main_v68_apply, val_main_v66_apply, val_main_v67_apply, val_main_cst_12_apply, val_main_cst_11_apply,
    val_main_v65_apply, val_main_v64_apply, val_main_v63_apply, val_main_v62_apply, val_main_v75_apply, val_main_cst_13_apply,
    val_main_v82_apply, val_main_v81_apply]
  generalize val_main_v58 (F := Ideal) x0 x1 x2 x3 x4 x5 x6 x7 x8 x11 x12 = y
  have e1 : idx_main_v72 (idx_main_v73 (ix2 r c)) = ix1 c := ix1_of _ _ rfl
  have e2 : ∀ k, idx_main_v59 (idx_main_v69 (idx_main_v70 (ix2 r c))) k = ix2 k c := fun k => ix2_of _ _ _ rfl rfl
  have e3 : ∀ k, idx_main_v66 (idx_main_v78 (idx_main_v79 (ix2 r c))) k = ix2 k c := fun k => ix2_of _ _ _ rfl rfl
  have e4 : ∀ k k1, idx_main_v59 (idx_main_v62 (idx_main_v63 (ix2 k c))) k1 = ix2 k1 c := fun k k1 => ix2_of _ _ _ rfl rfl
  have e5 : idx_main_v81 (idx_main_v82 (ix2 r c)) = ix1 c := ix1_of _ _ rfl
  simp only [e1, e2, e3, e4, e5]
  exact bn_core y x13 x14 r c

/-- Layer 3's rectified stage at (r, c): the normalised rows against the weights' rows, the bias, the rectifier. -/
theorem h2_at (r : Fin 50000) (c : Fin 128) :
    val_main_v89 (F := Ideal) x0 x1 x2 x3 x4 x5 x6 x7 x8 x9 x10 x11 x12 x13 x14 (ix2 r c)
      = r_h1 (fun r k => val_main_v83 (F := Ideal) x0 x1 x2 x3 x4 x5 x6 x7 x8 x11 x12 x13 x14 (ix2 r k)) x9 x10 r c := by
  simp only [val_main_v89_apply, val_main_v88_apply, val_main_v85_apply, val_main_v84_apply, val_main_v87_apply,
    val_main_v86_apply, val_main_call2_v0_apply, val_main_call2_cst_apply]
  generalize val_main_v83 (F := Ideal) x0 x1 x2 x3 x4 x5 x6 x7 x8 x11 x12 x13 x14 = y
  have e1 : ∀ k, lidx_main_v85 (ix2 r c) k = ix2 r k := fun k => ix2_of _ _ _ rfl rfl
  have e2 : ∀ k, idx_main_v84 (ridx_main_v85 (ix2 r c) k) = ix2 c k := fun k => ix2_of _ _ _ rfl rfl
  have e3 : idx_main_v86 (idx_main_v87 (ix2 r c)) = ix1 c := ix1_of _ _ rfl
  simp only [e1, e2, e3]
  exact relu_zero _

/-- Layer 3's normalised stage at (r, c) is the batch normalisation of its rectified stage. -/
theorem bn3 (r : Fin 50000) (c : Fin 128) :
    val_main_v114 (F := Ideal) x0 x1 x2 x3 x4 x5 x6 x7 x8 x9 x10 x11 x12 x13 x14 x15 x16 (ix2 r c)
      = r_bn (fun r k => val_main_v89 (F := Ideal) x0 x1 x2 x3 x4 x5 x6 x7 x8 x9 x10 x11 x12 x13 x14 (ix2 r k)) x15 x16 r c := by
  simp only [val_main_v114_apply, val_main_v111_apply, val_main_v105_apply, val_main_v104_apply, val_main_v103_apply,
    val_main_v102_apply, val_main_v101_apply, val_main_v100_apply, val_main_v92_apply, val_main_v90_apply, val_main_v91_apply,
    val_main_cst_15_apply, val_main_cst_14_apply, val_main_v110_apply, val_main_v109_apply, val_main_v108_apply, val_main_v107_apply,
    val_main_v99_apply, val_main_v97_apply, val_main_v98_apply, val_main_cst_17_apply, val_main_cst_16_apply,
    val_main_v96_apply, val_main_v95_apply, val_main_v94_apply, val_main_v93_apply, val_main_v106_apply, val_main_cst_18_apply,
    val_main_v113_apply, val_main_v112_apply]
  generalize val_main_v89 (F := Ideal) x0 x1 x2 x3 x4 x5 x6 x7 x8 x9 x10 x11 x12 x13 x14 = y
  have e1 : idx_main_v103 (idx_main_v104 (ix2 r c)) = ix1 c := ix1_of _ _ rfl
  have e2 : ∀ k, idx_main_v90 (idx_main_v100 (idx_main_v101 (ix2 r c))) k = ix2 k c := fun k => ix2_of _ _ _ rfl rfl
  have e3 : ∀ k, idx_main_v97 (idx_main_v109 (idx_main_v110 (ix2 r c))) k = ix2 k c := fun k => ix2_of _ _ _ rfl rfl
  have e4 : ∀ k k1, idx_main_v90 (idx_main_v93 (idx_main_v94 (ix2 k c))) k1 = ix2 k1 c := fun k k1 => ix2_of _ _ _ rfl rfl
  have e5 : idx_main_v112 (idx_main_v113 (ix2 r c)) = ix1 c := ix1_of _ _ rfl
  simp only [e1, e2, e3, e4, e5]
  exact bn_core y x15 x16 r c

/-- The first layer's rectified stage, as a function of the node and the column. -/
theorem stage27 :
    (fun r k => val_main_v27 (F := Ideal) x0 x1 x2 x3 x4 x5 x6 (ix2 r k))
      = r_h0 x0 (val_main_v4 (F := Ideal) x1 x2) (val_main_v8 (F := Ideal) x1) x4 x3 x5 x6 :=
  funext fun r => funext fun k => h0_at x0 x1 x2 x3 x4 x5 x6 r k

theorem stage52 :
    (fun r k => val_main_v52 (F := Ideal) x0 x1 x2 x3 x4 x5 x6 x11 x12 (ix2 r k))
      = r_bn (r_h0 x0 (val_main_v4 (F := Ideal) x1 x2) (val_main_v8 (F := Ideal) x1) x4 x3 x5 x6) x11 x12 := by
  funext r k
  exact (bn1 x0 x1 x2 x3 x4 x5 x6 x11 x12 r k).trans (by rw [stage27])

theorem stage58 :
    (fun r k => val_main_v58 (F := Ideal) x0 x1 x2 x3 x4 x5 x6 x7 x8 x11 x12 (ix2 r k))
      = r_h1 (r_bn (r_h0 x0 (val_main_v4 (F := Ideal) x1 x2) (val_main_v8 (F := Ideal) x1) x4 x3 x5 x6) x11 x12) x7 x8 := by
  funext r k
  exact (h1_at x0 x1 x2 x3 x4 x5 x6 x7 x8 x11 x12 r k).trans (by rw [stage52])

theorem stage83 :
    (fun r k => val_main_v83 (F := Ideal) x0 x1 x2 x3 x4 x5 x6 x7 x8 x11 x12 x13 x14 (ix2 r k))
      = r_bn (r_h1 (r_bn (r_h0 x0 (val_main_v4 (F := Ideal) x1 x2) (val_main_v8 (F := Ideal) x1) x4 x3 x5 x6) x11 x12) x7 x8)
          x13 x14 := by
  funext r k
  exact (bn2 x0 x1 x2 x3 x4 x5 x6 x7 x8 x11 x12 x13 x14 r k).trans (by rw [stage58])

theorem stage89 :
    (fun r k => val_main_v89 (F := Ideal) x0 x1 x2 x3 x4 x5 x6 x7 x8 x9 x10 x11 x12 x13 x14 (ix2 r k))
      = r_h1 (r_bn (r_h1 (r_bn (r_h0 x0 (val_main_v4 (F := Ideal) x1 x2) (val_main_v8 (F := Ideal) x1) x4 x3 x5 x6) x11 x12)
          x7 x8) x13 x14) x9 x10 := by
  funext r k
  exact (h2_at x0 x1 x2 x3 x4 x5 x6 x7 x8 x9 x10 x11 x12 x13 x14 r k).trans (by rw [stage83])

end stages

/-- The reference's result, stage by stage, is the reference form of the specification. -/
theorem ref_value (x0 : (⟨S50000x128, .f32⟩ : BufTy).Contents (Elt Ideal)) (x1 : (⟨S2x600000, .i32⟩ : BufTy).Contents (Elt Ideal))
    (x2 : (⟨S600000x128, .f32⟩ : BufTy).Contents (Elt Ideal)) (x3 : (⟨S128x128, .f32⟩ : BufTy).Contents (Elt Ideal))
    (x4 : (⟨S50000, .i32⟩ : BufTy).Contents (Elt Ideal)) (x5 : (⟨S128x384, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x128, .f32⟩ : BufTy).Contents (Elt Ideal))
    (x10 x11 x12 x13 x14 x15 x16 : (⟨S128, .f32⟩ : BufTy).Contents (Elt Ideal)) :
    val_main_v114 (F := Ideal) x0 x1 x2 x3 x4 x5 x6 x7 x8 x9 x10 x11 x12 x13 x14 x15 x16
      = ofFn2 (r_total x0 (val_main_v4 (F := Ideal) x1 x2) (val_main_v8 (F := Ideal) x1) x4 x3 x5 x6 x7 x8 x9 x10 x11 x12 x13 x14 x15 x16) := by
  funext i
  obtain ⟨r, c, rfl⟩ : ∃ (r : Fin 50000) (c : Fin 128), i = ix2 r c := ⟨i 0, i 1, eq_ix2 i⟩
  rw [ofFn2_ix2, bn3 x0 x1 x2 x3 x4 x5 x6 x7 x8 x9 x10 x11 x12 x13 x14 x15 x16 r c, stage89]
  rfl

end Cert.Gnn.RefValue

end
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.lean ====
/-
  The certificate of a graph network's node update: the kernel's program (four tiled kernel launches among host
  operations) against the reference, over the extended reals.

  Both programs form, for every node, the mean of its incident edges' features from the same two accumulating scatters,
  join it with the node's features and its graph's row, and apply three linear layers with rectifier and batch
  normalisation over the 50000 nodes. They differ in how the first layer's contraction is cut (three contractions of 128
  terms and a 0/1-row lookup in a projected table, against one contraction of 384 terms over a gathered row), in how the
  column statistics are accumulated (per tile of 5000 rows, then summed) and in the variance's form (max(E[h²] − m², 0)
  against E[(h − m)²]). The first needs every graph number to lie in [0, 128); the last needs real entries, which the
  precondition gives for the inputs and which every operation on the way preserves. The frames of the two kernel
  programs are the generated ones; the reference's frame is its run with the result dropped.
-/
import proofs.«412658_j74818330296971_3_alg».proof.Defs
import proofs.«412658_j74818330296971_3_alg».proof.Proof.Gen.Kernel
import proofs.«412658_j74818330296971_3_alg».proof.Proof.Gen.Kernel.Frame
import proofs.«412658_j74818330296971_3_alg».proof.Proof.Gen.KernelIdeal
import proofs.«412658_j74818330296971_3_alg».proof.Proof.Gen.KernelIdeal.Frame
import proofs.«412658_j74818330296971_3_alg».proof.Proof.Gen.ReferenceIdeal
import proofs.«412658_j74818330296971_3_alg».proof.Proof.Gen.Pre_finite_inputs
import proofs.«412658_j74818330296971_3_alg».proof.Proof.Spec
import proofs.«412658_j74818330296971_3_alg».proof.Proof.Bridge
import proofs.«412658_j74818330296971_3_alg».proof.Proof.PreDecode
import proofs.«412658_j74818330296971_3_alg».proof.Proof.KRun
import proofs.«412658_j74818330296971_3_alg».proof.Proof.KValue
import proofs.«412658_j74818330296971_3_alg».proof.Proof.RefValue
import proofs.«412658_j74818330296971_3_alg».proof.Proof.RefStages
set_option maxRecDepth 16384

noncomputable section

namespace Cert.Proof

open Idealize.ShloMosaic Idealize.SL.Sem Cert.Gnn

/-- The kernel program's per-node sums and counts are the reference's two scatter stages of the same arguments. -/
theorem sums_eq (m : (ℓ : Loc Cert.KernelIdeal.nD Cert.KernelIdeal.τ Cert.KernelIdeal.sig) → Buf (Elt Ideal) ℓ) (c : Dev Cert.KernelIdeal.nD) :
    Cert.Gnn.KValue.sums m c = Cert.ReferenceIdeal.Read.val_main_v4 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := rfl
theorem cnts_eq (m : (ℓ : Loc Cert.KernelIdeal.nD Cert.KernelIdeal.τ Cert.KernelIdeal.sig) → Buf (Elt Ideal) ℓ) (c : Dev Cert.KernelIdeal.nD) :
    Cert.Gnn.KValue.cnts m c = Cert.ReferenceIdeal.Read.val_main_v8 (F := Ideal) (m ((c.tc : Thread Cert.KernelIdeal.nD Cert.KernelIdeal.τ).loc Cert.KernelIdeal.main_arg1)) := rfl

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Gnn.RefStages.run (F := Ideal) m ρ)

set_option maxHeartbeats 2000000 in
/-- From memories agreeing on the arguments, both programs end at the kernel form of the specification: the kernel's
    program by its value run read back through its regions and host stretches, the reference by its stages, the
    reference form, and the two forms' equality under the precondition's facts. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => ofFn2 (k_total (m ((c.tc : Thread Cert.KernelIdeal.nD Cert.KernelIdeal.τ).loc Cert.KernelIdeal.main_arg0)) (Cert.Gnn.KValue.sums m c) (Cert.Gnn.KValue.cnts m c) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))), ?_, ?_⟩
  · exact (θ_run Cert.KernelIdeal.defs _ _).mono (fun r h c => ⟨(h c).1.trans (Cert.Gnn.KValue.result_eq m ρ c), (h c).2⟩)
      (Cert.KernelIdeal.GenValue.run_value (F := Ideal) m ρ)
  · refine (θ_run Cert.ReferenceIdeal.defs _ _).mono (fun r h c => ⟨(h c).1.trans ?_, (h c).2⟩) (Cert.Gnn.RefStages.run (F := Ideal) m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16, Cert.Gnn.RefValue.ref_value]
    obtain ⟨h0, h2, h3, h5, h6, h7, h8, h9, h10, h11, h12, h13, h14, h15, h16, hb⟩ :=
      @Cert.Gnn.PreDecode.pre_facts Cert.Pre_finite_inputs.Gen.facts _ _ _ _ _ _ _ _ _ _ _ _ _ _ _ _ _ (hpre c)
    beta_reduce
    rw [sums_eq m c, cnts_eq m c]
    have key := k_total_eq_r_total (x := (m ((c.tc : Thread Cert.KernelIdeal.nD Cert.KernelIdeal.τ).loc Cert.KernelIdeal.main_arg0)))
      (S := Cert.ReferenceIdeal.Read.val_main_v4 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cn := Cert.ReferenceIdeal.Read.val_main_v8 (F := Ideal) (m ((c.tc : Thread Cert.KernelIdeal.nD Cert.KernelIdeal.τ).loc Cert.KernelIdeal.main_arg1)))
      (batch := (m ((c.tc : Thread Cert.KernelIdeal.nD Cert.KernelIdeal.τ).loc Cert.KernelIdeal.main_arg4))) (u := (m ((c.tc : Thread Cert.KernelIdeal.nD Cert.KernelIdeal.τ).loc Cert.KernelIdeal.main_arg3))) (W0 := (m ((c.tc : Thread Cert.KernelIdeal.nD Cert.KernelIdeal.τ).loc Cert.KernelIdeal.main_arg5))) (b0 := (m ((c.tc : Thread Cert.KernelIdeal.nD Cert.KernelIdeal.τ).loc Cert.KernelIdeal.main_arg6))) (W1 := (m ((c.tc : Thread Cert.KernelIdeal.nD Cert.KernelIdeal.τ).loc Cert.KernelIdeal.main_arg7))) (b1 := (m ((c.tc : Thread Cert.KernelIdeal.nD Cert.KernelIdeal.τ).loc Cert.KernelIdeal.main_arg8)))
      (W2 := (m ((c.tc : Thread Cert.KernelIdeal.nD Cert.KernelIdeal.τ).loc Cert.KernelIdeal.main_arg9))) (b2 := (m ((c.tc : Thread Cert.KernelIdeal.nD Cert.KernelIdeal.τ).loc Cert.KernelIdeal.main_arg10))) (g0 := (m ((c.tc : Thread Cert.KernelIdeal.nD Cert.KernelIdeal.τ).loc Cert.KernelIdeal.main_arg11))) (beta0 := (m ((c.tc : Thread Cert.KernelIdeal.nD Cert.KernelIdeal.τ).loc Cert.KernelIdeal.main_arg12))) (g1 := (m ((c.tc : Thread Cert.KernelIdeal.nD Cert.KernelIdeal.τ).loc Cert.KernelIdeal.main_arg13))) (beta1 := (m ((c.tc : Thread Cert.KernelIdeal.nD Cert.KernelIdeal.τ).loc Cert.KernelIdeal.main_arg14)))
      (g2 := (m ((c.tc : Thread Cert.KernelIdeal.nD Cert.KernelIdeal.τ).loc Cert.KernelIdeal.main_arg15))) (beta2 := (m ((c.tc : Thread Cert.KernelIdeal.nD Cert.KernelIdeal.τ).loc Cert.KernelIdeal.main_arg16)))
      h0 (Cert.Gnn.RefValue.sums_real (m ((c.tc : Thread Cert.KernelIdeal.nD Cert.KernelIdeal.τ).loc Cert.KernelIdeal.main_arg1)) (m ((c.tc : Thread Cert.KernelIdeal.nD Cert.KernelIdeal.τ).loc Cert.KernelIdeal.main_arg2)) h2) (Cert.Gnn.RefValue.cnt_real (m ((c.tc : Thread Cert.KernelIdeal.nD Cert.KernelIdeal.τ).loc Cert.KernelIdeal.main_arg1)))
      h3 h5 h6 h7 h8 h9 h10 h11 h12 h13 h14 h15 h16 hb
    exact congrArg ofFn2 key.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
